-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000 : Shape := ⟨1, ![10000]⟩
abbrev S10000x16 : Shape := ⟨2, ![10000, 16]⟩
abbrev S2x160000 : Shape := ⟨2, ![2, 160000]⟩
abbrev S160000 : Shape := ⟨1, ![160000]⟩
abbrev S32 : Shape := ⟨1, ![32]⟩
abbrev S100x32 : Shape := ⟨2, ![100, 32]⟩
abbrev S48x256 : Shape := ⟨2, ![48, 256]⟩
abbrev S256 : Shape := ⟨1, ![256]⟩
abbrev S256x256 : Shape := ⟨2, ![256, 256]⟩
abbrev S32x256 : Shape := ⟨2, ![32, 256]⟩
abbrev S768x256 : Shape := ⟨2, ![768, 256]⟩
abbrev S_ : Shape := ⟨0, ![]⟩

class Facts : Prop where
  bcast_S_S10000x16 : S_.BroadcastsInDim S10000x16 (![] : Fin 0 → Fin S10000x16.rank)
  reducesTo_S10000x16_S_d0_1 : S10000x16.ReducesTo [0, 1] S_
  h_S_ : 0 < S_.numel
  bcast_S_S160000 : S_.BroadcastsInDim S160000 (![] : Fin 0 → Fin S160000.rank)
  reducesTo_S160000_S_d0 : S160000.ReducesTo [0] S_
  bcast_S_S32 : S_.BroadcastsInDim S32 (![] : Fin 0 → Fin S32.rank)
  reducesTo_S32_S_d0 : S32.ReducesTo [0] S_
  bcast_S_S100x32 : S_.BroadcastsInDim S100x32 (![] : Fin 0 → Fin S100x32.rank)
  reducesTo_S100x32_S_d0_1 : S100x32.ReducesTo [0, 1] S_
  bcast_S_S48x256 : S_.BroadcastsInDim S48x256 (![] : Fin 0 → Fin S48x256.rank)
  reducesTo_S48x256_S_d0_1 : S48x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S32x256 : S_.BroadcastsInDim S32x256 (![] : Fin 0 → Fin S32x256.rank)
  reducesTo_S32x256_S_d0_1 : S32x256.ReducesTo [0, 1] S_
  bcast_S_S768x256 : S_.BroadcastsInDim S768x256 (![] : Fin 0 → Fin S768x256.rank)
  reducesTo_S768x256_S_d0_1 : S768x256.ReducesTo [0, 1] S_
  bcast_S_S2x160000 : S_.BroadcastsInDim S2x160000 (![] : Fin 0 → Fin S2x160000.rank)
  reducesTo_S2x160000_S_d0_1 : S2x160000.ReducesTo [0, 1] S_

variable [Facts]

def fn_part7 {F : FTy → Type} [FloatOps F] (main_v113 : IVec S_ 1) (main_v118 : IVec S2x160000 1) (main_c_46 : IVec S_ 1) : IVec S_ 1 :=
  let main_v119 : IVec S_ 1 := (fun x v => Host.reduce IntOp.andi x v reducesTo_S2x160000_S_d0_1 h_S_) main_v118 main_c_46
  let main_v120 : IVec S_ 1 := andi main_v113 main_v119
  main_v120

def fn_part6 {F : FTy → Type} [FloatOps F] (main_arg2 : IVec S2x160000 32) (main_arg23 : FVec F S256x256 .f32) (main_arg24 : FVec F S256 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x256 .f32 := Host.absf main_arg23
  let main_cst_40 : FVec F S_ .f32 := constant S_ .f32 0x7F800000#32
  let main_v105 : FVec F S256x256 .f32 := broadcastInDim S256x256 ![] bcast_S_S256x256 main_cst_40
  let main_v106 : IVec S256x256 1 := cmpf .olt main_v104 main_v105
  let main_c_41 : IVec S_ 1 := constantI S_ 1 1#1
  let main_v107 : IVec S_ 1 := (fun x v => Host.reduce IntOp.andi x v reducesTo_S256x256_S_d0_1 h_S_) main_v106 main_c_41
  let main_v108 : IVec S_ 1 := andi main_v103 main_v107
  let main_v109 : FVec F S256 .f32 := Host.absf main_arg24
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_c_44 : IVec S_ 32 := constantI S_ 32 4294957296#32
  let main_v114 : IVec S2x160000 32 := broadcastInDim S2x160000 ![] bcast_S_S2x160000 main_c_44
  let main_v115 : IVec S2x160000 1 := cmpi .sge main_arg2 main_v114
  let main_c_45 : IVec S_ 32 := constantI S_ 32 10000#32
  let main_v116 : IVec S2x160000 32 := broadcastInDim S2x160000 ![] bcast_S_S2x160000 main_c_45
  let main_v117 : IVec S2x160000 1 := cmpi .slt main_arg2 main_v116
  let main_v118 : IVec S2x160000 1 := andi main_v115 main_v117
  let main_c_46 : IVec S_ 1 := constantI S_ 1 1#1
  fn_part7 (F := F) main_v113 main_v118 main_c_46

def fn_part5 {F : FTy → Type} [FloatOps F] (main_arg2 : IVec S2x160000 32) (main_arg20 : FVec F S256 .f32) (main_arg21 : FVec F S256x256 .f32) (main_arg22 : FVec F S256 .f32) (main_arg23 : FVec F S256x256 .f32) (main_arg24 : FVec F S256 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x256 .f32 := Host.absf main_arg21
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S256 .f32 := Host.absf main_arg22
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg2 main_arg23 main_arg24 main_v98 main_v101 main_c_39

def fn_part4 {F : FTy → Type} [FloatOps F] (main_arg2 : IVec S2x160000 32) (main_arg16 : FVec F S256 .f32) (main_arg17 : FVec F S256x256 .f32) (main_arg18 : FVec F S256 .f32) (main_arg19 : FVec F S256x256 .f32) (main_arg20 : FVec F S256 .f32) (main_arg21 : FVec F S256x256 .f32) (main_arg22 : FVec F S256 .f32) (main_arg23 : FVec F S256x256 .f32) (main_arg24 : FVec F S256 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg17
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x256 .f32 := Host.absf main_arg19
  let main_cst_32 : FVec F S_ .f32 := constant S_ .f32 0x7F800000#32
  fn_part5 (F := F) main_arg2 main_arg20 main_arg21 main_arg22 main_arg23 main_arg24 main_v83 main_v84 main_cst_32

def fn_part3 {F : FTy → Type} [FloatOps F] (main_arg2 : IVec S2x160000 32) (main_arg13 : FVec F S768x256 .f32) (main_arg14 : FVec F S256 .f32) (main_arg15 : FVec F S256x256 .f32) (main_arg16 : FVec F S256 .f32) (main_arg17 : FVec F S256x256 .f32) (main_arg18 : FVec F S256 .f32) (main_arg19 : FVec F S256x256 .f32) (main_arg20 : FVec F S256 .f32) (main_arg21 : FVec F S256x256 .f32) (main_arg22 : FVec F S256 .f32) (main_arg23 : FVec F S256x256 .f32) (main_arg24 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S768x256 .f32 := Host.absf main_arg13
  let main_cst_20 : FVec F S_ .f32 := constant S_ .f32 0x7F800000#32
  let main_v55 : FVec F S768x256 .f32 := broadcastInDim S768x256 ![] bcast_S_S768x256 main_cst_20
  let main_v56 : IVec S768x256 1 := cmpf .olt main_v54 main_v55
  let main_c_21 : IVec S_ 1 := constantI S_ 1 1#1
  let main_v57 : IVec S_ 1 := (fun x v => Host.reduce IntOp.andi x v reducesTo_S768x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg15
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg2 main_arg16 main_arg17 main_arg18 main_arg19 main_arg20 main_arg21 main_arg22 main_arg23 main_arg24 main_v63 main_v67

def fn_part2 {F : FTy → Type} [FloatOps F] (main_arg2 : IVec S2x160000 32) (main_arg9 : FVec F S256 .f32) (main_arg10 : FVec F S32x256 .f32) (main_arg11 : FVec F S256 .f32) (main_arg12 : FVec F S256x256 .f32) (main_arg13 : FVec F S768x256 .f32) (main_arg14 : FVec F S256 .f32) (main_arg15 : FVec F S256x256 .f32) (main_arg16 : FVec F S256 .f32) (main_arg17 : FVec F S256x256 .f32) (main_arg18 : FVec F S256 .f32) (main_arg19 : FVec F S256x256 .f32) (main_arg20 : FVec F S256 .f32) (main_arg21 : FVec F S256x256 .f32) (main_arg22 : FVec F S256 .f32) (main_arg23 : FVec F S256x256 .f32) (main_arg24 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S32x256 .f32 := Host.absf main_arg10
  let main_cst_14 : FVec F S_ .f32 := constant S_ .f32 0x7F800000#32
  let main_v40 : FVec F S32x256 .f32 := broadcastInDim S32x256 ![] bcast_S_S32x256 main_cst_14
  let main_v41 : IVec S32x256 1 := cmpf .olt main_v39 main_v40
  let main_c_15 : IVec S_ 1 := constantI S_ 1 1#1
  let main_v42 : IVec S_ 1 := (fun x v => Host.reduce IntOp.andi x v reducesTo_S32x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg2 main_arg13 main_arg14 main_arg15 main_arg16 main_arg17 main_arg18 main_arg19 main_arg20 main_arg21 main_arg22 main_arg23 main_arg24 main_v48 main_v49 main_v50

def fn_part1 {F : FTy → Type} [FloatOps F] (main_arg2 : IVec S2x160000 32) (main_arg6 : FVec F S48x256 .f32) (main_arg7 : FVec F S256 .f32) (main_arg8 : FVec F S256x256 .f32) (main_arg9 : FVec F S256 .f32) (main_arg10 : FVec F S32x256 .f32) (main_arg11 : FVec F S256 .f32) (main_arg12 : FVec F S256x256 .f32) (main_arg13 : FVec F S768x256 .f32) (main_arg14 : FVec F S256 .f32) (main_arg15 : FVec F S256x256 .f32) (main_arg16 : FVec F S256 .f32) (main_arg17 : FVec F S256x256 .f32) (main_arg18 : FVec F S256 .f32) (main_arg19 : FVec F S256x256 .f32) (main_arg20 : FVec F S256 .f32) (main_arg21 : FVec F S256x256 .f32) (main_arg22 : FVec F S256 .f32) (main_arg23 : FVec F S256x256 .f32) (main_arg24 : FVec F S256 .f32) (main_v13 : IVec S_ 1) (main_v16 : IVec S100x32 1) : IVec S_ 1 :=
  let main_c_5 : IVec S_ 1 := constantI S_ 1 1#1
  let main_v17 : IVec S_ 1 := (fun x v => Host.reduce IntOp.andi x v reducesTo_S100x32_S_d0_1 h_S_) main_v16 main_c_5
  let main_v18 : IVec S_ 1 := andi main_v13 main_v17
  let main_v19 : FVec F S48x256 .f32 := Host.absf main_arg6
  let main_cst_6 : FVec F S_ .f32 := constant S_ .f32 0x7F800000#32
  let main_v20 : FVec F S48x256 .f32 := broadcastInDim S48x256 ![] bcast_S_S48x256 main_cst_6
  let main_v21 : IVec S48x256 1 := cmpf .olt main_v19 main_v20
  let main_c_7 : IVec S_ 1 := constantI S_ 1 1#1
  let main_v22 : IVec S_ 1 := (fun x v => Host.reduce IntOp.andi x v reducesTo_S48x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : IVec S10000 32) (main_arg1 : FVec F S10000x16 .f32) (main_arg2 : IVec S2x160000 32) (main_arg3 : FVec F S160000 .f32) (main_arg4 : FVec F S32 .f32) (main_arg5 : FVec F S100x32 .f32) (main_arg6 : FVec F S48x256 .f32) (main_arg7 : FVec F S256 .f32) (main_arg8 : FVec F S256x256 .f32) (main_arg9 : FVec F S256 .f32) (main_arg10 : FVec F S32x256 .f32) (main_arg11 : FVec F S256 .f32) (main_arg12 : FVec F S256x256 .f32) (main_arg13 : FVec F S768x256 .f32) (main_arg14 : FVec F S256 .f32) (main_arg15 : FVec F S256x256 .f32) (main_arg16 : FVec F S256 .f32) (main_arg17 : FVec F S256x256 .f32) (main_arg18 : FVec F S256 .f32) (main_arg19 : FVec F S256x256 .f32) (main_arg20 : FVec F S256 .f32) (main_arg21 : FVec F S256x256 .f32) (main_arg22 : FVec F S256 .f32) (main_arg23 : FVec F S256x256 .f32) (main_arg24 : FVec F S256 .f32) : IVec S_ 1 :=
  let main_v0 : FVec F S10000x16 .f32 := Host.absf main_arg1
  let main_cst : FVec F S_ .f32 := constant S_ .f32 0x7F800000#32
  let main_v1 : FVec F S10000x16 .f32 := broadcastInDim S10000x16 ![] bcast_S_S10000x16 main_cst
  let main_v2 : IVec S10000x16 1 := cmpf .olt main_v0 main_v1
  let main_c : IVec S_ 1 := constantI S_ 1 1#1
  let main_v3 : IVec S_ 1 := (fun x v => Host.reduce IntOp.andi x v reducesTo_S10000x16_S_d0_1 h_S_) main_v2 main_c
  let main_v4 : FVec F S160000 .f32 := Host.absf main_arg3
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S100x32 .f32 := Host.absf main_arg5
  let main_cst_4 : FVec F S_ .f32 := constant S_ .f32 0x7F800000#32
  let main_v15 : FVec F S100x32 .f32 := broadcastInDim S100x32 ![] bcast_S_S100x32 main_cst_4
  let main_v16 : IVec S100x32 1 := cmpf .olt main_v14 main_v15
  fn_part1 (F := F) main_arg2 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S10000 : Shape := ⟨1, ![10000]⟩
abbrev S10000x16 : Shape := ⟨2, ![10000, 16]⟩
abbrev S2x160000 : Shape := ⟨2, ![2, 160000]⟩
abbrev S160000 : Shape := ⟨1, ![160000]⟩
abbrev S32 : Shape := ⟨1, ![32]⟩
abbrev S100x32 : Shape := ⟨2, ![100, 32]⟩
abbrev S48x256 : Shape := ⟨2, ![48, 256]⟩
abbrev S256 : Shape := ⟨1, ![256]⟩
abbrev S256x256 : Shape := ⟨2, ![256, 256]⟩
abbrev S32x256 : Shape := ⟨2, ![32, 256]⟩
abbrev S768x256 : Shape := ⟨2, ![768, 256]⟩
abbrev S_ : Shape := ⟨0, ![]⟩
abbrev S10000x1 : Shape := ⟨2, ![10000, 1]⟩
abbrev S10000x32 : Shape := ⟨2, ![10000, 32]⟩
abbrev S10000x48 : Shape := ⟨2, ![10000, 48]⟩
abbrev S10000x256 : Shape := ⟨2, ![10000, 256]⟩
abbrev S1x256 : Shape := ⟨2, ![1, 256]⟩
abbrev S160000x1 : Shape := ⟨2, ![160000, 1]⟩
abbrev S1x32 : Shape := ⟨2, ![1, 32]⟩
abbrev S160000x32 : Shape := ⟨2, ![160000, 32]⟩
abbrev S160000x256 : Shape := ⟨2, ![160000, 256]⟩
abbrev S1x160000 : Shape := ⟨2, ![1, 160000]⟩
abbrev S1 : Shape := ⟨1, ![1]⟩
abbrev S1x1 : Shape := ⟨2, ![1, 1]⟩
abbrev S4000x256 : Shape := ⟨2, ![4000, 256]⟩

abbrev nBuf : Space → Nat
  | .hbm => 188
  | .vmem => 18
  | .smem => 0
  | _ => 0

abbrev hbmTy0_0 (i : Nat) : BufTy := match i % 128 with
  | 0 => ⟨S10000, .i32⟩
  | 1 => ⟨S10000x16, .f32⟩
  | 2 => ⟨S2x160000, .i32⟩
  | 3 => ⟨S160000, .f32⟩
  | 4 => ⟨S32, .f32⟩
  | 5 => ⟨S100x32, .f32⟩
  | 6 => ⟨S48x256, .f32⟩
  | 7 => ⟨S256, .f32⟩
  | 8 => ⟨S256x256, .f32⟩
  | 9 => ⟨S256, .f32⟩
  | 10 => ⟨S32x256, .f32⟩
  | 11 => ⟨S256, .f32⟩
  | 12 => ⟨S256x256, .f32⟩
  | 13 => ⟨S768x256, .f32⟩
  | 14 => ⟨S256, .f32⟩
  | 15 => ⟨S256x256, .f32⟩
  | 16 => ⟨S256, .f32⟩
  | 17 => ⟨S256x256, .f32⟩
  | 18 => ⟨S256, .f32⟩
  | 19 => ⟨S256x256, .f32⟩
  | 20 => ⟨S256, .f32⟩
  | 21 => ⟨S256x256, .f32⟩
  | 22 => ⟨S256, .f32⟩
  | 23 => ⟨S256x256, .f32⟩
  | 24 => ⟨S256, .f32⟩
  | 25 => ⟨S_, .i32⟩
  | 26 => ⟨S10000, .i32⟩
  | 27 => ⟨S10000, .i1⟩
  | 28 => ⟨S_, .i32⟩
  | 29 => ⟨S10000, .i32⟩
  | 30 => ⟨S10000, .i32⟩
  | 31 => ⟨S10000, .i32⟩
  | 32 => ⟨S10000x1, .i32⟩
  | 33 => ⟨S10000x32, .f32⟩
  | 34 => ⟨S10000x48, .f32⟩
  | 35 => ⟨S10000x256, .f32⟩
  | 36 => ⟨S1x256, .f32⟩
  | 37 => ⟨S10000x256, .f32⟩
  | 38 => ⟨S10000x256, .f32⟩
  | 39 => ⟨S10000x256, .f32⟩
  | 40 => ⟨S10000x256, .f32⟩
  | 41 => ⟨S_, .f32⟩
  | 42 => ⟨S10000x256, .f32⟩
  | 43 => ⟨S10000x256, .f32⟩
  | 44 => ⟨S10000x256, .f32⟩
  | 45 => ⟨S_, .f32⟩
  | 46 => ⟨S10000x256, .f32⟩
  | 47 => ⟨S10000x256, .f32⟩
  | 48 => ⟨S10000x256, .f32⟩
  | 49 => ⟨S_, .f32⟩
  | 50 => ⟨S10000x256, .f32⟩
  | 51 => ⟨S10000x256, .f32⟩
  | 52 => ⟨S_, .f32⟩
  | 53 => ⟨S10000x256, .f32⟩
  | 54 => ⟨S10000x256, .f32⟩
  | 55 => ⟨S10000x256, .f32⟩
  | 56 => ⟨S_, .f32⟩
  | 57 => ⟨S160000, .f32⟩
  | 58 => ⟨S160000, .f32⟩
  | 59 => ⟨S160000x1, .f32⟩
  | 60 => ⟨S160000x1, .f32⟩
  | 61 => ⟨S160000x1, .f32⟩
  | 62 => ⟨S160000x1, .f32⟩
  | 63 => ⟨S_, .f32⟩
  | 64 => ⟨S160000x1, .f32⟩
  | 65 => ⟨S160000x1, .f32⟩
  | 66 => ⟨S_, .f32⟩
  | 67 => ⟨S160000x1, .f32⟩
  | 68 => ⟨S160000x1, .f32⟩
  | 69 => ⟨S160000x1, .f32⟩
  | 70 => ⟨S_, .f32⟩
  | 71 => ⟨S160000x1, .f32⟩
  | 72 => ⟨S160000x1, .f32⟩
  | 73 => ⟨S160000x1, .f32⟩
  | 74 => ⟨S160000x1, .f32⟩
  | 75 => ⟨S_, .f32⟩
  | 76 => ⟨S160000x1, .f32⟩
  | 77 => ⟨S160000x1, .f32⟩
  | 78 => ⟨S160000x1, .f32⟩
  | 79 => ⟨S160000x1, .f32⟩
  | 80 => ⟨S160000x1, .f32⟩
  | 81 => ⟨S1x32, .f32⟩
  | 82 => ⟨S160000x32, .f32⟩
  | 83 => ⟨S160000x32, .f32⟩
  | 84 => ⟨S160000x32, .f32⟩
  | 85 => ⟨S160000x32, .f32⟩
  | 86 => ⟨S160000x32, .f32⟩
  | 87 => ⟨S160000x32, .f32⟩
  | 88 => ⟨S160000x256, .f32⟩
  | 89 => ⟨S1x256, .f32⟩
  | 90 => ⟨S160000x256, .f32⟩
  | 91 => ⟨S160000x256, .f32⟩
  | 92 => ⟨S10000x256, .f32⟩
  | 93 => ⟨S1x256, .f32⟩
  | 94 => ⟨S10000x256, .f32⟩
  | 95 => ⟨S10000x256, .f32⟩
  | 96 => ⟨S1x160000, .i32⟩
  | 97 => ⟨S160000, .i32⟩
  | 98 => ⟨S1x160000, .i32⟩
  | 99 => ⟨S160000, .i32⟩
  | 100 => ⟨S_, .i32⟩
  | 101 => ⟨S160000, .i32⟩
  | 102 => ⟨S160000, .i1⟩
  | 103 => ⟨S_, .i32⟩
  | 104 => ⟨S160000, .i32⟩
  | 105 => ⟨S160000, .i32⟩
  | 106 => ⟨S160000, .i32⟩
  | 107 => ⟨S160000x1, .i32⟩
  | 108 => ⟨S1, .i32⟩
  | 109 => ⟨S_, .i32⟩
  | 110 => ⟨S160000x1, .i32⟩
  | 111 => ⟨S160000x1, .i1⟩
  | 112 => ⟨S1x1, .i32⟩
  | 113 => ⟨S160000x1, .i32⟩
  | 114 => ⟨S160000x1, .i1⟩
  | 115 => ⟨S160000x1, .i1⟩
  | 116 => ⟨S_, .i1⟩
  | 117 => ⟨S160000, .i1⟩
  | 118 => ⟨S160000x256, .f32⟩
  | 119 => ⟨S160000x256, .i1⟩
  | 120 => ⟨S_, .f32⟩
  | 121 => ⟨S160000x256, .f32⟩
  | 122 => ⟨S160000x256, .f32⟩
  | 123 => ⟨S_, .i32⟩
  | 124 => ⟨S160000, .i32⟩
  | 125 => ⟨S160000, .i1⟩
  | 126 => ⟨S_, .i32⟩
  | 127 => ⟨S160000, .i32⟩
  | _ => ⟨S10000, .i32⟩

abbrev hbmTy0_1 (i : Nat) : BufTy := match i % 128 with
  | 0 => ⟨S160000, .i32⟩
  | 1 => ⟨S160000, .i32⟩
  | 2 => ⟨S160000x1, .i32⟩
  | 3 => ⟨S1, .i32⟩
  | 4 => ⟨S_, .i32⟩
  | 5 => ⟨S160000x1, .i32⟩
  | 6 => ⟨S160000x1, .i1⟩
  | 7 => ⟨S1x1, .i32⟩
  | 8 => ⟨S160000x1, .i32⟩
  | 9 => ⟨S160000x1, .i1⟩
  | 10 => ⟨S160000x1, .i1⟩
  | 11 => ⟨S_, .i1⟩
  | 12 => ⟨S160000, .i1⟩
  | 13 => ⟨S160000x256, .f32⟩
  | 14 => ⟨S160000x256, .i1⟩
  | 15 => ⟨S_, .f32⟩
  | 16 => ⟨S160000x256, .f32⟩
  | 17 => ⟨S160000x256, .f32⟩
  | 18 => ⟨S256x256, .f32⟩
  | 19 => ⟨S256x256, .bf16⟩
  | 20 => ⟨S256x256, .f32⟩
  | 21 => ⟨S256x256, .bf16⟩
  | 22 => ⟨S256x256, .f32⟩
  | 23 => ⟨S256x256, .bf16⟩
  | 24 => ⟨S256x256, .bf16⟩
  | 25 => ⟨S256x256, .bf16⟩
  | 26 => ⟨S256x256, .bf16⟩
  | 27 => ⟨S160000x256, .f32⟩
  | 28 => ⟨S_, .f32⟩
  | 29 => ⟨S10000x256, .f32⟩
  | 30 => ⟨S160000x1, .i32⟩
  | 31 => ⟨S10000x256, .f32⟩
  | 32 => ⟨S10000x256, .f32⟩
  | 33 => ⟨S10000x256, .f32⟩
  | 34 => ⟨S10000x256, .f32⟩
  | 35 => ⟨S1x256, .f32⟩
  | 36 => ⟨S10000x256, .f32⟩
  | 37 => ⟨S10000x256, .f32⟩
  | 38 => ⟨S10000x256, .f32⟩
  | 39 => ⟨S10000x256, .f32⟩
  | 40 => ⟨S_, .f32⟩
  | 41 => ⟨S10000x256, .f32⟩
  | 42 => ⟨S10000x256, .f32⟩
  | 43 => ⟨S10000x256, .f32⟩
  | 44 => ⟨S_, .f32⟩
  | 45 => ⟨S10000x256, .f32⟩
  | 46 => ⟨S10000x256, .f32⟩
  | 47 => ⟨S10000x256, .f32⟩
  | 48 => ⟨S_, .f32⟩
  | 49 => ⟨S10000x256, .f32⟩
  | 50 => ⟨S10000x256, .f32⟩
  | 51 => ⟨S_, .f32⟩
  | 52 => ⟨S10000x256, .f32⟩
  | 53 => ⟨S10000x256, .f32⟩
  | 54 => ⟨S10000x256, .f32⟩
  | 55 => ⟨S10000x256, .f32⟩
  | 56 => ⟨S1x256, .f32⟩
  | 57 => ⟨S10000x256, .f32⟩
  | 58 => ⟨S10000x256, .f32⟩
  | 59 => ⟨S10000x256, .f32⟩
  | _ => ⟨S10000, .i32⟩

abbrev hbmTy (i : Nat) : BufTy := match i / 128 with
  | 0 => hbmTy0_0 i
  | 1 => hbmTy0_1 i
  | _ => ⟨S10000, .i32⟩

abbrev bufTy : (tb : Table) → Fin (tcTables nBuf tb) → BufTy
  | .hbm, ⟨i, _⟩ => hbmTy i
  | .local _ .vmem, ⟨0, _⟩ => ⟨S4000x256, .f32⟩
  | .local _ .vmem, ⟨1, _⟩ => ⟨S4000x256, .f32⟩
  | .local _ .vmem, ⟨2, _⟩ => ⟨S4000x256, .f32⟩
  | .local _ .vmem, ⟨3, _⟩ => ⟨S4000x256, .f32⟩
  | .local _ .vmem, ⟨4, _⟩ => ⟨S4000x256, .f32⟩
  | .local _ .vmem, ⟨5, _⟩ => ⟨S4000x256, .f32⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256, .f32⟩
  | .local _ .vmem, ⟨10, _⟩ => ⟨S256x256, .bf16⟩
  | .local _ .vmem, ⟨11, _⟩ => ⟨S256, .f32⟩
  | .local _ .vmem, ⟨12, _⟩ => ⟨S256x256, .bf16⟩
  | .local _ .vmem, ⟨13, _⟩ => ⟨S256, .f32⟩
  | .local _ .vmem, ⟨14, _⟩ => ⟨S256x256, .bf16⟩
  | .local _ .vmem, ⟨15, _⟩ => ⟨S256, .f32⟩
  | .local _ .vmem, ⟨16, _⟩ => ⟨S4000x256, .f32⟩
  | .local _ .vmem, ⟨17, _⟩ => ⟨S4000x256, .f32⟩
  | _, _ => ⟨S10000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_v0 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_1 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_v21 : Ref sig .tc := ⟨.hbm, 51, rfl⟩
abbrev main_cst_3 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_4 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_5 : Ref sig .tc := ⟨.hbm, 63, rfl⟩
abbrev main_v31 : Ref sig .tc := ⟨.hbm, 64, rfl⟩
abbrev main_v32 : Ref sig .tc := ⟨.hbm, 65, rfl⟩
abbrev main_cst_6 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_7 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_8 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_call0_c : Ref sig .tc := ⟨.hbm, 100, rfl⟩
abbrev main_call0_v0 : Ref sig .tc := ⟨.hbm, 101, rfl⟩
abbrev main_call0_v1 : Ref sig .tc := ⟨.hbm, 102, rfl⟩
abbrev main_call0_c_0 : Ref sig .tc := ⟨.hbm, 103, rfl⟩
abbrev main_call0_v2 : Ref sig .tc := ⟨.hbm, 104, rfl⟩
abbrev main_call0_v3 : Ref sig .tc := ⟨.hbm, 105, rfl⟩
abbrev main_call0_v4 : Ref sig .tc := ⟨.hbm, 106, rfl⟩
abbrev main_call0_v5 : Ref sig .tc := ⟨.hbm, 107, rfl⟩
abbrev main_call0_c_1 : Ref sig .tc := ⟨.hbm, 108, rfl⟩
abbrev main_call0_c_2 : Ref sig .tc := ⟨.hbm, 109, rfl⟩
abbrev main_call0_v6 : Ref sig .tc := ⟨.hbm, 110, rfl⟩
abbrev main_call0_v7 : Ref sig .tc := ⟨.hbm, 111, rfl⟩
abbrev main_call0_v8 : Ref sig .tc := ⟨.hbm, 112, rfl⟩
abbrev main_call0_v9 : Ref sig .tc := ⟨.hbm, 113, rfl⟩
abbrev main_call0_v10 : Ref sig .tc := ⟨.hbm, 114, rfl⟩
abbrev main_call0_v11 : Ref sig .tc := ⟨.hbm, 115, rfl⟩
abbrev main_call0_c_3 : Ref sig .tc := ⟨.hbm, 116, rfl⟩
abbrev main_call0_v12 : Ref sig .tc := ⟨.hbm, 117, rfl⟩
abbrev main_call0_v13 : Ref sig .tc := ⟨.hbm, 118, rfl⟩
abbrev main_call0_v14 : Ref sig .tc := ⟨.hbm, 119, rfl⟩
abbrev main_call0_cst : Ref sig .tc := ⟨.hbm, 120, rfl⟩
abbrev main_call0_v15 : Ref sig .tc := ⟨.hbm, 121, rfl⟩
abbrev main_v64 : Ref sig .tc := ⟨.hbm, 122, rfl⟩
abbrev main_call1_c : Ref sig .tc := ⟨.hbm, 123, rfl⟩
abbrev main_call1_v0 : Ref sig .tc := ⟨.hbm, 124, rfl⟩
abbrev main_call1_v1 : Ref sig .tc := ⟨.hbm, 125, rfl⟩
abbrev main_call1_c_0 : Ref sig .tc := ⟨.hbm, 126, rfl⟩
abbrev main_call1_v2 : Ref sig .tc := ⟨.hbm, 127, rfl⟩
abbrev main_call1_v3 : Ref sig .tc := ⟨.hbm, 128, rfl⟩
abbrev main_call1_v4 : Ref sig .tc := ⟨.hbm, 129, rfl⟩
abbrev main_call1_v5 : Ref sig .tc := ⟨.hbm, 130, rfl⟩
abbrev main_call1_c_1 : Ref sig .tc := ⟨.hbm, 131, rfl⟩
abbrev main_call1_c_2 : Ref sig .tc := ⟨.hbm, 132, rfl⟩
abbrev main_call1_v6 : Ref sig .tc := ⟨.hbm, 133, rfl⟩
abbrev main_call1_v7 : Ref sig .tc := ⟨.hbm, 134, rfl⟩
abbrev main_call1_v8 : Ref sig .tc := ⟨.hbm, 135, rfl⟩
abbrev main_call1_v9 : Ref sig .tc := ⟨.hbm, 136, rfl⟩
abbrev main_call1_v10 : Ref sig .tc := ⟨.hbm, 137, rfl⟩
abbrev main_call1_v11 : Ref sig .tc := ⟨.hbm, 138, rfl⟩
abbrev main_call1_c_3 : Ref sig .tc := ⟨.hbm, 139, rfl⟩
abbrev main_call1_v12 : Ref sig .tc := ⟨.hbm, 140, rfl⟩
abbrev main_call1_v13 : Ref sig .tc := ⟨.hbm, 141, rfl⟩
abbrev main_call1_v14 : Ref sig .tc := ⟨.hbm, 142, rfl⟩
abbrev main_call1_cst : Ref sig .tc := ⟨.hbm, 143, rfl⟩
abbrev main_call1_v15 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_cst_9 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_cst_10 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_cst_11 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_cst_12 : Ref sig .tc := ⟨.hbm, 176, rfl⟩
abbrev main_v93 : Ref sig .tc := ⟨.hbm, 177, rfl⟩
abbrev main_v94 : Ref sig .tc := ⟨.hbm, 178, rfl⟩
abbrev main_cst_13 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4000x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  concatenates_S10000x32_S10000x16_S10000x48_d1 : Shape.Concatenates [S10000x32, S10000x16] S10000x48 1
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S_S160000 : S_.BroadcastsInDim S160000 (![] : Fin 0 → Fin S160000.rank)
  bcast_S160000_S160000x1_0 : S160000.BroadcastsInDim S160000x1 (![0] : Fin 1 → Fin S160000x1.rank)
  bcast_S_S160000x1 : S_.BroadcastsInDim S160000x1 (![] : Fin 0 → Fin S160000x1.rank)
  bcast_S32_S1x32_1 : S32.BroadcastsInDim S1x32 (![1] : Fin 1 → Fin S1x32.rank)
  bcast_S1x32_S160000x32_0_1 : S1x32.BroadcastsInDim S160000x32 (![0, 1] : Fin 2 → Fin S160000x32.rank)
  bcast_S160000x1_S160000x32_0_1 : S160000x1.BroadcastsInDim S160000x32 (![0, 1] : Fin 2 → Fin S160000x32.rank)
  bcast_S1x256_S160000x256_0_1 : S1x256.BroadcastsInDim S160000x256 (![0, 1] : Fin 2 → Fin S160000x256.rank)
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  reducesTo_S160000x1_S160000_d1 : S160000x1.ReducesTo [1] S160000
  h_S_ : 0 < S_.numel
  bcast_S160000_S160000x256_0 : S160000.BroadcastsInDim S160000x256 (![0] : Fin 1 → Fin S160000x256.rank)
  bcast_S_S160000x256 : S_.BroadcastsInDim S160000x256 (![] : Fin 0 → Fin S160000x256.rank)
  slices_S768x256_S256x256_0_0 : S768x256.Slices ![0, 0] S256x256
  bitsLt_bf16_f32 : FTy.bits .bf16 < FTy.bits .f32
  slices_S768x256_S256x256_256_0 : S768x256.Slices ![256, 0] S256x256
  slices_S768x256_S256x256_512_0 : S768x256.Slices ![512, 0] S256x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  gather_S100x32_S10000x1_S10000x32_1_0_n_n_0_1_132_wf : GatherDims.WF S100x32 S10000x1 S10000x32 [1] [0] [] [0] [] 1 ![1, 32]
  dot_S10000x48_S48x256_S10000x256_1_0_0_1_n_n_wf : DotDims.WF S10000x48 S48x256 S10000x256 [1] [0] [0] [1] [] []
  dot_S160000x32_S32x256_S160000x256_1_0_0_1_n_n_wf : DotDims.WF S160000x32 S32x256 S160000x256 [1] [0] [0] [1] [] []
  dot_S10000x256_S256x256_S10000x256_1_0_0_1_n_n_wf : DotDims.WF S10000x256 S256x256 S10000x256 [1] [0] [0] [1] [] []
  gather_S10000x256_S160000x1_S160000x256_1_0_n_n_0_1_1256_wf : GatherDims.WF S10000x256 S160000x1 S160000x256 [1] [0] [] [0] [] 1 ![1, 256]
  dot_S4000x256_S256x256_S4000x256_1_0_0_1_n_n_wf : DotDims.WF S4000x256 S256x256 S4000x256 [1] [0] [0] [1] [] []
  scatter_S10000x256_S160000x1_S160000x256_1_0_0_1_wf : ScatterDims.WF S10000x256 S160000x1 S160000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S160000x256.size a
  hwx0_0 : ∀ i : grid0.Coords, EltTy.bits .f32 = 32 ∨ (Rect.block (s := S160000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S160000x256.size a
  hwx0_1 : ∀ i : grid0.Coords, EltTy.bits .f32 = 32 ∨ (Rect.block (s := S160000x256) S4000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S160000x256.size a
  hwx0_2 : ∀ i : grid0.Coords, EltTy.bits .f32 = 32 ∨ (Rect.block (s := S160000x256) S4000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x256.size a ≤ S160000x256.size a
  hwx0_13 : ∀ i : grid0.Coords, EltTy.bits .f32 = 32 ∨ (Rect.block (s := S160000x256) S4000x256.size (cc0_transform_13 i) (hinb0_13 i)).WholeWords (EltTy.packing .f32)

variable [Facts₀]

def gather_S100x32_S10000x1_S10000x32_1_0_n_n_0_1_132 : GatherDims S100x32 S10000x1 S10000x32 where
  offsetDims := [1]
  collapsedSliceDims := [0]
  operandBatchingDims := []
  startIndicesBatchingDims := []
  startIndexMap := [0]
  indexVectorDim := 1
  sliceSizes := ![1, 32]
  wf := gather_S100x32_S10000x1_S10000x32_1_0_n_n_0_1_132_wf
def dot_S10000x48_S48x256_S10000x256_1_0_0_1_n_n : DotDims S10000x48 S48x256 S10000x256 where
  lhsContracting := [1]
  rhsContracting := [0]
  lhsNonContracting := [0]
  rhsNonContracting := [1]
  lhsBatch := []
  rhsBatch := []
  wf := dot_S10000x48_S48x256_S10000x256_1_0_0_1_n_n_wf
def dot_S160000x32_S32x256_S160000x256_1_0_0_1_n_n : DotDims S160000x32 S32x256 S160000x256 where
  lhsContracting := [1]
  rhsContracting := [0]
  lhsNonContracting := [0]
  rhsNonContracting := [1]
  lhsBatch := []
  rhsBatch := []
  wf := dot_S160000x32_S32x256_S160000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf

abbrev win0_0 : Pipeline.Window sig grid0 :=
  Pipeline.Window.ofSpec (Memref.whole main_v64) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v65) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v55) S4000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v67) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v69) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v71) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg14) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v72) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg16) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v73) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg18) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v74) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg20) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v75) S4000x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S10000 : Shape := ⟨1, ![10000]⟩
abbrev S10000x16 : Shape := ⟨2, ![10000, 16]⟩
abbrev S2x160000 : Shape := ⟨2, ![2, 160000]⟩
abbrev S160000 : Shape := ⟨1, ![160000]⟩
abbrev S32 : Shape := ⟨1, ![32]⟩
abbrev S100x32 : Shape := ⟨2, ![100, 32]⟩
abbrev S48x256 : Shape := ⟨2, ![48, 256]⟩
abbrev S256 : Shape := ⟨1, ![256]⟩
abbrev S256x256 : Shape := ⟨2, ![256, 256]⟩
abbrev S32x256 : Shape := ⟨2, ![32, 256]⟩
abbrev S768x256 : Shape := ⟨2, ![768, 256]⟩
abbrev S_ : Shape := ⟨0, ![]⟩
abbrev S10000x1 : Shape := ⟨2, ![10000, 1]⟩
abbrev S10000x32 : Shape := ⟨2, ![10000, 32]⟩
abbrev S10000x48 : Shape := ⟨2, ![10000, 48]⟩
abbrev S10000x256 : Shape := ⟨2, ![10000, 256]⟩
abbrev S1x256 : Shape := ⟨2, ![1, 256]⟩
abbrev S160000x1 : Shape := ⟨2, ![160000, 1]⟩
abbrev S1x32 : Shape := ⟨2, ![1, 32]⟩
abbrev S160000x32 : Shape := ⟨2, ![160000, 32]⟩
abbrev S160000x256 : Shape := ⟨2, ![160000, 256]⟩
abbrev S1x160000 : Shape := ⟨2, ![1, 160000]⟩
abbrev S160000x768 : Shape := ⟨2, ![160000, 768]⟩

abbrev nBuf : Space → Nat
  | .hbm => 191
  | .vmem => 0
  | .smem => 0
  | _ => 0

abbrev hbmTy0_0 (i : Nat) : BufTy := match i % 128 with
  | 0 => ⟨S10000, .i32⟩
  | 1 => ⟨S10000x16, .f32⟩
  | 2 => ⟨S2x160000, .i32⟩
  | 3 => ⟨S160000, .f32⟩
  | 4 => ⟨S32, .f32⟩
  | 5 => ⟨S100x32, .f32⟩
  | 6 => ⟨S48x256, .f32⟩
  | 7 => ⟨S256, .f32⟩
  | 8 => ⟨S256x256, .f32⟩
  | 9 => ⟨S256, .f32⟩
  | 10 => ⟨S32x256, .f32⟩
  | 11 => ⟨S256, .f32⟩
  | 12 => ⟨S256x256, .f32⟩
  | 13 => ⟨S768x256, .f32⟩
  | 14 => ⟨S256, .f32⟩
  | 15 => ⟨S256x256, .f32⟩
  | 16 => ⟨S256, .f32⟩
  | 17 => ⟨S256x256, .f32⟩
  | 18 => ⟨S256, .f32⟩
  | 19 => ⟨S256x256, .f32⟩
  | 20 => ⟨S256, .f32⟩
  | 21 => ⟨S256x256, .f32⟩
  | 22 => ⟨S256, .f32⟩
  | 23 => ⟨S256x256, .f32⟩
  | 24 => ⟨S256, .f32⟩
  | 25 => ⟨S_, .i32⟩
  | 26 => ⟨S10000, .i32⟩
  | 27 => ⟨S10000, .i1⟩
  | 28 => ⟨S_, .i32⟩
  | 29 => ⟨S10000, .i32⟩
  | 30 => ⟨S10000, .i32⟩
  | 31 => ⟨S10000, .i32⟩
  | 32 => ⟨S10000x1, .i32⟩
  | 33 => ⟨S10000x32, .f32⟩
  | 34 => ⟨S10000x48, .f32⟩
  | 35 => ⟨S10000x256, .f32⟩
  | 36 => ⟨S1x256, .f32⟩
  | 37 => ⟨S10000x256, .f32⟩
  | 38 => ⟨S10000x256, .f32⟩
  | 39 => ⟨S10000x256, .f32⟩
  | 40 => ⟨S10000x256, .f32⟩
  | 41 => ⟨S_, .f32⟩
  | 42 => ⟨S10000x256, .f32⟩
  | 43 => ⟨S10000x256, .f32⟩
  | 44 => ⟨S10000x256, .f32⟩
  | 45 => ⟨S_, .f32⟩
  | 46 => ⟨S10000x256, .f32⟩
  | 47 => ⟨S10000x256, .f32⟩
  | 48 => ⟨S10000x256, .f32⟩
  | 49 => ⟨S_, .f32⟩
  | 50 => ⟨S10000x256, .f32⟩
  | 51 => ⟨S10000x256, .f32⟩
  | 52 => ⟨S_, .f32⟩
  | 53 => ⟨S10000x256, .f32⟩
  | 54 => ⟨S10000x256, .f32⟩
  | 55 => ⟨S10000x256, .f32⟩
  | 56 => ⟨S_, .f32⟩
  | 57 => ⟨S160000, .f32⟩
  | 58 => ⟨S160000, .f32⟩
  | 59 => ⟨S160000x1, .f32⟩
  | 60 => ⟨S160000x1, .f32⟩
  | 61 => ⟨S160000x1, .f32⟩
  | 62 => ⟨S160000x1, .f32⟩
  | 63 => ⟨S_, .f32⟩
  | 64 => ⟨S160000x1, .f32⟩
  | 65 => ⟨S160000x1, .f32⟩
  | 66 => ⟨S_, .f32⟩
  | 67 => ⟨S160000x1, .f32⟩
  | 68 => ⟨S160000x1, .f32⟩
  | 69 => ⟨S160000x1, .f32⟩
  | 70 => ⟨S_, .f32⟩
  | 71 => ⟨S160000x1, .f32⟩
  | 72 => ⟨S160000x1, .f32⟩
  | 73 => ⟨S160000x1, .f32⟩
  | 74 => ⟨S160000x1, .f32⟩
  | 75 => ⟨S_, .f32⟩
  | 76 => ⟨S160000x1, .f32⟩
  | 77 => ⟨S160000x1, .f32⟩
  | 78 => ⟨S160000x1, .f32⟩
  | 79 => ⟨S160000x1, .f32⟩
  | 80 => ⟨S160000x1, .f32⟩
  | 81 => ⟨S1x32, .f32⟩
  | 82 => ⟨S160000x32, .f32⟩
  | 83 => ⟨S160000x32, .f32⟩
  | 84 => ⟨S160000x32, .f32⟩
  | 85 => ⟨S160000x32, .f32⟩
  | 86 => ⟨S160000x32, .f32⟩
  | 87 => ⟨S160000x32, .f32⟩
  | 88 => ⟨S160000x256, .f32⟩
  | 89 => ⟨S1x256, .f32⟩
  | 90 => ⟨S160000x256, .f32⟩
  | 91 => ⟨S160000x256, .f32⟩
  | 92 => ⟨S10000x256, .f32⟩
  | 93 => ⟨S1x256, .f32⟩
  | 94 => ⟨S10000x256, .f32⟩
  | 95 => ⟨S10000x256, .f32⟩
  | 96 => ⟨S1x160000, .i32⟩
  | 97 => ⟨S160000, .i32⟩
  | 98 => ⟨S1x160000, .i32⟩
  | 99 => ⟨S160000, .i32⟩
  | 100 => ⟨S_, .i32⟩
  | 101 => ⟨S160000, .i32⟩
  | 102 => ⟨S160000, .i1⟩
  | 103 => ⟨S_, .i32⟩
  | 104 => ⟨S160000, .i32⟩
  | 105 => ⟨S160000, .i32⟩
  | 106 => ⟨S160000, .i32⟩
  | 107 => ⟨S160000x1, .i32⟩
  | 108 => ⟨S160000x256, .f32⟩
  | 109 => ⟨S_, .i32⟩
  | 110 => ⟨S160000, .i32⟩
  | 111 => ⟨S160000, .i1⟩
  | 112 => ⟨S_, .i32⟩
  | 113 => ⟨S160000, .i32⟩
  | 114 => ⟨S160000, .i32⟩
  | 115 => ⟨S160000, .i32⟩
  | 116 => ⟨S160000x1, .i32⟩
  | 117 => ⟨S160000x256, .f32⟩
  | 118 => ⟨S160000x768, .f32⟩
  | 119 => ⟨S160000x256, .f32⟩
  | 120 => ⟨S1x256, .f32⟩
  | 121 => ⟨S160000x256, .f32⟩
  | 122 => ⟨S160000x256, .f32⟩
  | 123 => ⟨S_, .f32⟩
  | 124 => ⟨S_, .f32⟩
  | 125 => ⟨S160000x256, .f32⟩
  | 126 => ⟨S160000x256, .i1⟩
  | 127 => ⟨S_, .f32⟩
  | _ => ⟨S10000, .i32⟩

abbrev hbmTy0_1 (i : Nat) : BufTy := match i % 128 with
  | 0 => ⟨S160000x256, .f32⟩
  | 1 => ⟨S160000x256, .f32⟩
  | 2 => ⟨S160000x256, .f32⟩
  | 3 => ⟨S160000x256, .f32⟩
  | 4 => ⟨S1x256, .f32⟩
  | 5 => ⟨S160000x256, .f32⟩
  | 6 => ⟨S160000x256, .f32⟩
  | 7 => ⟨S_, .f32⟩
  | 8 => ⟨S_, .f32⟩
  | 9 => ⟨S160000x256, .f32⟩
  | 10 => ⟨S160000x256, .i1⟩
  | 11 => ⟨S_, .f32⟩
  | 12 => ⟨S160000x256, .f32⟩
  | 13 => ⟨S160000x256, .f32⟩
  | 14 => ⟨S160000x256, .f32⟩
  | 15 => ⟨S160000x256, .f32⟩
  | 16 => ⟨S1x256, .f32⟩
  | 17 => ⟨S160000x256, .f32⟩
  | 18 => ⟨S160000x256, .f32⟩
  | 19 => ⟨S_, .f32⟩
  | 20 => ⟨S_, .f32⟩
  | 21 => ⟨S160000x256, .f32⟩
  | 22 => ⟨S160000x256, .i1⟩
  | 23 => ⟨S_, .f32⟩
  | 24 => ⟨S160000x256, .f32⟩
  | 25 => ⟨S160000x256, .f32⟩
  | 26 => ⟨S160000x256, .f32⟩
  | 27 => ⟨S160000x256, .f32⟩
  | 28 => ⟨S1x256, .f32⟩
  | 29 => ⟨S160000x256, .f32⟩
  | 30 => ⟨S160000x256, .f32⟩
  | 31 => ⟨S_, .f32⟩
  | 32 => ⟨S10000x256, .f32⟩
  | 33 => ⟨S160000x1, .i32⟩
  | 34 => ⟨S10000x256, .f32⟩
  | 35 => ⟨S10000x256, .f32⟩
  | 36 => ⟨S10000x256, .f32⟩
  | 37 => ⟨S10000x256, .f32⟩
  | 38 => ⟨S1x256, .f32⟩
  | 39 => ⟨S10000x256, .f32⟩
  | 40 => ⟨S10000x256, .f32⟩
  | 41 => ⟨S10000x256, .f32⟩
  | 42 => ⟨S10000x256, .f32⟩
  | 43 => ⟨S_, .f32⟩
  | 44 => ⟨S10000x256, .f32⟩
  | 45 => ⟨S10000x256, .f32⟩
  | 46 => ⟨S10000x256, .f32⟩
  | 47 => ⟨S_, .f32⟩
  | 48 => ⟨S10000x256, .f32⟩
  | 49 => ⟨S10000x256, .f32⟩
  | 50 => ⟨S10000x256, .f32⟩
  | 51 => ⟨S_, .f32⟩
  | 52 => ⟨S10000x256, .f32⟩
  | 53 => ⟨S10000x256, .f32⟩
  | 54 => ⟨S_, .f32⟩
  | 55 => ⟨S10000x256, .f32⟩
  | 56 => ⟨S10000x256, .f32⟩
  | 57 => ⟨S10000x256, .f32⟩
  | 58 => ⟨S10000x256, .f32⟩
  | 59 => ⟨S1x256, .f32⟩
  | 60 => ⟨S10000x256, .f32⟩
  | 61 => ⟨S10000x256, .f32⟩
  | 62 => ⟨S10000x256, .f32⟩
  | _ => ⟨S10000, .i32⟩

abbrev hbmTy (i : Nat) : BufTy := match i / 128 with
  | 0 => hbmTy0_0 i
  | 1 => hbmTy0_1 i
  | _ => ⟨S10000, .i32⟩

abbrev bufTy : (tb : Table) → Fin (tcTables nBuf tb) → BufTy
  | .hbm, ⟨i, _⟩ => hbmTy i
  | _, _ => ⟨S10000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_v0 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_1 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_v21 : Ref sig .tc := ⟨.hbm, 51, rfl⟩
abbrev main_cst_3 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_4 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_5 : Ref sig .tc := ⟨.hbm, 63, rfl⟩
abbrev main_v31 : Ref sig .tc := ⟨.hbm, 64, rfl⟩
abbrev main_v32 : Ref sig .tc := ⟨.hbm, 65, rfl⟩
abbrev main_cst_6 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_7 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_8 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_9 : Ref sig .tc := ⟨.hbm, 100, rfl⟩
abbrev main_v64 : Ref sig .tc := ⟨.hbm, 101, rfl⟩
abbrev main_v65 : Ref sig .tc := ⟨.hbm, 102, rfl⟩
abbrev main_c_10 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_11 : Ref sig .tc := ⟨.hbm, 109, rfl⟩
abbrev main_v71 : Ref sig .tc := ⟨.hbm, 110, rfl⟩
abbrev main_v72 : Ref sig .tc := ⟨.hbm, 111, rfl⟩
abbrev main_c_12 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_13 : Ref sig .tc := ⟨.hbm, 123, rfl⟩
abbrev main_call0_cst : Ref sig .tc := ⟨.hbm, 124, rfl⟩
abbrev main_call0_v0 : Ref sig .tc := ⟨.hbm, 125, rfl⟩
abbrev main_call0_v1 : Ref sig .tc := ⟨.hbm, 126, rfl⟩
abbrev main_call0_v2 : Ref sig .tc := ⟨.hbm, 127, rfl⟩
abbrev main_call0_v3 : Ref sig .tc := ⟨.hbm, 128, rfl⟩
abbrev main_call0_v4 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_14 : Ref sig .tc := ⟨.hbm, 135, rfl⟩
abbrev main_call1_cst : Ref sig .tc := ⟨.hbm, 136, rfl⟩
abbrev main_call1_v0 : Ref sig .tc := ⟨.hbm, 137, rfl⟩
abbrev main_call1_v1 : Ref sig .tc := ⟨.hbm, 138, rfl⟩
abbrev main_call1_v2 : Ref sig .tc := ⟨.hbm, 139, rfl⟩
abbrev main_call1_v3 : Ref sig .tc := ⟨.hbm, 140, rfl⟩
abbrev main_call1_v4 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_cst_15 : Ref sig .tc := ⟨.hbm, 147, rfl⟩
abbrev main_call2_cst : Ref sig .tc := ⟨.hbm, 148, rfl⟩
abbrev main_call2_v0 : Ref sig .tc := ⟨.hbm, 149, rfl⟩
abbrev main_call2_v1 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_cst_16 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_cst_17 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_cst_18 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_cst_19 : Ref sig .tc := ⟨.hbm, 179, rfl⟩
abbrev main_v115 : Ref sig .tc := ⟨.hbm, 180, rfl⟩
abbrev main_v116 : Ref sig .tc := ⟨.hbm, 181, rfl⟩
abbrev main_cst_20 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩

abbrev nD : Nat := 1
abbrev τ : Topo := Topo.v7x

variable {F : FTy → Type} [FloatOps F]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  concatenates_S10000x32_S10000x16_S10000x48_d1 : Shape.Concatenates [S10000x32, S10000x16] S10000x48 1
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S_S160000 : S_.BroadcastsInDim S160000 (![] : Fin 0 → Fin S160000.rank)
  bcast_S160000_S160000x1_0 : S160000.BroadcastsInDim S160000x1 (![0] : Fin 1 → Fin S160000x1.rank)
  bcast_S_S160000x1 : S_.BroadcastsInDim S160000x1 (![] : Fin 0 → Fin S160000x1.rank)
  bcast_S32_S1x32_1 : S32.BroadcastsInDim S1x32 (![1] : Fin 1 → Fin S1x32.rank)
  bcast_S1x32_S160000x32_0_1 : S1x32.BroadcastsInDim S160000x32 (![0, 1] : Fin 2 → Fin S160000x32.rank)
  bcast_S160000x1_S160000x32_0_1 : S160000x1.BroadcastsInDim S160000x32 (![0, 1] : Fin 2 → Fin S160000x32.rank)
  bcast_S1x256_S160000x256_0_1 : S1x256.BroadcastsInDim S160000x256 (![0, 1] : Fin 2 → Fin S160000x256.rank)
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000x256_S160000x256_S160000x256_S160000x768_d1 : Shape.Concatenates [S160000x256, S160000x256, S160000x256] S160000x768 1
  bcast_S_S160000x256 : S_.BroadcastsInDim S160000x256 (![] : Fin 0 → Fin S160000x256.rank)
  gather_S100x32_S10000x1_S10000x32_1_0_n_n_0_1_132_wf : GatherDims.WF S100x32 S10000x1 S10000x32 [1] [0] [] [0] [] 1 ![1, 32]
  dot_S10000x48_S48x256_S10000x256_1_0_0_1_n_n_wf : DotDims.WF S10000x48 S48x256 S10000x256 [1] [0] [0] [1] [] []
  dot_S160000x32_S32x256_S160000x256_1_0_0_1_n_n_wf : DotDims.WF S160000x32 S32x256 S160000x256 [1] [0] [0] [1] [] []
  dot_S10000x256_S256x256_S10000x256_1_0_0_1_n_n_wf : DotDims.WF S10000x256 S256x256 S10000x256 [1] [0] [0] [1] [] []
  gather_S10000x256_S160000x1_S160000x256_1_0_n_n_0_1_1256_wf : GatherDims.WF S10000x256 S160000x1 S160000x256 [1] [0] [] [0] [] 1 ![1, 256]
  dot_S160000x768_S768x256_S160000x256_1_0_0_1_n_n_wf : DotDims.WF S160000x768 S768x256 S160000x256 [1] [0] [0] [1] [] []
  dot_S160000x256_S256x256_S160000x256_1_0_0_1_n_n_wf : DotDims.WF S160000x256 S256x256 S160000x256 [1] [0] [0] [1] [] []
  scatter_S10000x256_S160000x1_S160000x256_1_0_0_1_wf : ScatterDims.WF S10000x256 S160000x1 S160000x256 [1] [0] [0] 1

variable [Facts₀]

def gather_S100x32_S10000x1_S10000x32_1_0_n_n_0_1_132 : GatherDims S100x32 S10000x1 S10000x32 where
  offsetDims := [1]
  collapsedSliceDims := [0]
  operandBatchingDims := []
  startIndicesBatchingDims := []
  startIndexMap := [0]
  indexVectorDim := 1
  sliceSizes := ![1, 32]
  wf := gather_S100x32_S10000x1_S10000x32_1_0_n_n_0_1_132_wf
def dot_S10000x48_S48x256_S10000x256_1_0_0_1_n_n : DotDims S10000x48 S48x256 S10000x256 where
  lhsContracting := [1]
  rhsContracting := [0]
  lhsNonContracting := [0]
  rhsNonContracting := [1]
  lhsBatch := []
  rhsBatch := []
  wf := dot_S10000x48_S48x256_S10000x256_1_0_0_1_n_n_wf
def dot_S160000x32_S32x256_S160000x256_1_0_0_1_n_n : DotDims S160000x32 S32x256 S160000x256 where
  lhsContracting := [1]
  rhsContracting := [0]
  lhsNonContracting := [0]
  rhsNonContracting := [1]
  lhsBatch := []
  rhsBatch := []
  wf := dot_S160000x32_S32x256_S160000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def dot_S160000x768_S768x256_S160000x256_1_0_0_1_n_n : DotDims S160000x768 S768x256 S160000x256 where
  lhsContracting := [1]
  rhsContracting := [0]
  lhsNonContracting := [0]
  rhsNonContracting := [1]
  lhsBatch := []
  rhsBatch := []
  wf := dot_S160000x768_S768x256_S160000x256_1_0_0_1_n_n_wf
def dot_S160000x256_S256x256_S160000x256_1_0_0_1_n_n : DotDims S160000x256 S256x256 S160000x256 where
  lhsContracting := [1]
  rhsContracting := [0]
  lhsNonContracting := [0]
  rhsNonContracting := [1]
  lhsBatch := []
  rhsBatch := []
  wf := dot_S160000x256_S256x256_S160000x256_1_0_0_1_n_n_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf

class Facts : Prop extends Facts₀ where

variable [Facts]
-- ==== Proof.RefOps.lean ====
/- The reference program's host operations in order, as list literals cut in five segments, and per segment the
   buffer-inclusion lemma of each operation. A table only: the module that imports it proves that @main is these
   operations in sequence. -/
import proofs.«415619_j30408368456386_1_alg».proof.Proof.Gen.ReferenceIdeal
import Idealize.ShloMosaic.Lib.StableHlo.Run

noncomputable section

namespace Cert.ReferenceIdeal.Table

open Cert.ReferenceIdeal Cert.ReferenceIdeal.Gen Idealize.ShloMosaic Idealize.ShloMosaic.TcCoe Idealize.SL.Sem Idealize.ShloMosaic.StableHlo

variable {F : FTy → Type} [FloatOps F]

/-- @main's window main_part0 (statements 1 … 60): 60 operations. -/
abbrev seg0 : List (HloOp τ sig (Elt F)) :=
  [ StableHlo.nullary main_c (constantI S_ 32 0#32),
    StableHlo.unary main_c main_v0 (broadcastInDim S10000 ![] bcast_S_S10000 : (⟨S_, .i32⟩ : BufTy).Contents (Elt F) → (⟨S10000, .i32⟩ : BufTy).Contents (Elt F)),
    StableHlo.binary main_arg0 main_v0 main_v1 (cmpi .slt : (⟨S10000, .i32⟩ : BufTy).Contents (Elt F) → (⟨S10000, .i32⟩ : BufTy).Contents (Elt F) → (⟨S10000, .i1⟩ : BufTy).Contents (Elt F)),
    StableHlo.nullary main_c_0 (constantI S_ 32 100#32),
    StableHlo.unary main_c_0 main_v2 (broadcastInDim S10000 ![] bcast_S_S10000 : (⟨S_, .i32⟩ : BufTy).Contents (Elt F) → (⟨S10000, .i32⟩ : BufTy).Contents (Elt F)),
    StableHlo.binary main_arg0 main_v2 main_v3 (addi : (⟨S10000, .i32⟩ : BufTy).Contents (Elt F) → (⟨S10000, .i32⟩ : BufTy).Contents (Elt F) → (⟨S10000, .i32⟩ : BufTy).Contents (Elt F)),
    StableHlo.ternary main_v1 main_v3 main_arg0 main_v4 (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)),
    StableHlo.unary main_v4 main_v5 (broadcastInDim S10000x1 ![0] bcast_S10000_S10000x1_0 : (⟨S10000, .i32⟩ : BufTy).Contents (Elt F) → (⟨S10000x1, .i32⟩ : BufTy).Contents (Elt F)),
    StableHlo.binary main_arg5 main_v5 main_v6 ((fun x i => Host.gather gather_S100x32_S10000x1_S10000x32_1_0_n_n_0_1_132 x i) : (⟨S100x32, .f32⟩ : BufTy).Contents (Elt F) → (⟨S10000x1, .i32⟩ : BufTy).Contents (Elt F) → (⟨S10000x32, .f32⟩ : BufTy).Contents (Elt F)),
    StableHlo.binary main_v6 main_arg1 main_v7 ((fun a b => concatenate S10000x48 1 [⟨S10000x32, a⟩, ⟨S10000x16, b⟩] concatenates_S10000x32_S10000x16_S10000x48_d1) : (⟨S10000x32, .f32⟩ : BufTy).Contents (Elt F) → (⟨S10000x16, .f32⟩ : BufTy).Contents (Elt F) → (⟨S10000x48, .f32⟩ : BufTy).Contents (Elt F)),
    StableHlo.binary main_v7 main_arg6 main_v8 ((fun l r => Host.dotGeneral dot_S10000x48_S48x256_S10000x256_1_0_0_1_n_n none l r) : (⟨S10000x48, .f32⟩ : BufTy).Contents (Elt F) → (⟨S48x256, .f32⟩ : BufTy).Contents (Elt F) → (⟨S10000x256, .f32⟩ : BufTy).Contents (Elt F)),
    StableHlo.unary main_arg7 main_v9 (broadcastInDim S1x256 ![1] bcast_S256_S1x256_1 : (⟨S256, .f32⟩ : BufTy).Contents (Elt F) → (⟨S1x256, .f32⟩ : BufTy).Contents (Elt F)),
    StableHlo.unary main_v9 main_v10 (broadcastInDim S10000x256 ![0, 1] bcast_S1x256_S10000x256_0_1 : (⟨S1x256, .f32⟩ : BufTy).Contents (Elt F) → (⟨S10000x256, .f32⟩ : BufTy).Contents (Elt F)),
    StableHlo.binary main_v8 main_v10 main_v11 (addf : (⟨S10000x256, .f32⟩ : BufTy).Contents (Elt F) → (⟨S10000x256, .f32⟩ : BufTy).Contents (Elt F) → (⟨S10000x256, .f32⟩ : BufTy).Contents (Elt F)),
    StableHlo.binary main_v11 main_v11 main_v12 (mulf : (⟨S10000x256, .f32⟩ : BufTy).Contents (Elt F) → (⟨S10000x256, .f32⟩ : BufTy).Contents (Elt F) → (⟨S10000x256, .f32⟩ : BufTy).Contents (Elt F)),
    StableHlo.binary main_v12 main_v11 main_v13 (mulf : (⟨S10000x256, .f32⟩ : BufTy).Contents (Elt F) → (⟨S10000x256, .f32⟩ : BufTy).Contents (Elt F) → (⟨S10000x256, .f32⟩ : BufTy).Contents (Elt F)),
    StableHlo.nullary main_cst (constant S_ .f32 0x3D372713#32),
    StableHlo.unary main_cst main_v14 (broadcastInDim S10000x256 ![] bcast_S_S10000x256 : (⟨S_, .f32⟩ : BufTy).Contents (Elt F) → (⟨S10000x256, .f32⟩ : BufTy).Contents (Elt F)),
    StableHlo.binary main_v14 main_v13 main_v15 (mulf : (⟨S10000x256, .f32⟩ : BufTy).Contents (Elt F) → (⟨S10000x256, .f32⟩ : BufTy).Contents (Elt F) → (⟨S10000x256, .f32⟩ : BufTy).Contents (Elt F)),
    StableHlo.binary main_v11 main_v15 main_v16 (addf : (⟨S10000x256, .f32⟩ : BufTy).Contents (Elt F) → (⟨S10000x256, .f32⟩ : BufTy).Contents (Elt F) → (⟨S10000x256, .f32⟩ : BufTy).Contents (Elt F)),
    StableHlo.nullary main_cst_1 (constant S_ .f32 0x3F4C422A#32),
    StableHlo.unary main_cst_1 main_v17 (broadcastInDim S10000x256 ![] bcast_S_S10000x256 : (⟨S_, .f32⟩ : BufTy).Contents (Elt F) → (⟨S10000x256, .f32⟩ : BufTy).Contents (Elt F)),
    StableHlo.binary main_v17 main_v16 main_v18 (mulf : (⟨S10000x256, .f32⟩ : BufTy).Contents (Elt F) → (⟨S10000x256, .f32⟩ : BufTy).Contents (Elt F) → (⟨S10000x256, .f32⟩ : BufTy).Contents (Elt F)),
    StableHlo.unary main_v18 main_v19 (Host.tanh : (⟨S10000x256, .f32⟩ : BufTy).Contents (Elt F) → (⟨S10000x256, .f32⟩ : BufTy).Contents (Elt F)),
    StableHlo.nullary main_cst_2 (constant S_ .f32 0x3F800000#32),
    StableHlo.unary main_cst_2 main_v20 (broadcastInDim S10000x256 ![] bcast_S_S10000x256 : (⟨S_, .f32⟩ : BufTy).Contents (Elt F) → (⟨S10000x256, .f32⟩ : BufTy).Contents (Elt F)),
    StableHlo.binary main_v20 main_v19 main_v21 (addf : (⟨S10000x256, .f32⟩ : BufTy).Contents (Elt F) → (⟨S10000x256, .f32⟩ : BufTy).Contents (Elt F) → (⟨S10000x256, .f32⟩ : BufTy).Contents (Elt F)),
    StableHlo.nullary main_cst_3 (constant S_ .f32 0x3F000000#32),
    StableHlo.unary main_cst_3 main_v22 (broadcastInDim S10000x256 ![] bcast_S_S10000x256 : (⟨S_, .f32⟩ : BufTy).Contents (Elt F) → (⟨S10000x256, .f32⟩ : BufTy).Contents (Elt F)),
    StableHlo.binary main_v22 main_v21 main_v23 (mulf : (⟨S10000x256, .f32⟩ : BufTy).Contents (Elt F) → (⟨S10000x256, .f32⟩ : BufTy).Contents (Elt F) → (⟨S10000x256, .f32⟩ : BufTy).Contents (Elt F)),
    StableHlo.binary main_v11 main_v23 main_v24 (mulf : (⟨S10000x256, .f32⟩ : BufTy).Contents (Elt F) → (⟨S10000x256, .f32⟩ : BufTy).Contents (Elt F) → (⟨S10000x256, .f32⟩ : BufTy).Contents (Elt F)),
    StableHlo.nullary main_cst_4 (constant S_ .f32 0x40A00000#32),
    StableHlo.unary main_cst_4 main_v25 (broadcastInDim S160000 ![] bcast_S_S160000 : (⟨S_, .f32⟩ : BufTy).Contents (Elt F) → (⟨S160000, .f32⟩ : BufTy).Contents (Elt F)),
    StableHlo.binary main_arg3 main_v25 main_v26 (Host.divf : (⟨S160000, .f32⟩ : BufTy).Contents (Elt F) → (⟨S160000, .f32⟩ : BufTy).Contents (Elt F) → (⟨S160000, .f32⟩ : BufTy).Contents (Elt F)),
    StableHlo.unary main_v26 main_v27 (broadcastInDim S160000x1 ![0] bcast_S160000_S160000x1_0 : (⟨S160000, .f32⟩ : BufTy).Contents (Elt F) → (⟨S160000x1, .f32⟩ : BufTy).Contents (Elt F)),
    StableHlo.binary main_v27 main_v27 main_v28 (mulf : (⟨S160000x1, .f32⟩ : BufTy).Contents (Elt F) → (⟨S160000x1, .f32⟩ : BufTy).Contents (Elt F) → (⟨S160000x1, .f32⟩ : BufTy).Contents (Elt F)),
    StableHlo.binary main_v28 main_v28 main_v29 (mulf : (⟨S160000x1, .f32⟩ : BufTy).Contents (Elt F) → (⟨S160000x1, .f32⟩ : BufTy).Contents (Elt F) → (⟨S160000x1, .f32⟩ : BufTy).Contents (Elt F)),
    StableHlo.binary main_v27 main_v29 main_v30 (mulf : (⟨S160000x1, .f32⟩ : BufTy).Contents (Elt F) → (⟨S160000x1, .f32⟩ : BufTy).Contents (Elt F) → (⟨S160000x1, .f32⟩ : BufTy).Contents (Elt F)),
    StableHlo.nullary main_cst_5 (constant S_ .f32 0x3F800000#32),
    StableHlo.unary main_cst_5 main_v31 (broadcastInDim S160000x1 ![] bcast_S_S160000x1 : (⟨S_, .f32⟩ : BufTy).Contents (Elt F) → (⟨S160000x1, .f32⟩ : BufTy).Contents (Elt F)),
    StableHlo.binary main_v31 main_v27 main_v32 (Host.divf : (⟨S160000x1, .f32⟩ : BufTy).Contents (Elt F) → (⟨S160000x1, .f32⟩ : BufTy).Contents (Elt F) → (⟨S160000x1, .f32⟩ : BufTy).Contents (Elt F)),
    StableHlo.nullary main_cst_6 (constant S_ .f32 0xC1E00000#32),
    StableHlo.unary main_cst_6 main_v33 (broadcastInDim S160000x1 ![] bcast_S_S160000x1 : (⟨S_, .f32⟩ : BufTy).Contents (Elt F) → (⟨S160000x1, .f32⟩ : BufTy).Contents (Elt F)),
    StableHlo.binary main_v33 main_v30 main_v34 (mulf : (⟨S160000x1, .f32⟩ : BufTy).Contents (Elt F) → (⟨S160000x1, .f32⟩ : BufTy).Contents (Elt F) → (⟨S160000x1, .f32⟩ : BufTy).Contents (Elt F)),
    StableHlo.binary main_v32 main_v34 main_v35 (addf : (⟨S160000x1, .f32⟩ : BufTy).Contents (Elt F) → (⟨S160000x1, .f32⟩ : BufTy).Contents (Elt F) → (⟨S160000x1, .f32⟩ : BufTy).Contents (Elt F)),
    StableHlo.nullary main_cst_7 (constant S_ .f32 0x42400000#32),
    StableHlo.unary main_cst_7 main_v36 (broadcastInDim S160000x1 ![] bcast_S_S160000x1 : (⟨S_, .f32⟩ : BufTy).Contents (Elt F) → (⟨S160000x1, .f32⟩ : BufTy).Contents (Elt F)),
    StableHlo.binary main_v36 main_v30 main_v37 (mulf : (⟨S160000x1, .f32⟩ : BufTy).Contents (Elt F) → (⟨S160000x1, .f32⟩ : BufTy).Contents (Elt F) → (⟨S160000x1, .f32⟩ : BufTy).Contents (Elt F)),
    StableHlo.binary main_v37 main_v27 main_v38 (mulf : (⟨S160000x1, .f32⟩ : BufTy).Contents (Elt F) → (⟨S160000x1, .f32⟩ : BufTy).Contents (Elt F) → (⟨S160000x1, .f32⟩ : BufTy).Contents (Elt F)),
    StableHlo.binary main_v35 main_v38 main_v39 (addf : (⟨S160000x1, .f32⟩ : BufTy).Contents (Elt F) → (⟨S160000x1, .f32⟩ : BufTy).Contents (Elt F) → (⟨S160000x1, .f32⟩ : BufTy).Contents (Elt F)),
    StableHlo.nullary main_cst_8 (constant S_ .f32 0xC1A80000#32),
    StableHlo.unary main_cst_8 main_v40 (broadcastInDim S160000x1 ![] bcast_S_S160000x1 : (⟨S_, .f32⟩ : BufTy).Contents (Elt F) → (⟨S160000x1, .f32⟩ : BufTy).Contents (Elt F)),
    StableHlo.binary main_v40 main_v30 main_v41 (mulf : (⟨S160000x1, .f32⟩ : BufTy).Contents (Elt F) → (⟨S160000x1, .f32⟩ : BufTy).Contents (Elt F) → (⟨S160000x1, .f32⟩ : BufTy).Contents (Elt F)),
    StableHlo.binary main_v41 main_v27 main_v42 (mulf : (⟨S160000x1, .f32⟩ : BufTy).Contents (Elt F) → (⟨S160000x1, .f32⟩ : BufTy).Contents (Elt F) → (⟨S160000x1, .f32⟩ : BufTy).Contents (Elt F)),
    StableHlo.binary main_v42 main_v27 main_v43 (mulf : (⟨S160000x1, .f32⟩ : BufTy).Contents (Elt F) → (⟨S160000x1, .f32⟩ : BufTy).Contents (Elt F) → (⟨S160000x1, .f32⟩ : BufTy).Contents (Elt F)),
    StableHlo.binary main_v39 main_v43 main_v44 (addf : (⟨S160000x1, .f32⟩ : BufTy).Contents (Elt F) → (⟨S160000x1, .f32⟩ : BufTy).Contents (Elt F) → (⟨S160000x1, .f32⟩ : BufTy).Contents (Elt F)),
    StableHlo.unary main_arg4 main_v45 (broadcastInDim S1x32 ![1] bcast_S32_S1x32_1 : (⟨S32, .f32⟩ : BufTy).Contents (Elt F) → (⟨S1x32, .f32⟩ : BufTy).Contents (Elt F)),
    StableHlo.unary main_v45 main_v46 (broadcastInDim S160000x32 ![0, 1] bcast_S1x32_S160000x32_0_1 : (⟨S1x32, .f32⟩ : BufTy).Contents (Elt F) → (⟨S160000x32, .f32⟩ : BufTy).Contents (Elt F)),
    StableHlo.unary main_v27 main_v47 (broadcastInDim S160000x32 ![0, 1] bcast_S160000x1_S160000x32_0_1 : (⟨S160000x1, .f32⟩ : BufTy).Contents (Elt F) → (⟨S160000x32, .f32⟩ : BufTy).Contents (Elt F)),
    StableHlo.binary main_v46 main_v47 main_v48 (mulf : (⟨S160000x32, .f32⟩ : BufTy).Contents (Elt F) → (⟨S160000x32, .f32⟩ : BufTy).Contents (Elt F) → (⟨S160000x32, .f32⟩ : BufTy).Contents (Elt F)) ]

set_option maxRecDepth 8192 in
theorem seg0_sub : (seg0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., binary_bufs_sub .., unary_bufs_sub .., unary_bufs_sub .., unary_bufs_sub .., binary_bufs_sub ..⟩

/-- window main_part1 up to the statement binding %63: 15 operations. -/
abbrev seg1 : List (HloOp τ sig (Elt F)) :=
  [ StableHlo.unary main_v48 main_v49 (Host.sin : (⟨S160000x32, .f32⟩ : BufTy).Contents (Elt F) → (⟨S160000x32, .f32⟩ : BufTy).Contents (Elt F)),
    StableHlo.unary main_v44 main_v50 (broadcastInDim S160000x32 ![0, 1] bcast_S160000x1_S160000x32_0_1 : (⟨S160000x1, .f32⟩ : BufTy).Contents (Elt F) → (⟨S160000x32, .f32⟩ : BufTy).Contents (Elt F)),
    StableHlo.binary main_v50 main_v49 main_v51 (mulf : (⟨S160000x32, .f32⟩ : BufTy).Contents (Elt F) → (⟨S160000x32, .f32⟩ : BufTy).Contents (Elt F) → (⟨S160000x32, .f32⟩ : BufTy).Contents (Elt F)),
    StableHlo.binary main_v51 main_arg10 main_v52 ((fun l r => Host.dotGeneral dot_S160000x32_S32x256_S160000x256_1_0_0_1_n_n none l r) : (⟨S160000x32, .f32⟩ : BufTy).Contents (Elt F) → (⟨S32x256, .f32⟩ : BufTy).Contents (Elt F) → (⟨S160000x256, .f32⟩ : BufTy).Contents (Elt F)),
    StableHlo.unary main_arg11 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S160000x256 ![0, 1] bcast_S1x256_S160000x256_0_1 : (⟨S1x256, .f32⟩ : BufTy).Contents (Elt F) → (⟨S160000x256, .f32⟩ : BufTy).Contents (Elt F)),
    StableHlo.binary main_v52 main_v54 main_v55 (addf : (⟨S160000x256, .f32⟩ : BufTy).Contents (Elt F) → (⟨S160000x256, .f32⟩ : BufTy).Contents (Elt F) → (⟨S160000x256, .f32⟩ : BufTy).Contents (Elt F)),
    StableHlo.binary main_v24 main_arg8 main_v56 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.unary main_arg9 main_v57 (broadcastInDim S1x256 ![1] bcast_S256_S1x256_1 : (⟨S256, .f32⟩ : BufTy).Contents (Elt F) → (⟨S1x256, .f32⟩ : BufTy).Contents (Elt F)),
    StableHlo.unary main_v57 main_v58 (broadcastInDim S10000x256 ![0, 1] bcast_S1x256_S10000x256_0_1 : (⟨S1x256, .f32⟩ : BufTy).Contents (Elt F) → (⟨S10000x256, .f32⟩ : BufTy).Contents (Elt F)),
    StableHlo.binary main_v56 main_v58 main_v59 (addf : (⟨S10000x256, .f32⟩ : BufTy).Contents (Elt F) → (⟨S10000x256, .f32⟩ : BufTy).Contents (Elt F) → (⟨S10000x256, .f32⟩ : BufTy).Contents (Elt F)),
    StableHlo.unary main_arg2 main_v60 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v60 main_v61 rfl shapeCasts_S1x160000_S160000,
    StableHlo.unary main_arg2 main_v62 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v62 main_v63 rfl shapeCasts_S1x160000_S160000 ]

set_option maxRecDepth 8192 in
theorem seg1_sub : (seg1 : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., reshape_bufs_sub .., unary_bufs_sub .., reshape_bufs_sub ..⟩

/-- window main_part1 from there through the statement binding %97 (the three @leaky_relu calls inlined): 59 operations. -/
abbrev seg2 : List (HloOp τ sig (Elt F)) :=
  [ StableHlo.nullary main_c_9 (constantI S_ 32 0#32),
    StableHlo.unary main_c_9 main_v64 (broadcastInDim S160000 ![] bcast_S_S160000 : (⟨S_, .i32⟩ : BufTy).Contents (Elt F) → (⟨S160000, .i32⟩ : BufTy).Contents (Elt F)),
    StableHlo.binary main_v61 main_v64 main_v65 (cmpi .slt : (⟨S160000, .i32⟩ : BufTy).Contents (Elt F) → (⟨S160000, .i32⟩ : BufTy).Contents (Elt F) → (⟨S160000, .i1⟩ : BufTy).Contents (Elt F)),
    StableHlo.nullary main_c_10 (constantI S_ 32 10000#32),
    StableHlo.unary main_c_10 main_v66 (broadcastInDim S160000 ![] bcast_S_S160000 : (⟨S_, .i32⟩ : BufTy).Contents (Elt F) → (⟨S160000, .i32⟩ : BufTy).Contents (Elt F)),
    StableHlo.binary main_v61 main_v66 main_v67 (addi : (⟨S160000, .i32⟩ : BufTy).Contents (Elt F) → (⟨S160000, .i32⟩ : BufTy).Contents (Elt F) → (⟨S160000, .i32⟩ : BufTy).Contents (Elt F)),
    StableHlo.ternary main_v65 main_v67 main_v61 main_v68 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v68 main_v69 (broadcastInDim S160000x1 ![0] bcast_S160000_S160000x1_0 : (⟨S160000, .i32⟩ : BufTy).Contents (Elt F) → (⟨S160000x1, .i32⟩ : BufTy).Contents (Elt F)),
    StableHlo.binary main_v59 main_v69 main_v70 ((fun x i => Host.gather gather_S10000x256_S160000x1_S160000x256_1_0_n_n_0_1_1256 x i) : (⟨S10000x256, .f32⟩ : BufTy).Contents (Elt F) → (⟨S160000x1, .i32⟩ : BufTy).Contents (Elt F) → (⟨S160000x256, .f32⟩ : BufTy).Contents (Elt F)),
    StableHlo.nullary main_c_11 (constantI S_ 32 0#32),
    StableHlo.unary main_c_11 main_v71 (broadcastInDim S160000 ![] bcast_S_S160000 : (⟨S_, .i32⟩ : BufTy).Contents (Elt F) → (⟨S160000, .i32⟩ : BufTy).Contents (Elt F)),
    StableHlo.binary main_v63 main_v71 main_v72 (cmpi .slt : (⟨S160000, .i32⟩ : BufTy).Contents (Elt F) → (⟨S160000, .i32⟩ : BufTy).Contents (Elt F) → (⟨S160000, .i1⟩ : BufTy).Contents (Elt F)),
    StableHlo.nullary main_c_12 (constantI S_ 32 10000#32),
    StableHlo.unary main_c_12 main_v73 (broadcastInDim S160000 ![] bcast_S_S160000 : (⟨S_, .i32⟩ : BufTy).Contents (Elt F) → (⟨S160000, .i32⟩ : BufTy).Contents (Elt F)),
    StableHlo.binary main_v63 main_v73 main_v74 (addi : (⟨S160000, .i32⟩ : BufTy).Contents (Elt F) → (⟨S160000, .i32⟩ : BufTy).Contents (Elt F) → (⟨S160000, .i32⟩ : BufTy).Contents (Elt F)),
    StableHlo.ternary main_v72 main_v74 main_v63 main_v75 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v75 main_v76 (broadcastInDim S160000x1 ![0] bcast_S160000_S160000x1_0 : (⟨S160000, .i32⟩ : BufTy).Contents (Elt F) → (⟨S160000x1, .i32⟩ : BufTy).Contents (Elt F)),
    StableHlo.binary main_v59 main_v76 main_v77 ((fun x i => Host.gather gather_S10000x256_S160000x1_S160000x256_1_0_n_n_0_1_1256 x i) : (⟨S10000x256, .f32⟩ : BufTy).Contents (Elt F) → (⟨S160000x1, .i32⟩ : BufTy).Contents (Elt F) → (⟨S160000x256, .f32⟩ : BufTy).Contents (Elt F)),
    StableHlo.nary ![main_v70, main_v77, main_v55] main_v78 (fun u => concatenate S160000x768 1 [⟨S160000x256, u 0⟩, ⟨S160000x256, u 1⟩, ⟨S160000x256, u 2⟩] concatenates_S160000x256_S160000x256_S160000x256_S160000x768_d1),
    StableHlo.binary main_v78 main_arg13 main_v79 ((fun l r => Host.dotGeneral dot_S160000x768_S768x256_S160000x256_1_0_0_1_n_n none l r) : (⟨S160000x768, .f32⟩ : BufTy).Contents (Elt F) → (⟨S768x256, .f32⟩ : BufTy).Contents (Elt F) → (⟨S160000x256, .f32⟩ : BufTy).Contents (Elt F)),
    StableHlo.unary main_arg14 main_v80 (broadcastInDim S1x256 ![1] bcast_S256_S1x256_1 : (⟨S256, .f32⟩ : BufTy).Contents (Elt F) → (⟨S1x256, .f32⟩ : BufTy).Contents (Elt F)),
    StableHlo.unary main_v80 main_v81 (broadcastInDim S160000x256 ![0, 1] bcast_S1x256_S160000x256_0_1 : (⟨S1x256, .f32⟩ : BufTy).Contents (Elt F) → (⟨S160000x256, .f32⟩ : BufTy).Contents (Elt F)),
    StableHlo.binary main_v79 main_v81 main_v82 (addf : (⟨S160000x256, .f32⟩ : BufTy).Contents (Elt F) → (⟨S160000x256, .f32⟩ : BufTy).Contents (Elt F) → (⟨S160000x256, .f32⟩ : BufTy).Contents (Elt F)),
    StableHlo.nullary main_cst_13 (constant S_ .f32 0x3C23D70A#32),
    StableHlo.TRef.nullary main_call0.cst (constant S_ .f32 0x00000000#32),
    StableHlo.TRef.unary main_call0.cst main_call0.v0 (broadcastInDim S160000x256 ![] bcast_S_S160000x256),
    StableHlo.TRef.binary (.of main_v82) main_call0.v0 main_call0.v1 (cmpf .oge),
    StableHlo.TRef.unary (.of main_cst_13) main_call0.v2 id,
    StableHlo.TRef.unary main_call0.v2 main_call0.v3 (broadcastInDim S160000x256 ![] bcast_S_S160000x256),
    StableHlo.TRef.binary main_call0.v3 (.of main_v82) main_call0.v4 mulf,
    StableHlo.TRef.ternary main_call0.v1 (.of main_v82) main_call0.v4 main_call0.call0.v0 select,
    StableHlo.binary main_v83 main_arg15 main_v84 ((fun l r => Host.dotGeneral dot_S160000x256_S256x256_S160000x256_1_0_0_1_n_n none l r) : (⟨S160000x256, .f32⟩ : BufTy).Contents (Elt F) → (⟨S256x256, .f32⟩ : BufTy).Contents (Elt F) → (⟨S160000x256, .f32⟩ : BufTy).Contents (Elt F)),
    StableHlo.unary main_arg16 main_v85 (broadcastInDim S1x256 ![1] bcast_S256_S1x256_1 : (⟨S256, .f32⟩ : BufTy).Contents (Elt F) → (⟨S1x256, .f32⟩ : BufTy).Contents (Elt F)),
    StableHlo.unary main_v85 main_v86 (broadcastInDim S160000x256 ![0, 1] bcast_S1x256_S160000x256_0_1 : (⟨S1x256, .f32⟩ : BufTy).Contents (Elt F) → (⟨S160000x256, .f32⟩ : BufTy).Contents (Elt F)),
    StableHlo.binary main_v84 main_v86 main_v87 (addf : (⟨S160000x256, .f32⟩ : BufTy).Contents (Elt F) → (⟨S160000x256, .f32⟩ : BufTy).Contents (Elt F) → (⟨S160000x256, .f32⟩ : BufTy).Contents (Elt F)),
    StableHlo.nullary main_cst_14 (constant S_ .f32 0x3C23D70A#32),
    StableHlo.TRef.nullary main_call1.cst (constant S_ .f32 0x00000000#32),
    StableHlo.TRef.unary main_call1.cst main_call1.v0 (broadcastInDim S160000x256 ![] bcast_S_S160000x256),
    StableHlo.TRef.binary (.of main_v87) main_call1.v0 main_call1.v1 (cmpf .oge),
    StableHlo.TRef.unary (.of main_cst_14) main_call1.v2 id,
    StableHlo.TRef.unary main_call1.v2 main_call1.v3 (broadcastInDim S160000x256 ![] bcast_S_S160000x256),
    StableHlo.TRef.binary main_call1.v3 (.of main_v87) main_call1.v4 mulf,
    StableHlo.TRef.ternary main_call1.v1 (.of main_v87) main_call1.v4 main_call1.call0.v0 select,
    StableHlo.binary main_v88 main_arg17 main_v89 ((fun l r => Host.dotGeneral dot_S160000x256_S256x256_S160000x256_1_0_0_1_n_n none l r) : (⟨S160000x256, .f32⟩ : BufTy).Contents (Elt F) → (⟨S256x256, .f32⟩ : BufTy).Contents (Elt F) → (⟨S160000x256, .f32⟩ : BufTy).Contents (Elt F)),
    StableHlo.unary main_arg18 main_v90 (broadcastInDim S1x256 ![1] bcast_S256_S1x256_1 : (⟨S256, .f32⟩ : BufTy).Contents (Elt F) → (⟨S1x256, .f32⟩ : BufTy).Contents (Elt F)),
    StableHlo.unary main_v90 main_v91 (broadcastInDim S160000x256 ![0, 1] bcast_S1x256_S160000x256_0_1 : (⟨S1x256, .f32⟩ : BufTy).Contents (Elt F) → (⟨S160000x256, .f32⟩ : BufTy).Contents (Elt F)),
    StableHlo.binary main_v89 main_v91 main_v92 (addf : (⟨S160000x256, .f32⟩ : BufTy).Contents (Elt F) → (⟨S160000x256, .f32⟩ : BufTy).Contents (Elt F) → (⟨S160000x256, .f32⟩ : BufTy).Contents (Elt F)),
    StableHlo.nullary main_cst_15 (constant S_ .f32 0x3C23D70A#32),
    StableHlo.TRef.nullary main_call2.cst (constant S_ .f32 0x00000000#32),
    StableHlo.TRef.unary main_call2.cst main_call2.v0 (broadcastInDim S160000x256 ![] bcast_S_S160000x256),
    StableHlo.TRef.binary (.of main_v92) main_call2.v0 main_call2.v1 (cmpf .oge),
    StableHlo.TRef.unary (.of main_cst_15) main_call2.v2 id,
    StableHlo.TRef.unary main_call2.v2 main_call2.v3 (broadcastInDim S160000x256 ![] bcast_S_S160000x256),
    StableHlo.TRef.binary main_call2.v3 (.of main_v92) main_call2.v4 mulf,
    StableHlo.TRef.ternary main_call2.v1 (.of main_v92) main_call2.v4 main_call2.call0.v0 select,
    StableHlo.binary main_v93 main_arg19 main_v94 ((fun l r => Host.dotGeneral dot_S160000x256_S256x256_S160000x256_1_0_0_1_n_n none l r) : (⟨S160000x256, .f32⟩ : BufTy).Contents (Elt F) → (⟨S256x256, .f32⟩ : BufTy).Contents (Elt F) → (⟨S160000x256, .f32⟩ : BufTy).Contents (Elt F)),
    StableHlo.unary main_arg20 main_v95 (broadcastInDim S1x256 ![1] bcast_S256_S1x256_1 : (⟨S256, .f32⟩ : BufTy).Contents (Elt F) → (⟨S1x256, .f32⟩ : BufTy).Contents (Elt F)),
    StableHlo.unary main_v95 main_v96 (broadcastInDim S160000x256 ![0, 1] bcast_S1x256_S160000x256_0_1 : (⟨S1x256, .f32⟩ : BufTy).Contents (Elt F) → (⟨S160000x256, .f32⟩ : BufTy).Contents (Elt F)),
    StableHlo.binary main_v94 main_v96 main_v97 (addf : (⟨S160000x256, .f32⟩ : BufTy).Contents (Elt F) → (⟨S160000x256, .f32⟩ : BufTy).Contents (Elt F) → (⟨S160000x256, .f32⟩ : BufTy).Contents (Elt F)) ]

set_option maxRecDepth 8192 in
theorem seg2_sub : (seg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩

/-- the rest of window main_part1: 4 operations. -/
abbrev seg3 : List (HloOp τ sig (Elt F)) :=
  [ StableHlo.nullary main_cst_16 (constant S_ .f32 0x00000000#32),
    StableHlo.unary main_cst_16 main_v98 (broadcastInDim S10000x256 ![] bcast_S_S10000x256 : (⟨S_, .f32⟩ : BufTy).Contents (Elt F) → (⟨S10000x256, .f32⟩ : BufTy).Contents (Elt F)),
    StableHlo.unary main_v63 main_v99 (broadcastInDim S160000x1 ![0] bcast_S160000_S160000x1_0 : (⟨S160000, .i32⟩ : BufTy).Contents (Elt F) → (⟨S160000x1, .i32⟩ : BufTy).Contents (Elt F)),
    StableHlo.ternary main_v98 main_v99 main_v97 main_v100 ((fun x i u => Host.scatterAdd scatter_S10000x256_S160000x1_S160000x256_1_0_0_1 x i u) : (⟨S10000x256, .f32⟩ : BufTy).Contents (Elt F) → (⟨S160000x1, .i32⟩ : BufTy).Contents (Elt F) → (⟨S160000x256, .f32⟩ : BufTy).Contents (Elt F) → (⟨S10000x256, .f32⟩ : BufTy).Contents (Elt F)) ]

set_option maxRecDepth 8192 in
theorem seg3_sub : (seg3 : List (HloOp τ sig (Elt F))).Forall fun op => op.bufs ⊆ tcRefs τ sig :=
  ⟨nullary_bufs_sub .., unary_bufs_sub .., unary_bufs_sub .., ternary_bufs_sub ..⟩

/-- @main's window main_part2: 28 operations. -/
abbrev seg4 : List (HloOp τ sig (Elt F)) :=
  [ StableHlo.binary main_v100 main_arg12 main_v101 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.binary main_v24 main_v101 main_v102 (addf : (⟨S10000x256, .f32⟩ : BufTy).Contents (Elt F) → (⟨S10000x256, .f32⟩ : BufTy).Contents (Elt F) → (⟨S10000x256, .f32⟩ : BufTy).Contents (Elt F)),
    StableHlo.binary main_v102 main_arg21 main_v103 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.unary main_arg22 main_v104 (broadcastInDim S1x256 ![1] bcast_S256_S1x256_1 : (⟨S256, .f32⟩ : BufTy).Contents (Elt F) → (⟨S1x256, .f32⟩ : BufTy).Contents (Elt F)),
    StableHlo.unary main_v104 main_v105 (broadcastInDim S10000x256 ![0, 1] bcast_S1x256_S10000x256_0_1 : (⟨S1x256, .f32⟩ : BufTy).Contents (Elt F) → (⟨S10000x256, .f32⟩ : BufTy).Contents (Elt F)),
    StableHlo.binary main_v103 main_v105 main_v106 (addf : (⟨S10000x256, .f32⟩ : BufTy).Contents (Elt F) → (⟨S10000x256, .f32⟩ : BufTy).Contents (Elt F) → (⟨S10000x256, .f32⟩ : BufTy).Contents (Elt F)),
    StableHlo.binary main_v106 main_v106 main_v107 (mulf : (⟨S10000x256, .f32⟩ : BufTy).Contents (Elt F) → (⟨S10000x256, .f32⟩ : BufTy).Contents (Elt F) → (⟨S10000x256, .f32⟩ : BufTy).Contents (Elt F)),
    StableHlo.binary main_v107 main_v106 main_v108 (mulf : (⟨S10000x256, .f32⟩ : BufTy).Contents (Elt F) → (⟨S10000x256, .f32⟩ : BufTy).Contents (Elt F) → (⟨S10000x256, .f32⟩ : BufTy).Contents (Elt F)),
    StableHlo.nullary main_cst_17 (constant S_ .f32 0x3D372713#32),
    StableHlo.unary main_cst_17 main_v109 (broadcastInDim S10000x256 ![] bcast_S_S10000x256 : (⟨S_, .f32⟩ : BufTy).Contents (Elt F) → (⟨S10000x256, .f32⟩ : BufTy).Contents (Elt F)),
    StableHlo.binary main_v109 main_v108 main_v110 (mulf : (⟨S10000x256, .f32⟩ : BufTy).Contents (Elt F) → (⟨S10000x256, .f32⟩ : BufTy).Contents (Elt F) → (⟨S10000x256, .f32⟩ : BufTy).Contents (Elt F)),
    StableHlo.binary main_v106 main_v110 main_v111 (addf : (⟨S10000x256, .f32⟩ : BufTy).Contents (Elt F) → (⟨S10000x256, .f32⟩ : BufTy).Contents (Elt F) → (⟨S10000x256, .f32⟩ : BufTy).Contents (Elt F)),
    StableHlo.nullary main_cst_18 (constant S_ .f32 0x3F4C422A#32),
    StableHlo.unary main_cst_18 main_v112 (broadcastInDim S10000x256 ![] bcast_S_S10000x256 : (⟨S_, .f32⟩ : BufTy).Contents (Elt F) → (⟨S10000x256, .f32⟩ : BufTy).Contents (Elt F)),
    StableHlo.binary main_v112 main_v111 main_v113 (mulf : (⟨S10000x256, .f32⟩ : BufTy).Contents (Elt F) → (⟨S10000x256, .f32⟩ : BufTy).Contents (Elt F) → (⟨S10000x256, .f32⟩ : BufTy).Contents (Elt F)),
    StableHlo.unary main_v113 main_v114 (Host.tanh : (⟨S10000x256, .f32⟩ : BufTy).Contents (Elt F) → (⟨S10000x256, .f32⟩ : BufTy).Contents (Elt F)),
    StableHlo.nullary main_cst_19 (constant S_ .f32 0x3F800000#32),
    StableHlo.unary main_cst_19 main_v115 (broadcastInDim S10000x256 ![] bcast_S_S10000x256 : (⟨S_, .f32⟩ : BufTy).Contents (Elt F) → (⟨S10000x256, .f32⟩ : BufTy).Contents (Elt F)),
    StableHlo.binary main_v115 main_v114 main_v116 (addf : (⟨S10000x256, .f32⟩ : BufTy).Contents (Elt F) → (⟨S10000x256, .f32⟩ : BufTy).Contents (Elt F) → (⟨S10000x256, .f32⟩ : BufTy).Contents (Elt F)),
    StableHlo.nullary main_cst_20 (constant S_ .f32 0x3F000000#32),
    StableHlo.unary main_cst_20 main_v117 (broadcastInDim S10000x256 ![] bcast_S_S10000x256 : (⟨S_, .f32⟩ : BufTy).Contents (Elt F) → (⟨S10000x256, .f32⟩ : BufTy).Contents (Elt F)),
    StableHlo.binary main_v117 main_v116 main_v118 (mulf : (⟨S10000x256, .f32⟩ : BufTy).Contents (Elt F) → (⟨S10000x256, .f32⟩ : BufTy).Contents (Elt F) → (⟨S10000x256, .f32⟩ : BufTy).Contents (Elt F)),
    StableHlo.binary main_v106 main_v118 main_v119 (mulf : (⟨S10000x256, .f32⟩ : BufTy).Contents (Elt F) → (⟨S10000x256, .f32⟩ : BufTy).Contents (Elt F) → (⟨S10000x256, .f32⟩ : BufTy).Contents (Elt F)),
    StableHlo.binary main_v119 main_arg23 main_v120 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.unary main_arg24 main_v121 (broadcastInDim S1x256 ![1] bcast_S256_S1x256_1 : (⟨S256, .f32⟩ : BufTy).Contents (Elt F) → (⟨S1x256, .f32⟩ : BufTy).Contents (Elt F)),
    StableHlo.unary main_v121 main_v122 (broadcastInDim S10000x256 ![0, 1] bcast_S1x256_S10000x256_0_1 : (⟨S1x256, .f32⟩ : BufTy).Contents (Elt F) → (⟨S10000x256, .f32⟩ : BufTy).Contents (Elt F)),
    StableHlo.binary main_v120 main_v122 main_v123 (addf : (⟨S10000x256, .f32⟩ : BufTy).Contents (Elt F) → (⟨S10000x256, .f32⟩ : BufTy).Contents (Elt F) → (⟨S10000x256, .f32⟩ : BufTy).Contents (Elt F)),
    StableHlo.binary main_v102 main_v123 main_v124 (addf : (⟨S10000x256, .f32⟩ : BufTy).Contents (Elt F) → (⟨S10000x256, .f32⟩ : BufTy).Contents (Elt F) → (⟨S10000x256, .f32⟩ : BufTy).Contents (Elt F)) ]

set_option maxRecDepth 8192 in
theorem seg4_sub : (seg4 : List (HloOp τ sig (Elt F))).Forall fun op => op.bufs ⊆ tcRefs τ sig :=
  ⟨binary_bufs_sub .., binary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub ..⟩

end Cert.ReferenceIdeal.Table

end
-- ==== Proof.RefRun.lean ====
/-
  The reference program runs: @main is its 166 host operations in sequence (the three leaky-rectifier calls spelled out at
  their call sites over each call's own buffers), so every weakly fair execution terminates without fault and leaves
  each buffer at the fold of the operations' results over the launch contents.

  The fold is cut where the value argument needs names: after the operations shared with the kernel's program up to the
  edge index rows (`seg0`, `seg1`), after the edge network (`seg2`), and the rest (`seg3`, `seg4`).
-/
import proofs.«415619_j30408368456386_1_alg».proof.Proof.RefOps
import Idealize.ShloMosaic.Lib.Pipeline.Frame

noncomputable section

namespace Cert.ReferenceIdeal.HandRun

open Cert.ReferenceIdeal Cert.ReferenceIdeal.Gen Cert.ReferenceIdeal.Table
open Idealize.ShloMosaic Idealize.ShloMosaic.TcCoe Idealize.SL.Sem Idealize.ShloMosaic.StableHlo

variable {F : FTy → Type} [FloatOps F]

/-- The operations of @main's second window: the end of the shared prefix, the edge network, the scatter's operands. -/
def win1 : List (HloOp τ sig (Elt F)) := seg1 ++ (seg2 ++ seg3)

/-- @main's operations, in order. -/
abbrev ops : List (HloOp τ sig (Elt F)) := seg0 ++ (win1 ++ seg4)

set_option maxRecDepth 8192 in
set_option maxHeartbeats 4000000 in
/-- The first window is its sixty operations in sequence. -/
theorem main_part0_eq (c : Dev nD) : main_part0 (F := F) c = seq seg0 := rfl

set_option maxRecDepth 8192 in
set_option maxHeartbeats 4000000 in
/-- The second window: each call unfolds to its callee's operations over the call's buffers, and sequencing
    reassociates to one chain. -/
theorem main_part1_eq (c : Dev nD) : main_part1 (F := F) c = seq win1 := by
  simp only [main_part1, fn_leaky_relu.body, fn_where.body, bind_assoc, pure_bind]
  rfl

set_option maxRecDepth 8192 in
set_option maxHeartbeats 4000000 in
/-- The third window is its operations in sequence. -/
theorem main_part2_eq (c : Dev nD) : main_part2 (F := F) c = seq seg4 := rfl

set_option maxRecDepth 8192 in
/-- @main runs its windows in order, and a sequence of concatenated lists is the sequences one after the other. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  List.forall_iff_forall_mem.mpr fun op h => by
    simp only [ops, win1, List.mem_append] at h
    rcases h with h | (h | h | h) | h
    exacts [List.forall_iff_forall_mem.mp seg0_sub op h, List.forall_iff_forall_mem.mp seg1_sub op h,
      List.forall_iff_forall_mem.mp seg2_sub op h, List.forall_iff_forall_mem.mp seg3_sub op h,
      List.forall_iff_forall_mem.mp seg4_sub op h]

set_option maxRecDepth 8192 in
theorem seg0_fresh : (seg0 : List (HloOp τ sig (Elt F))).Forall fun op => op.fresh = ∅ := by
  simp only [List.Forall]; repeat' constructor
set_option maxRecDepth 8192 in
theorem seg1_fresh : (seg1 : List (HloOp τ sig (Elt F))).Forall fun op => op.fresh = ∅ := by
  simp only [List.Forall]; repeat' constructor
set_option maxRecDepth 8192 in
theorem seg2_fresh : (seg2 : List (HloOp τ sig (Elt F))).Forall fun op => op.fresh = ∅ := by
  simp only [List.Forall]; repeat' constructor
set_option maxRecDepth 8192 in
theorem seg3_fresh : (seg3 : List (HloOp τ sig (Elt F))).Forall fun op => op.fresh = ∅ := by
  simp only [List.Forall]; repeat' constructor
set_option maxRecDepth 8192 in
theorem seg4_fresh : (seg4 : List (HloOp τ sig (Elt F))).Forall fun op => op.fresh = ∅ := by
  simp only [List.Forall]; repeat' constructor

/-- Every operation determines its results: none allocates. -/
theorem ops_fresh : ∀ op ∈ (ops : List (HloOp τ sig (Elt F))), op.fresh = ∅ := fun op h => by
  simp only [ops, win1, List.mem_append] at h
  rcases h with h | (h | h | h) | h
  exacts [List.forall_iff_forall_mem.mp seg0_fresh op h, List.forall_iff_forall_mem.mp seg1_fresh op h,
    List.forall_iff_forall_mem.mp seg2_fresh op h, List.forall_iff_forall_mem.mp seg3_fresh op h,
    List.forall_iff_forall_mem.mp seg4_fresh op h]

/-- On every device, for any float values, from any memory with zero counters: every weakly fair execution of @main
    terminates, and every final state has each TensorCore buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The fold over all the operations is the folds over the five segments, one after the other. -/
theorem after_ops (W : Valuation τ sig (Elt F)) :
    after ops W = after seg4 (after seg3 (after seg2 (after seg1 (after seg0 W)))) := by
  simp only [ops, win1, StableHlo.after_append]

end Cert.ReferenceIdeal.HandRun

end
-- ==== Proof.RefFrame.lean ====
/-
  The reference program's argument buffers end as launched: none of its operations writes one.

  Each operation of @main writes one buffer, its result's, and no result's buffer is an argument's; so the fold of
  the operations' results, segment by segment, leaves every argument's buffer at the launch contents, and the run's
  final memory holds the fold.
-/
import proofs.«415619_j30408368456386_1_alg».proof.Defs
import proofs.«415619_j30408368456386_1_alg».proof.Proof.RefRun
import proofs.«415619_j30408368456386_1_alg».proof.Proof.Gen.Pre_finite_inputs

noncomputable section

namespace Cert.ReferenceIdeal.HandFrame

open Cert.ReferenceIdeal Cert.ReferenceIdeal.Gen Cert.ReferenceIdeal.Table Cert.ReferenceIdeal.HandRun
open Idealize.ShloMosaic Idealize.ShloMosaic.TcCoe Idealize.SL.Sem Idealize.ShloMosaic.StableHlo

variable {F : FTy → Type} [FloatOps F]

/-- @main's argument buffers. -/
abbrev args : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]

/-- A set of device buffers that is the one buffer of a reference holds the buffer of no reference of a list the
    reference is not in: distinct references are distinct device buffers. -/
theorem forall_not_mem_of_eq_singleton {A : List (Ref sig .tc)} {y : Ref sig .tc} {s : Finset (DevRef τ sig)}
    (hy : y ∉ A) (hs : s = {Proc.devRef .tc y}) : ∀ b ∈ A, Proc.devRef (τ := τ) .tc b ∉ s := by
  subst hs
  intro b hb h
  exact hy (Proc.devRef_injective _ (Finset.mem_singleton.mp h) ▸ hb)

/-- A line none of whose operations writes a buffer of the list leaves each of the list's buffers as it found it. -/
theorem after_of_keeps {A : List (Ref sig .tc)} (l : List (HloOp τ sig (Elt F)))
    (hl : l.Forall fun op => ∀ b ∈ A, Proc.devRef (τ := τ) .tc b ∉ op.writes)
    (V : Valuation τ sig (Elt F)) (b : Ref sig .tc) (hb : b ∈ A) :
    after l V (Proc.devRef .tc b) = V (Proc.devRef .tc b) :=
  after_of_forall_not_mem l V fun op hop => List.forall_iff_forall_mem.mp hl op hop b hb

/-! Each operation writes its result's buffer only (by computation), and that reference is no argument (decided over
    the references). -/

set_option maxRecDepth 8192 in
theorem seg0_keeps : (seg0 : List (HloOp τ sig (Elt F))).Forall fun op =>
    ∀ b ∈ args, Proc.devRef (τ := τ) .tc b ∉ op.writes := by
  simp only [List.Forall]
  repeat' apply And.intro
  all_goals exact forall_not_mem_of_eq_singleton (by decide) rfl

set_option maxRecDepth 8192 in
theorem seg1_keeps : (seg1 : List (HloOp τ sig (Elt F))).Forall fun op =>
    ∀ b ∈ args, Proc.devRef (τ := τ) .tc b ∉ op.writes := by
  simp only [List.Forall]
  repeat' apply And.intro
  all_goals exact forall_not_mem_of_eq_singleton (by decide) rfl

set_option maxRecDepth 8192 in
theorem seg2_keeps : (seg2 : List (HloOp τ sig (Elt F))).Forall fun op =>
    ∀ b ∈ args, Proc.devRef (τ := τ) .tc b ∉ op.writes := by
  simp only [List.Forall]
  repeat' apply And.intro
  all_goals exact forall_not_mem_of_eq_singleton (by decide) rfl

set_option maxRecDepth 8192 in
theorem seg3_keeps : (seg3 : List (HloOp τ sig (Elt F))).Forall fun op =>
    ∀ b ∈ args, Proc.devRef (τ := τ) .tc b ∉ op.writes := by
  simp only [List.Forall]
  repeat' apply And.intro
  all_goals exact forall_not_mem_of_eq_singleton (by decide) rfl

set_option maxRecDepth 8192 in
theorem seg4_keeps : (seg4 : List (HloOp τ sig (Elt F))).Forall fun op =>
    ∀ b ∈ args, Proc.devRef (τ := τ) .tc b ∉ op.writes := by
  simp only [List.Forall]
  repeat' apply And.intro
  all_goals exact forall_not_mem_of_eq_singleton (by decide) rfl

/-- After all of @main's operations an argument's buffer holds what it held before them: the fold is the five
    segments' folds one after the other, and none of them touches it. -/
theorem arg_kept (F : FTy → Type) [FloatOps F] (W : Valuation τ sig (Elt F)) (b : Ref sig .tc)
    (hb : b ∈ ([main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24] : List (Ref sig .tc))) :
    after (ops (F := F)) W (Proc.devRef .tc b) = W (Proc.devRef .tc b) := by
  rw [after_ops, after_of_keeps seg4 seg4_keeps _ b hb, after_of_keeps seg3 seg3_keeps _ b hb,
    after_of_keeps seg2 seg2_keeps _ b hb, after_of_keeps seg1 seg1_keeps _ b hb,
    after_of_keeps seg0 seg0_keeps _ b hb]

/-- The reference's frame: every weakly fair execution terminates, and each device's argument buffers end at their
    launch contents — the run leaves each buffer at the operations' fold, which keeps the arguments. -/
theorem frame_ri : Cert.frame_ReferenceIdeal := fun m ρ _ =>
  (θ_run defs _ _).mono (fun _ h c =>
    ⟨(h c main_arg0).trans (arg_kept Ideal _ main_arg0 (by decide)),
      (h c main_arg1).trans (arg_kept Ideal _ main_arg1 (by decide)),
      (h c main_arg2).trans (arg_kept Ideal _ main_arg2 (by decide)),
      (h c main_arg3).trans (arg_kept Ideal _ main_arg3 (by decide)),
      (h c main_arg4).trans (arg_kept Ideal _ main_arg4 (by decide)),
      (h c main_arg5).trans (arg_kept Ideal _ main_arg5 (by decide)),
      (h c main_arg6).trans (arg_kept Ideal _ main_arg6 (by decide)),
      (h c main_arg7).trans (arg_kept Ideal _ main_arg7 (by decide)),
      (h c main_arg8).trans (arg_kept Ideal _ main_arg8 (by decide)),
      (h c main_arg9).trans (arg_kept Ideal _ main_arg9 (by decide)),
      (h c main_arg10).trans (arg_kept Ideal _ main_arg10 (by decide)),
      (h c main_arg11).trans (arg_kept Ideal _ main_arg11 (by decide)),
      (h c main_arg12).trans (arg_kept Ideal _ main_arg12 (by decide)),
      (h c main_arg13).trans (arg_kept Ideal _ main_arg13 (by decide)),
      (h c main_arg14).trans (arg_kept Ideal _ main_arg14 (by decide)),
      (h c main_arg15).trans (arg_kept Ideal _ main_arg15 (by decide)),
      (h c main_arg16).trans (arg_kept Ideal _ main_arg16 (by decide)),
      (h c main_arg17).trans (arg_kept Ideal _ main_arg17 (by decide)),
      (h c main_arg18).trans (arg_kept Ideal _ main_arg18 (by decide)),
      (h c main_arg19).trans (arg_kept Ideal _ main_arg19 (by decide)),
      (h c main_arg20).trans (arg_kept Ideal _ main_arg20 (by decide)),
      (h c main_arg21).trans (arg_kept Ideal _ main_arg21 (by decide)),
      (h c main_arg22).trans (arg_kept Ideal _ main_arg22 (by decide)),
      (h c main_arg23).trans (arg_kept Ideal _ main_arg23 (by decide)),
      (h c main_arg24).trans (arg_kept Ideal _ main_arg24 (by decide))⟩) (run (F := Ideal) m ρ)

end Cert.ReferenceIdeal.HandFrame

end
-- ==== Proof.RowSpec.lean ====
/-
  One edge's pass through the four-layer edge network, as a function of that edge's three 256-vectors and the weights.

  Every operation of the edge network acts on one row at a time: a matrix product's row `e` is the sum over the
  contracted axis of row `e` of the left operand against a column of the weights, a bias is added column by column,
  and the leaky rectifier is pointwise. So the whole network at row `e`, column `j` is `rowMlp` of row `e` of the
  gathered source messages, of the gathered destination messages and of the edge attributes.

  The first layer contracts over the 768 concatenated columns; splitting that sum at 256 and 512 (`sum_three_blocks`,
  associativity and commutativity of addition on the extended reals, nothing else) gives the three 256-column products
  against the three row blocks of the first weight matrix (`layer_concat`).
-/
import Idealize.ShloMosaic.PureOps.Ideal
import Idealize.ShloMosaic.Lib.ValueIdx
import Mathlib.Algebra.BigOperators.Fin

noncomputable section

namespace Cert.EdgeRow

open Idealize.ShloMosaic

/-- The leaky rectifier on one extended real: `x` where `x ≥ 0`, the slope word times `x` elsewhere. The two words
    are the programs' own (`0` and the f32 nearest to 0.01); neither is evaluated. -/
def lrelu (x : EReal) : EReal :=
  Scalar.select (FloatOps.cmpf (F := Ideal) (φ := .f32) .oge x (Ideal.ofBits .f32 0x00000000#32)) x
    (Ideal.ofBits .f32 0x3C23D70A#32 * x)

/-- The rectifier along a row. -/
def act (y : Fin 256 → EReal) : Fin 256 → EReal := fun j => lrelu (y j)

/-- One dense layer on one row: `x · W + b`, contracted over `K` columns. -/
def layer {K : Nat} (W : Fin K → Fin 256 → EReal) (b : Fin 256 → EReal) (x : Fin K → EReal) : Fin 256 → EReal :=
  fun j => (∑ k : Fin K, x k * W k j) + b j

/-- The first layer on one row as the kernel adds it up: three 256-column products, then the bias. -/
def layer1 (Wa Wb Wc : Fin 256 → Fin 256 → EReal) (b1 : Fin 256 → EReal) (a b c : Fin 256 → EReal) : Fin 256 → EReal :=
  fun j => (((∑ k : Fin 256, a k * Wa k j) + ∑ k : Fin 256, b k * Wb k j) + ∑ k : Fin 256, c k * Wc k j) + b1 j

/-- The edge network on one row: first layer, rectifier, and three more layers with a rectifier between them. -/
def rowMlp (Wa Wb Wc : Fin 256 → Fin 256 → EReal) (b1 : Fin 256 → EReal)
    (W2 : Fin 256 → Fin 256 → EReal) (b2 : Fin 256 → EReal)
    (W3 : Fin 256 → Fin 256 → EReal) (b3 : Fin 256 → EReal)
    (W4 : Fin 256 → Fin 256 → EReal) (b4 : Fin 256 → EReal)
    (a b c : Fin 256 → EReal) : Fin 256 → EReal :=
  layer W4 b4 (act (layer W3 b3 (act (layer W2 b2 (act (layer1 Wa Wb Wc b1 a b c))))))

/-- Three rows side by side. -/
def concat3 (a b c : Fin 256 → EReal) : Fin 768 → EReal := fun k =>
  if h : k.val < 256 then a ⟨k.val, h⟩
  else if h' : k.val < 512 then b ⟨k.val - 256, by omega⟩
  else c ⟨k.val - 512, by omega⟩

/-- Row block `n` (of three) of a 768-row matrix. -/
def rowBlock (W : Fin 768 → Fin 256 → EReal) (n : Fin 3) : Fin 256 → Fin 256 → EReal :=
  fun k j => W ⟨256 * n.val + k.val, by omega⟩ j

/-- A sum over 768 terms is the sum of its three blocks of 256, in order. -/
theorem sum_three_blocks (f : Fin 768 → EReal) :
    ∑ k : Fin 768, f k
      = ((∑ k : Fin 256, f ⟨k.val, by omega⟩) + ∑ k : Fin 256, f ⟨256 + k.val, by omega⟩)
          + ∑ k : Fin 256, f ⟨512 + k.val, by omega⟩ := by
  have h : (∑ k : Fin 768, f k) = ∑ k : Fin (256 + 256 + 256), f ⟨k.val, by omega⟩ := rfl
  rw [h, Fin.sum_univ_add, Fin.sum_univ_add]
  rfl

/-- The first layer over the concatenated row is the three block products added up. -/
theorem layer_concat (W : Fin 768 → Fin 256 → EReal) (b1 : Fin 256 → EReal) (a b c : Fin 256 → EReal) :
    layer W b1 (concat3 a b c) = layer1 (rowBlock W 0) (rowBlock W 1) (rowBlock W 2) b1 a b c := by
  funext j
  unfold layer layer1
  rw [sum_three_blocks]
  have e0 : ∀ k : Fin 256,
      concat3 a b c ⟨k.val, by omega⟩ * W ⟨k.val, by omega⟩ j = a k * rowBlock W 0 k j := by
    intro k
    have hk : k.val < 256 := k.isLt
    simp [concat3, rowBlock, hk]
  have e1 : ∀ k : Fin 256,
      concat3 a b c ⟨256 + k.val, by omega⟩ * W ⟨256 + k.val, by omega⟩ j = b k * rowBlock W 1 k j := by
    intro k
    have hk : k.val < 256 := k.isLt
    have h1 : ¬ 256 + k.val < 256 := by omega
    have h2 : 256 + k.val < 512 := by omega
    have h3 : 256 + k.val - 256 = k.val := by omega
    simp [concat3, rowBlock, h1, h2, h3]
  have e2 : ∀ k : Fin 256,
      concat3 a b c ⟨512 + k.val, by omega⟩ * W ⟨512 + k.val, by omega⟩ j = c k * rowBlock W 2 k j := by
    intro k
    have hk : k.val < 256 := k.isLt
    have h1 : ¬ 512 + k.val < 256 := by omega
    have h2 : ¬ 512 + k.val < 512 := by omega
    have h3 : 512 + k.val - 512 = k.val := by omega
    simp [concat3, rowBlock, h1, h2, h3]
  rw [Finset.sum_congr rfl (fun k _ => e0 k), Finset.sum_congr rfl (fun k _ => e1 k),
    Finset.sum_congr rfl (fun k _ => e2 k)]

end Cert.EdgeRow

end
-- ==== Proof.KernelRow.lean ====
/-
  The kernel body's one stored value, read at row `r`, column `j` of its 4000 × 256 block.
-/
import proofs.«415619_j30408368456386_1_alg».proof.Proof.Gen.KernelIdeal.Skeleton
import proofs.«415619_j30408368456386_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeRow

open Cert.KernelIdeal Cert.KernelIdeal.Gen Idealize.ShloMosaic Idealize.ShloMosaic.ValueIdx Cert.EdgeRow

/-! ## One matrix product at an index

The product contracts the left operand's columns against the right operand's rows. Its two operand indices at output
index `i` and contraction position `q` are read one coordinate at a time: the free coordinate comes from `i`, the
contracted one from `q`. -/

/-- The left operand is read on the output's row. -/
theorem lhs_row (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide),
    dif_pos (show (0 : Fin S4000x256.rank) ∈ dot_S4000x256_S256x256_S4000x256_1_0_0_1_n_n.lhsNonContracting by decide)]
  rfl

/-- The left operand's column is the contraction position. -/
theorem lhs_col (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q

/-- The right operand's row is the contraction position. -/
theorem rhs_row (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q

/-- The right operand is read on the output's column. -/
theorem rhs_col (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide),
    dif_pos (show (1 : Fin S256x256.rank) ∈ dot_S4000x256_S256x256_S4000x256_1_0_0_1_n_n.rhsNonContracting by decide)]
  rfl

/-- A product into the zero accumulator, at row `r` and column `j`: the sum over `k` of the left operand's `(r, k)`
    entry times the right operand's `(k, j)` entry. -/
theorem mm_apply (lhs : FVec Ideal S4000x256 .bf16) (rhs : FVec Ideal S256x256 .bf16) (r : Fin 4000) (j : Fin 256) :
    matmul (F := Ideal) dot_S4000x256_S256x256_S4000x256_1_0_0_1_n_n none lhs rhs (constant (F := Ideal) S4000x256 .f32 0x00000000#32) (ix2 r j)
      = ∑ k : Fin 256, lhs (ix2 r k) * rhs (ix2 k j) := by
  simp only [matmul]
  rw [Ideal.matmul_constant_zero_apply, ← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 r j) ((contrEquiv1 dot_S4000x256_S256x256_S4000x256_1_0_0_1_n_n 256 rfl rfl).symm k) = ix2 r k :=
    funext fun a => Fin.ext (by
      match a with
      | ⟨0, _⟩ => exact lhs_row _ _
      | ⟨1, _⟩ => exact (lhs_col _ _).trans hk)
  have er : dot_S4000x256_S256x256_S4000x256_1_0_0_1_n_n.rhsIdx (ix2 r j) ((contrEquiv1 dot_S4000x256_S256x256_S4000x256_1_0_0_1_n_n 256 rfl rfl).symm k) = ix2 k j :=
    funext fun a => Fin.ext (by
      match a with
      | ⟨0, _⟩ => exact (rhs_row _ _).trans hk
      | ⟨1, _⟩ => exact rhs_col _ _)
  rw [el, er]

/-! ## The bias and the rectifier at an index -/

/-- A bias vector laid out as one row and repeated down the block reads, at `(r, j)`, its entry `j`. -/
theorem bias_apply (b : FVec Ideal S256 .f32) (r : Fin 4000) (j : Fin 256) :
    broadcastTo S4000x256 (shapeCast S1x256 b shapeCasts_S256_S1x256) broadcasts_S1x256_S4000x256 (ix2 r j) = b (ix1 j) :=
  (broadcastTo_1b_ab_apply _ broadcasts_S1x256_S4000x256 r j).trans (shapeCast_a_1a_apply b shapeCasts_S256_S1x256 0 j)

/-- The block's leaky rectifier, as the body spells it. -/
def rect (y : FVec Ideal S4000x256 .f32) : FVec Ideal S4000x256 .f32 :=
  select (cmpf .oge y (broadcast S4000x256 (Scalar.ofBits (F := Ideal) .f32 0x00000000#32))) y
    (mulf (broadcast S4000x256 (Scalar.ofBits (F := Ideal) .f32 0x3C23D70A#32)) y)

/-- It is the scalar rectifier entry by entry. -/
theorem rect_apply (y : FVec Ideal S4000x256 .f32) (i : S4000x256.Idx) : rect y i = lrelu (y i) := rfl

/-! ## The layers -/

/-- One product of a block against a weight matrix, as the body spells it: the weights recast to their own shape, the
    accumulator the zero block. -/
def mm (a : FVec Ideal S4000x256 .bf16) (W : FVec Ideal S256x256 .bf16) : FVec Ideal S4000x256 .f32 :=
  matmul (F := Ideal) dot_S4000x256_S256x256_S4000x256_1_0_0_1_n_n none a (shapeCast S256x256 W shapeCasts_S256x256_S256x256)
    (constant (F := Ideal) S4000x256 .f32 0x00000000#32)

theorem mm_row (a : FVec Ideal S4000x256 .bf16) (W : FVec Ideal S256x256 .bf16) (r : Fin 4000) (j : Fin 256) :
    mm a W (ix2 r j) = ∑ k : Fin 256, a (ix2 r k) * W (ix2 k j) := by
  unfold mm
  rw [shapeCast_self]
  exact mm_apply a W r j

/-- The bias block. -/
def biasBlock (b : FVec Ideal S256 .f32) : FVec Ideal S4000x256 .f32 :=
  broadcastTo S4000x256 (shapeCast S1x256 b shapeCasts_S256_S1x256) broadcasts_S1x256_S4000x256

/-- A later layer of the body: rectify the previous layer's block, narrow it, multiply, add the bias. -/
def nextLayer (y : FVec Ideal S4000x256 .f32) (W : FVec Ideal S256x256 .bf16) (b : FVec Ideal S256 .f32) :
    FVec Ideal S4000x256 .f32 :=
  addf (mm (truncf .bf16 (rect y) bitsLt_bf16_f32) W) (biasBlock b)

/-- Row `r` of a later layer's block is the dense layer applied to the rectified row `r` of the block before it. -/
theorem nextLayer_row (y : FVec Ideal S4000x256 .f32) (W : FVec Ideal S256x256 .bf16) (b : FVec Ideal S256 .f32) (r : Fin 4000) :
    (fun j : Fin 256 => nextLayer y W b (ix2 r j))
      = layer (fun k j => W (ix2 k j)) (fun j => b (ix1 j)) (act fun k => y (ix2 r k)) := by
  funext j
  unfold nextLayer
  rw [addf_apply, mm_row]
  exact congrArg₂ (· + ·) rfl (bias_apply b r j)

/-- The first layer of the body: the three edge blocks, each narrowed and multiplied by its block of the first weight
    matrix, added up in order, then the bias. -/
def firstLayer (x0 x1 x2 : FVec Ideal S4000x256 .f32) (Wa Wb Wc : FVec Ideal S256x256 .bf16) (b : FVec Ideal S256 .f32) :
    FVec Ideal S4000x256 .f32 :=
  addf
    (addf
      (addf (mm (truncf .bf16 (shapeCast S4000x256 x0 shapeCasts_S4000x256_S4000x256) bitsLt_bf16_f32) Wa)
        (mm (truncf .bf16 (shapeCast S4000x256 x1 shapeCasts_S4000x256_S4000x256) bitsLt_bf16_f32) Wb))
      (mm (truncf .bf16 (shapeCast S4000x256 x2 shapeCasts_S4000x256_S4000x256) bitsLt_bf16_f32) Wc))
    (biasBlock b)

/-- Row `r` of the first layer's block is the first layer on row `r` of the three edge blocks. -/
theorem firstLayer_row (x0 x1 x2 : FVec Ideal S4000x256 .f32) (Wa Wb Wc : FVec Ideal S256x256 .bf16) (b : FVec Ideal S256 .f32)
    (r : Fin 4000) :
    (fun j : Fin 256 => firstLayer x0 x1 x2 Wa Wb Wc b (ix2 r j))
      = layer1 (fun k j => Wa (ix2 k j)) (fun k j => Wb (ix2 k j)) (fun k j => Wc (ix2 k j)) (fun j => b (ix1 j))
          (fun k => x0 (ix2 r k)) (fun k => x1 (ix2 r k)) (fun k => x2 (ix2 r k)) := by
  funext j
  unfold firstLayer
  rw [addf_apply, addf_apply, addf_apply, mm_row, mm_row, mm_row, shapeCast_self, shapeCast_self, shapeCast_self]
  exact congrArg₂ (· + ·) rfl (bias_apply b r j)

/-! ## The body's stored value is these layers composed -/

theorem pay2_eq (x0 x1 x2 : Vec Ideal S4000x256 .f32) (x3 x4 x5 : Vec Ideal S256x256 .bf16) (x6 : Vec Ideal S256 .f32)
    (x7 : Vec Ideal S256x256 .bf16) (x8 : Vec Ideal S256 .f32) :
    k0_pay2 (F := Ideal) x0 x1 x2 x3 x4 x5 x6 x7 x8 = nextLayer (firstLayer x0 x1 x2 x3 x4 x5 x6) x7 x8 := rfl

theorem pay1_eq (y : FVec Ideal S4000x256 .f32) (x9 : Vec Ideal S256x256 .bf16) (x10 : Vec Ideal S256 .f32)
    (x11 : Vec Ideal S256x256 .bf16) (x12 : Vec Ideal S256 .f32) :
    k0_pay1 (F := Ideal) y x9 x10 x11 x12 = nextLayer (nextLayer y x9 x10) x11 x12 := rfl

/-- At the extended reals the body's stored value at row `r`, column `j` is the edge network on row `r` of the three
    edge blocks: the bf16 truncations are the identity, each `tpu.matmul` into a zero accumulator is a plain sum over
    the contracted axis, and the rest is pointwise. -/
theorem pay_apply (x0 x1 x2 : Vec Ideal S4000x256 .f32) (x3 x4 x5 : Vec Ideal S256x256 .bf16) (x6 : Vec Ideal S256 .f32)
    (x7 : Vec Ideal S256x256 .bf16) (x8 : Vec Ideal S256 .f32) (x9 : Vec Ideal S256x256 .bf16) (x10 : Vec Ideal S256 .f32)
    (x11 : Vec Ideal S256x256 .bf16) (x12 : Vec Ideal S256 .f32) (r : Fin 4000) (j : Fin 256) :
    k0_pay1 (F := Ideal) (k0_pay2 (F := Ideal) x0 x1 x2 x3 x4 x5 x6 x7 x8) x9 x10 x11 x12 (ix2 r j)
      = rowMlp (fun k j => x3 (ix2 k j)) (fun k j => x4 (ix2 k j)) (fun k j => x5 (ix2 k j)) (fun j => x6 (ix1 j))
          (fun k j => x7 (ix2 k j)) (fun j => x8 (ix1 j)) (fun k j => x9 (ix2 k j)) (fun j => x10 (ix1 j))
          (fun k j => x11 (ix2 k j)) (fun j => x12 (ix1 j))
          (fun k => x0 (ix2 r k)) (fun k => x1 (ix2 r k)) (fun k => x2 (ix2 r k)) j := by
  rw [pay1_eq, pay2_eq]
  have h1 := firstLayer_row x0 x1 x2 x3 x4 x5 x6 r
  have h2 := nextLayer_row (firstLayer x0 x1 x2 x3 x4 x5 x6) x7 x8 r
  have h3 := nextLayer_row (nextLayer (firstLayer x0 x1 x2 x3 x4 x5 x6) x7 x8) x9 x10 r
  have h4 := nextLayer_row (nextLayer (nextLayer (firstLayer x0 x1 x2 x3 x4 x5 x6) x7 x8) x9 x10) x11 x12 r
  rw [h3, h2, h1] at h4
  exact congrFun h4 j

end Cert.KernelIdeal.EdgeRow

end
-- ==== Proof.KernelArray.lean ====
/-
  The edge network's output array after the kernel region: row `e` is the edge network on row `e` of the region's
  three edge arrays. Point `t` of the 40-point grid reads rows `4000 t … 4000 t + 3999` of each edge array and the
  weights whole, and writes the same rows of the output; the 40 blocks tile the 160000 rows.
-/
import proofs.«415619_j30408368456386_1_alg».proof.Proof.Gen.KernelIdeal.Frame
import proofs.«415619_j30408368456386_1_alg».proof.Proof.KernelRow

noncomputable section

namespace Cert.KernelIdeal.EdgeArr

open Cert.KernelIdeal Cert.KernelIdeal.Gen Idealize.ShloMosaic Idealize.ShloMosaic.TcCoe Idealize.ShloMosaic.ValueIdx
open Idealize.SL.Sem Cert.EdgeRow

variable (m : (ℓ : Loc nD τ sig) → Buf (Elt Ideal) ℓ)

/-- The region's arrays as it finds them, each at its literal type: gathered source and destination messages, edge
    attributes, the three row blocks of the first weight matrix, the other weights and the biases. -/
abbrev srcArr (c : Dev nD) : S160000x256.Idx → EReal := V (F := Ideal) m c main_v64
abbrev dstArr (c : Dev nD) : S160000x256.Idx → EReal := V (F := Ideal) m c main_v65
abbrev attrArr (c : Dev nD) : S160000x256.Idx → EReal := V (F := Ideal) m c main_v55
abbrev w1aArr (c : Dev nD) : S256x256.Idx → EReal := V (F := Ideal) m c main_v67
abbrev w1bArr (c : Dev nD) : S256x256.Idx → EReal := V (F := Ideal) m c main_v69
abbrev w1cArr (c : Dev nD) : S256x256.Idx → EReal := V (F := Ideal) m c main_v71
abbrev b1Arr (c : Dev nD) : S256.Idx → EReal := V (F := Ideal) m c main_arg14
abbrev w2Arr (c : Dev nD) : S256x256.Idx → EReal := V (F := Ideal) m c main_v72
abbrev b2Arr (c : Dev nD) : S256.Idx → EReal := V (F := Ideal) m c main_arg16
abbrev w3Arr (c : Dev nD) : S256x256.Idx → EReal := V (F := Ideal) m c main_v73
abbrev b3Arr (c : Dev nD) : S256.Idx → EReal := V (F := Ideal) m c main_arg18
abbrev w4Arr (c : Dev nD) : S256x256.Idx → EReal := V (F := Ideal) m c main_v74
abbrev b4Arr (c : Dev nD) : S256.Idx → EReal := V (F := Ideal) m c main_arg20
/-- The output window's array after all 40 points. -/
abbrev outArr (c : Dev nD) : S160000x256.Idx → EReal := (dats (F := Ideal) m 0 c).arrAt 13 cfg0.N

/-! ## The printed index maps, decided over the grid -/

theorem zero2 : (![0, 0] : Fin 2 → Nat) = fun _ => 0 := funext fun a => by fin_cases a <;> rfl
theorem zero1 : (![0] : Fin 1 → Nat) = fun _ => 0 := funext fun a => by fin_cases a <;> rfl

/-- At point `t` the three edge windows and the output window sit at block `(t, 0)`. -/
theorem rowBlock_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_13.index t (0 : Fin 2) = t.val ∧ win0_13.index t (1 : Fin 2) = 0) :=
  (by decide +kernel : ∀ t : Fin grid0.N, _)

/-- At every point the weight windows sit at block `(0, 0)`: each is its whole array. -/
theorem weightBlock_index : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_7.index t (0 : Fin 2) = 0 ∧ win0_7.index t (1 : Fin 2) = 0)
    ∧ (win0_9.index t (0 : Fin 2) = 0 ∧ win0_9.index t (1 : Fin 2) = 0)
    ∧ (win0_11.index t (0 : Fin 2) = 0 ∧ win0_11.index t (1 : Fin 2) = 0) :=
  (by decide +kernel : ∀ t : Fin grid0.N, _)

/-- At every point the bias windows sit at block `0`: each is its whole array. -/
theorem biasBlock_index : ∀ t : Fin cfg0.N,
    win0_6.index t (0 : Fin 1) = 0 ∧ win0_8.index t (0 : Fin 1) = 0
    ∧ win0_10.index t (0 : Fin 1) = 0 ∧ win0_12.index t (0 : Fin 1) = 0 :=
  (by decide +kernel : ∀ t : Fin grid0.N, _)

/-- The grid has 40 points. -/
theorem points_lt (t : Fin cfg0.N) : t.val < 40 := by
  have h : cfg0.N = 40 := N_0
  have := t.isLt
  omega

/-! ## Each window's block at a point, read where it sits in its array -/

/-- Point `t`'s block of the gathered source messages is rows `4000 t …` of the array. -/
theorem srcBlock_apply (c : Dev nD) (t : Fin cfg0.N) (r : Fin 4000) (k : Fin 256) (e : Fin 160000)
    (he : e.val = 4000 * t.val + r.val) :
    (iblk (F := Ideal) m c 0 t : Vec Ideal S4000x256 .f32) (ix2 r k) = srcArr m c (ix2 e k) := by
  obtain ⟨⟨h0, h1⟩, -⟩ := rowBlock_index t
  unfold iblk
  rw [View.read_apply]
  show V (F := Ideal) m c main_v64 _ = V (F := Ideal) m c main_v64 _
  congr 1
  funext a
  apply Fin.ext
  match a with
  | ⟨0, _⟩ => show win0_0.index t (0 : Fin 2) * 4000 + 1 * r.val = e.val; rw [h0, he]; omega
  | ⟨1, _⟩ => show win0_0.index t (1 : Fin 2) * 256 + 1 * k.val = k.val; rw [h1]; omega

/-- Point `t`'s block of the gathered destination messages is rows `4000 t …` of the array. -/
theorem dstBlock_apply (c : Dev nD) (t : Fin cfg0.N) (r : Fin 4000) (k : Fin 256) (e : Fin 160000)
    (he : e.val = 4000 * t.val + r.val) :
    (iblk (F := Ideal) m c 1 t : Vec Ideal S4000x256 .f32) (ix2 r k) = dstArr m c (ix2 e k) := by
  obtain ⟨-, ⟨h0, h1⟩, -⟩ := rowBlock_index t
  unfold iblk
  rw [View.read_apply]
  show V (F := Ideal) m c main_v65 _ = V (F := Ideal) m c main_v65 _
  congr 1
  funext a
  apply Fin.ext
  match a with
  | ⟨0, _⟩ => show win0_1.index t (0 : Fin 2) * 4000 + 1 * r.val = e.val; rw [h0, he]; omega
  | ⟨1, _⟩ => show win0_1.index t (1 : Fin 2) * 256 + 1 * k.val = k.val; rw [h1]; omega

/-- Point `t`'s block of the edge attributes is rows `4000 t …` of the array. -/
theorem attrBlock_apply (c : Dev nD) (t : Fin cfg0.N) (r : Fin 4000) (k : Fin 256) (e : Fin 160000)
    (he : e.val = 4000 * t.val + r.val) :
    (iblk (F := Ideal) m c 2 t : Vec Ideal S4000x256 .f32) (ix2 r k) = attrArr m c (ix2 e k) := by
  obtain ⟨-, -, ⟨h0, h1⟩, -⟩ := rowBlock_index t
  unfold iblk
  rw [View.read_apply]
  show V (F := Ideal) m c main_v55 _ = V (F := Ideal) m c main_v55 _
  congr 1
  funext a
  apply Fin.ext
  match a with
  | ⟨0, _⟩ => show win0_2.index t (0 : Fin 2) * 4000 + 1 * r.val = e.val; rw [h0, he]; omega
  | ⟨1, _⟩ => show win0_2.index t (1 : Fin 2) * 256 + 1 * k.val = k.val; rw [h1]; omega

/-- The first row block of the first weight matrix is read whole at every point. -/
theorem w1aBlock_apply (c : Dev nD) (t : Fin cfg0.N) (k j : Fin 256) :
    (iblk (F := Ideal) m c 3 t : Vec Ideal S256x256 .bf16) (ix2 k j) = w1aArr m c (ix2 k j) := by
  obtain ⟨⟨h0, h1⟩, -⟩ := weightBlock_index t
  unfold iblk
  rw [View.read_apply]
  show V (F := Ideal) m c main_v67 _ = V (F := Ideal) m c main_v67 _
  congr 1
  funext a
  apply Fin.ext
  match a with
  | ⟨0, _⟩ => show win0_3.index t (0 : Fin 2) * 256 + 1 * k.val = k.val; rw [h0]; omega
  | ⟨1, _⟩ => show win0_3.index t (1 : Fin 2) * 256 + 1 * j.val = j.val; rw [h1]; omega

/-- The second row block of the first weight matrix is read whole at every point. -/
theorem w1bBlock_apply (c : Dev nD) (t : Fin cfg0.N) (k j : Fin 256) :
    (iblk (F := Ideal) m c 4 t : Vec Ideal S256x256 .bf16) (ix2 k j) = w1bArr m c (ix2 k j) := by
  obtain ⟨-, ⟨h0, h1⟩, -⟩ := weightBlock_index t
  unfold iblk
  rw [View.read_apply]
  show V (F := Ideal) m c main_v69 _ = V (F := Ideal) m c main_v69 _
  congr 1
  funext a
  apply Fin.ext
  match a with
  | ⟨0, _⟩ => show win0_4.index t (0 : Fin 2) * 256 + 1 * k.val = k.val; rw [h0]; omega
  | ⟨1, _⟩ => show win0_4.index t (1 : Fin 2) * 256 + 1 * j.val = j.val; rw [h1]; omega

/-- The third row block of the first weight matrix is read whole at every point. -/
theorem w1cBlock_apply (c : Dev nD) (t : Fin cfg0.N) (k j : Fin 256) :
    (iblk (F := Ideal) m c 5 t : Vec Ideal S256x256 .bf16) (ix2 k j) = w1cArr m c (ix2 k j) := by
  obtain ⟨-, -, ⟨h0, h1⟩, -⟩ := weightBlock_index t
  unfold iblk
  rw [View.read_apply]
  show V (F := Ideal) m c main_v71 _ = V (F := Ideal) m c main_v71 _
  congr 1
  funext a
  apply Fin.ext
  match a with
  | ⟨0, _⟩ => show win0_5.index t (0 : Fin 2) * 256 + 1 * k.val = k.val; rw [h0]; omega
  | ⟨1, _⟩ => show win0_5.index t (1 : Fin 2) * 256 + 1 * j.val = j.val; rw [h1]; omega

/-- The second weight matrix is read whole at every point. -/
theorem w2Block_apply (c : Dev nD) (t : Fin cfg0.N) (k j : Fin 256) :
    (iblk (F := Ideal) m c 7 t : Vec Ideal S256x256 .bf16) (ix2 k j) = w2Arr m c (ix2 k j) := by
  obtain ⟨-, -, -, ⟨h0, h1⟩, -⟩ := weightBlock_index t
  unfold iblk
  rw [View.read_apply]
  show V (F := Ideal) m c main_v72 _ = V (F := Ideal) m c main_v72 _
  congr 1
  funext a
  apply Fin.ext
  match a with
  | ⟨0, _⟩ => show win0_7.index t (0 : Fin 2) * 256 + 1 * k.val = k.val; rw [h0]; omega
  | ⟨1, _⟩ => show win0_7.index t (1 : Fin 2) * 256 + 1 * j.val = j.val; rw [h1]; omega

/-- The third weight matrix is read whole at every point. -/
theorem w3Block_apply (c : Dev nD) (t : Fin cfg0.N) (k j : Fin 256) :
    (iblk (F := Ideal) m c 9 t : Vec Ideal S256x256 .bf16) (ix2 k j) = w3Arr m c (ix2 k j) := by
  obtain ⟨-, -, -, -, ⟨h0, h1⟩, -⟩ := weightBlock_index t
  unfold iblk
  rw [View.read_apply]
  show V (F := Ideal) m c main_v73 _ = V (F := Ideal) m c main_v73 _
  congr 1
  funext a
  apply Fin.ext
  match a with
  | ⟨0, _⟩ => show win0_9.index t (0 : Fin 2) * 256 + 1 * k.val = k.val; rw [h0]; omega
  | ⟨1, _⟩ => show win0_9.index t (1 : Fin 2) * 256 + 1 * j.val = j.val; rw [h1]; omega

/-- The fourth weight matrix is read whole at every point. -/
theorem w4Block_apply (c : Dev nD) (t : Fin cfg0.N) (k j : Fin 256) :
    (iblk (F := Ideal) m c 11 t : Vec Ideal S256x256 .bf16) (ix2 k j) = w4Arr m c (ix2 k j) := by
  obtain ⟨-, -, -, -, -, h0, h1⟩ := weightBlock_index t
  unfold iblk
  rw [View.read_apply]
  show V (F := Ideal) m c main_v74 _ = V (F := Ideal) m c main_v74 _
  congr 1
  funext a
  apply Fin.ext
  match a with
  | ⟨0, _⟩ => show win0_11.index t (0 : Fin 2) * 256 + 1 * k.val = k.val; rw [h0]; omega
  | ⟨1, _⟩ => show win0_11.index t (1 : Fin 2) * 256 + 1 * j.val = j.val; rw [h1]; omega

/-- The first bias is read whole at every point. -/
theorem b1Block_apply (c : Dev nD) (t : Fin cfg0.N) (j : Fin 256) :
    (iblk (F := Ideal) m c 6 t : Vec Ideal S256 .f32) (ix1 j) = b1Arr m c (ix1 j) := by
  obtain ⟨h0, -⟩ := biasBlock_index t
  unfold iblk
  rw [View.read_apply]
  show V (F := Ideal) m c main_arg14 _ = V (F := Ideal) m c main_arg14 _
  congr 1
  funext a
  apply Fin.ext
  match a with
  | ⟨0, _⟩ => show win0_6.index t (0 : Fin 1) * 256 + 1 * j.val = j.val; rw [h0]; omega

/-- The second bias is read whole at every point. -/
theorem b2Block_apply (c : Dev nD) (t : Fin cfg0.N) (j : Fin 256) :
    (iblk (F := Ideal) m c 8 t : Vec Ideal S256 .f32) (ix1 j) = b2Arr m c (ix1 j) := by
  obtain ⟨-, h0, -⟩ := biasBlock_index t
  unfold iblk
  rw [View.read_apply]
  show V (F := Ideal) m c main_arg16 _ = V (F := Ideal) m c main_arg16 _
  congr 1
  funext a
  apply Fin.ext
  match a with
  | ⟨0, _⟩ => show win0_8.index t (0 : Fin 1) * 256 + 1 * j.val = j.val; rw [h0]; omega

/-- The third bias is read whole at every point. -/
theorem b3Block_apply (c : Dev nD) (t : Fin cfg0.N) (j : Fin 256) :
    (iblk (F := Ideal) m c 10 t : Vec Ideal S256 .f32) (ix1 j) = b3Arr m c (ix1 j) := by
  obtain ⟨-, -, h0, -⟩ := biasBlock_index t
  unfold iblk
  rw [View.read_apply]
  show V (F := Ideal) m c main_arg18 _ = V (F := Ideal) m c main_arg18 _
  congr 1
  funext a
  apply Fin.ext
  match a with
  | ⟨0, _⟩ => show win0_10.index t (0 : Fin 1) * 256 + 1 * j.val = j.val; rw [h0]; omega

/-- The fourth bias is read whole at every point. -/
theorem b4Block_apply (c : Dev nD) (t : Fin cfg0.N) (j : Fin 256) :
    (iblk (F := Ideal) m c 12 t : Vec Ideal S256 .f32) (ix1 j) = b4Arr m c (ix1 j) := by
  obtain ⟨-, -, -, h0⟩ := biasBlock_index t
  unfold iblk
  rw [View.read_apply]
  show V (F := Ideal) m c main_arg20 _ = V (F := Ideal) m c main_arg20 _
  congr 1
  funext a
  apply Fin.ext
  match a with
  | ⟨0, _⟩ => show win0_12.index t (0 : Fin 1) * 256 + 1 * j.val = j.val; rw [h0]; omega

/-! ## The output array as one function of the region's arrays -/

/-- The edge network on row `e` of the three edge arrays, at column `j`. -/
def netRow (c : Dev nD) (e : Fin 160000) (j : Fin 256) : EReal :=
  rowMlp (fun k j => w1aArr m c (ix2 k j)) (fun k j => w1bArr m c (ix2 k j)) (fun k j => w1cArr m c (ix2 k j))
    (fun j => b1Arr m c (ix1 j)) (fun k j => w2Arr m c (ix2 k j)) (fun j => b2Arr m c (ix1 j))
    (fun k j => w3Arr m c (ix2 k j)) (fun j => b3Arr m c (ix1 j)) (fun k j => w4Arr m c (ix2 k j))
    (fun j => b4Arr m c (ix1 j))
    (fun k => srcArr m c (ix2 e k)) (fun k => dstArr m c (ix2 e k)) (fun k => attrArr m c (ix2 e k)) j

/-- The whole array of edge-network rows. -/
def netArr (c : Dev nD) : S160000x256.Idx → EReal := fun i => netRow m c (i 0) (i 1)

/-- What the body stores at point `t`, row `r` of its block, is the edge network on row `4000 t + r`. -/
theorem stored_apply (c : Dev nD) (t : Fin cfg0.N) (r : Fin 4000) (j : Fin 256) (e : Fin 160000)
    (he : e.val = 4000 * t.val + r.val) :
    k0_pay1 (F := Ideal) (k0_pay2 (F := Ideal) (iblk (F := Ideal) m c 0 t) (iblk (F := Ideal) m c 1 t) (iblk (F := Ideal) m c 2 t)
        (iblk (F := Ideal) m c 3 t) (iblk (F := Ideal) m c 4 t) (iblk (F := Ideal) m c 5 t) (iblk (F := Ideal) m c 6 t)
        (iblk (F := Ideal) m c 7 t) (iblk (F := Ideal) m c 8 t))
      (iblk (F := Ideal) m c 9 t) (iblk (F := Ideal) m c 10 t) (iblk (F := Ideal) m c 11 t) (iblk (F := Ideal) m c 12 t) (ix2 r j)
      = netRow m c e j := by
  refine (EdgeRow.pay_apply (iblk (F := Ideal) m c 0 t) (iblk (F := Ideal) m c 1 t) (iblk (F := Ideal) m c 2 t)
    (iblk (F := Ideal) m c 3 t) (iblk (F := Ideal) m c 4 t) (iblk (F := Ideal) m c 5 t) (iblk (F := Ideal) m c 6 t)
    (iblk (F := Ideal) m c 7 t) (iblk (F := Ideal) m c 8 t) (iblk (F := Ideal) m c 9 t) (iblk (F := Ideal) m c 10 t)
    (iblk (F := Ideal) m c 11 t) (iblk (F := Ideal) m c 12 t) r j).trans ?_
  unfold netRow
  have e0 : (fun k => (iblk (F := Ideal) m c 0 t : Vec Ideal S4000x256 .f32) (ix2 r k)) = fun k => srcArr m c (ix2 e k) :=
    funext fun k => srcBlock_apply m c t r k e he
  have e1 : (fun k => (iblk (F := Ideal) m c 1 t : Vec Ideal S4000x256 .f32) (ix2 r k)) = fun k => dstArr m c (ix2 e k) :=
    funext fun k => dstBlock_apply m c t r k e he
  have e2 : (fun k => (iblk (F := Ideal) m c 2 t : Vec Ideal S4000x256 .f32) (ix2 r k)) = fun k => attrArr m c (ix2 e k) :=
    funext fun k => attrBlock_apply m c t r k e he
  have e3 : (fun k j => (iblk (F := Ideal) m c 3 t : Vec Ideal S256x256 .bf16) (ix2 k j)) = fun k j => w1aArr m c (ix2 k j) :=
    funext fun k => funext fun j => w1aBlock_apply m c t k j
  have e4 : (fun k j => (iblk (F := Ideal) m c 4 t : Vec Ideal S256x256 .bf16) (ix2 k j)) = fun k j => w1bArr m c (ix2 k j) :=
    funext fun k => funext fun j => w1bBlock_apply m c t k j
  have e5 : (fun k j => (iblk (F := Ideal) m c 5 t : Vec Ideal S256x256 .bf16) (ix2 k j)) = fun k j => w1cArr m c (ix2 k j) :=
    funext fun k => funext fun j => w1cBlock_apply m c t k j
  have e6 : (fun j => (iblk (F := Ideal) m c 6 t : Vec Ideal S256 .f32) (ix1 j)) = fun j => b1Arr m c (ix1 j) :=
    funext fun j => b1Block_apply m c t j
  have e7 : (fun k j => (iblk (F := Ideal) m c 7 t : Vec Ideal S256x256 .bf16) (ix2 k j)) = fun k j => w2Arr m c (ix2 k j) :=
    funext fun k => funext fun j => w2Block_apply m c t k j
  have e8 : (fun j => (iblk (F := Ideal) m c 8 t : Vec Ideal S256 .f32) (ix1 j)) = fun j => b2Arr m c (ix1 j) :=
    funext fun j => b2Block_apply m c t j
  have e9 : (fun k j => (iblk (F := Ideal) m c 9 t : Vec Ideal S256x256 .bf16) (ix2 k j)) = fun k j => w3Arr m c (ix2 k j) :=
    funext fun k => funext fun j => w3Block_apply m c t k j
  have e10 : (fun j => (iblk (F := Ideal) m c 10 t : Vec Ideal S256 .f32) (ix1 j)) = fun j => b3Arr m c (ix1 j) :=
    funext fun j => b3Block_apply m c t j
  have e11 : (fun k j => (iblk (F := Ideal) m c 11 t : Vec Ideal S256x256 .bf16) (ix2 k j)) = fun k j => w4Arr m c (ix2 k j) :=
    funext fun k => funext fun j => w4Block_apply m c t k j
  have e12 : (fun j => (iblk (F := Ideal) m c 12 t : Vec Ideal S256 .f32) (ix1 j)) = fun j => b4Arr m c (ix1 j) :=
    funext fun j => b4Block_apply m c t j
  rw [e0, e1, e2, e3, e4, e5, e6, e7, e8, e9, e10, e11, e12]

/-! ## What a point writes back, the cover, and the array after the region -/

/-- What point `t` writes back is block `t` of the array of edge-network rows. -/
theorem flushed_eq (c : Dev nD) (t : Fin cfg0.N) :
    (dats (F := Ideal) m 0 c).flushed 13 t = ((cfg0.win 13).blk t).view.read (Elt Ideal) (netArr m c) := by
  show (cfg0.win 13).cut (grid0.coords t) ((dats (F := Ideal) m 0 c).after 13 t) = _
  rw [after0_13]
  unfold out0_13
  rw [View.canon_unit_zero zero2]
  simp only [View.ld_unit_zero (S := S4000x256) zero2, View.ld_unit_zero (S := S256x256) zero2, View.ld_unit_zero (S := S256) zero1]
  obtain ⟨-, -, -, h0, h1⟩ := rowBlock_index t
  have ht := points_lt t
  funext y
  have hy0 : (y 0).val < 4000 := (y 0).isLt
  have hy1 : (y 1).val < 256 := (y 1).isLt
  have hcut : (cfg0.win 13).xinj (grid0.coords t) y = ix2 (⟨(y 0).val, hy0⟩ : Fin 4000) (⟨(y 1).val, hy1⟩ : Fin 256) :=
    funext fun a => match a with | ⟨0, _⟩ => rfl | ⟨1, _⟩ => rfl
  have hemb : (((cfg0.win 13).blk t).view.emb y : S160000x256.Idx)
      = ix2 (⟨4000 * t.val + (y 0).val, by omega⟩ : Fin 160000) (⟨(y 1).val, hy1⟩ : Fin 256) := by
    funext a
    apply Fin.ext
    match a with
    | ⟨0, _⟩ => show win0_13.index t (0 : Fin 2) * 4000 + 1 * (y 0).val = 4000 * t.val + (y 0).val; rw [h0]; omega
    | ⟨1, _⟩ => show win0_13.index t (1 : Fin 2) * 256 + 1 * (y 1).val = (y 1).val; rw [h1]; omega
  rw [View.read_apply]
  refine Eq.trans ?_ (congrArg (netArr m c) hemb).symm
  show k0_pay1 (F := Ideal) (k0_pay2 (F := Ideal) (iblk (F := Ideal) m c 0 t) (iblk (F := Ideal) m c 1 t) (iblk (F := Ideal) m c 2 t)
        (iblk (F := Ideal) m c 3 t) (iblk (F := Ideal) m c 4 t) (iblk (F := Ideal) m c 5 t) (iblk (F := Ideal) m c 6 t)
        (iblk (F := Ideal) m c 7 t) (iblk (F := Ideal) m c 8 t))
      (iblk (F := Ideal) m c 9 t) (iblk (F := Ideal) m c 10 t) (iblk (F := Ideal) m c 11 t) (iblk (F := Ideal) m c 12 t)
      ((cfg0.win 13).xinj (grid0.coords t) y) = _
  rw [hcut]
  exact stored_apply m c t ⟨(y 0).val, hy0⟩ ⟨(y 1).val, hy1⟩ ⟨4000 * t.val + (y 0).val, by omega⟩ rfl

/-- An index of the output array is in point `t`'s block iff each coordinate is in the block's range on its axis. -/
theorem mem_outBlock (t : Fin cfg0.N) (i : S160000x256.Idx) :
    i ∈ ((cfg0.win 13).blk t).view.set
      ↔ ∀ a : Fin 2, win0_13.index t a * S4000x256.size a ≤ (i a).val
          ∧ (i a).val < win0_13.index t a * S4000x256.size a + S4000x256.size a := by
  show i ∈ ((View.whole main_v75).slice (win0_13.rect t)).set ↔ _
  rw [View.set_slice_whole, Rect.mem_set_unit]
  exact Iff.rfl

/-- The 40 blocks of 4000 rows cover the 160000 rows: row `e` is in the block of point `e / 4000`. -/
theorem covered (i : S160000x256.Idx) :
    ∃ t : Fin cfg0.N, (cfg0.win 13).flush t = true ∧ i ∈ ((cfg0.win 13).blk t).view.set := by
  have hi0 : (i 0).val < 160000 := idx2_lt0 i
  have hi1 : (i 1).val < 256 := idx2_lt1 i
  have hN : cfg0.N = 40 := N_0
  have hq : (i 0).val / 4000 < cfg0.N := by rw [hN]; omega
  obtain ⟨-, -, -, h0, h1⟩ := rowBlock_index ⟨(i 0).val / 4000, hq⟩
  refine ⟨⟨(i 0).val / 4000, hq⟩, flush0_13 _, ?_⟩
  rw [mem_outBlock]
  intro a
  match a with
  | ⟨0, _⟩ =>
    show win0_13.index ⟨(i 0).val / 4000, hq⟩ (0 : Fin 2) * 4000 ≤ (i 0).val
      ∧ (i 0).val < win0_13.index ⟨(i 0).val / 4000, hq⟩ (0 : Fin 2) * 4000 + 4000
    rw [h0]
    show (i 0).val / 4000 * 4000 ≤ (i 0).val ∧ (i 0).val < (i 0).val / 4000 * 4000 + 4000
    omega
  | ⟨1, _⟩ =>
    show win0_13.index ⟨(i 0).val / 4000, hq⟩ (1 : Fin 2) * 256 ≤ (i 1).val
      ∧ (i 1).val < win0_13.index ⟨(i 0).val / 4000, hq⟩ (1 : Fin 2) * 256 + 256
    rw [h1]
    omega

/-- After the region the output array is the array of edge-network rows. -/
theorem outArr_eq (c : Dev nD) : outArr m c = netArr m c :=
  (dats (F := Ideal) m 0 c).arrAt_eq_of_cover 13 (netArr m c) (fun t _ => flushed_eq m c t) covered

/-- After the region, row `e`, column `j` of the output array is the edge network on row `e` of the edge arrays. -/
theorem outArr_apply (c : Dev nD) (e : Fin 160000) (j : Fin 256) :
    outArr m c (ix2 e j)
      = rowMlp (fun k j => w1aArr m c (ix2 k j)) (fun k j => w1bArr m c (ix2 k j)) (fun k j => w1cArr m c (ix2 k j))
          (fun j => b1Arr m c (ix1 j)) (fun k j => w2Arr m c (ix2 k j)) (fun j => b2Arr m c (ix1 j))
          (fun k j => w3Arr m c (ix2 k j)) (fun j => b3Arr m c (ix1 j)) (fun k j => w4Arr m c (ix2 k j))
          (fun j => b4Arr m c (ix1 j))
          (fun k => srcArr m c (ix2 e k)) (fun k => dstArr m c (ix2 e k)) (fun k => attrArr m c (ix2 e k)) j :=
  congrFun (outArr_eq m c) (ix2 e j)

end Cert.KernelIdeal.EdgeArr

end
-- ==== Proof.KernelWeights.lean ====
/-
  The weights the kernel region reads are the arguments themselves: the first weight matrix's three blocks of 256 rows
  and the other three weight matrices, each truncated to bf16 on the host, and at the extended reals a truncation is
  the identity. So row `k`, column `j` of block `n` is row `256 n + k`, column `j` of the first weight matrix, and the
  other matrices are read as they were passed.
-/
import proofs.«415619_j30408368456386_1_alg».proof.Proof.Gen.KernelIdeal.Frame
import Idealize.ShloMosaic.PureOps.Ideal
import Idealize.ShloMosaic.Lib.ValueIdx
import Idealize.ShloMosaic.Lib.Pipeline.Value
import Idealize.ShloMosaic.Lib.StableHlo.Run

noncomputable section

namespace Cert.KernelIdeal.Weights

open Cert.KernelIdeal Cert.KernelIdeal.Gen Idealize.ShloMosaic Idealize.ShloMosaic.TcCoe Idealize.ShloMosaic.ValueIdx
open Idealize.SL.Sem Idealize.ShloMosaic.StableHlo

local notation "𝓚" b => Proc.devRef (τ := τ) (sig := sig) Proc.tc b

/-- The contents the region finds are the four host stretches run one after the other. -/
theorem V0_eq (m : (ℓ : Loc nD τ sig) → Buf (Elt Ideal) ℓ) (c : Dev nD) :
    V0 (F := Ideal) m c
      = after hostOps0_3 (after hostOps0_2 (after hostOps0_1 (after hostOps0 (fun b => m (c, b))))) := by
  simp only [V0, List.flatten_cons, List.flatten_nil, List.append_nil, StableHlo.after_append]

set_option maxRecDepth 8192 in
set_option maxHeartbeats 2000000 in
/-- The last host stretch before the region, from any contents: the six weight buffers as slices of the arguments. -/
theorem weights_read (W : Valuation τ sig (Elt Ideal)) :
    (after (hostOps0_3 (F := Ideal)) W (𝓚 main_v67) : S256x256.Idx → EReal)
        = (truncf .bf16 (extractStridedSlice S256x256 ![0, 0] (W (𝓚 main_arg13) : FVec Ideal S768x256 .f32) slices_S768x256_S256x256_0_0 : FVec Ideal S256x256 .f32) bitsLt_bf16_f32 : FVec Ideal S256x256 .bf16)
    ∧ (after (hostOps0_3 (F := Ideal)) W (𝓚 main_v69) : S256x256.Idx → EReal)
        = (truncf .bf16 (extractStridedSlice S256x256 ![256, 0] (W (𝓚 main_arg13) : FVec Ideal S768x256 .f32) slices_S768x256_S256x256_256_0 : FVec Ideal S256x256 .f32) bitsLt_bf16_f32 : FVec Ideal S256x256 .bf16)
    ∧ (after (hostOps0_3 (F := Ideal)) W (𝓚 main_v71) : S256x256.Idx → EReal)
        = (truncf .bf16 (extractStridedSlice S256x256 ![512, 0] (W (𝓚 main_arg13) : FVec Ideal S768x256 .f32) slices_S768x256_S256x256_512_0 : FVec Ideal S256x256 .f32) bitsLt_bf16_f32 : FVec Ideal S256x256 .bf16)
    ∧ (after (hostOps0_3 (F := Ideal)) W (𝓚 main_v72) : S256x256.Idx → EReal) = (truncf .bf16 (W (𝓚 main_arg15) : FVec Ideal S256x256 .f32) bitsLt_bf16_f32 : FVec Ideal S256x256 .bf16)
    ∧ (after (hostOps0_3 (F := Ideal)) W (𝓚 main_v73) : S256x256.Idx → EReal) = (truncf .bf16 (W (𝓚 main_arg17) : FVec Ideal S256x256 .f32) bitsLt_bf16_f32 : FVec Ideal S256x256 .bf16)
    ∧ (after (hostOps0_3 (F := Ideal)) W (𝓚 main_v74) : S256x256.Idx → EReal) = (truncf .bf16 (W (𝓚 main_arg19) : FVec Ideal S256x256 .f32) bitsLt_bf16_f32 : FVec Ideal S256x256 .bf16) := by
  simp only [hostOps0_3]
  after_results_simp
  repeat' apply And.intro
  all_goals first | rfl | trivial

set_option maxRecDepth 8192 in
set_option maxHeartbeats 2000000 in
/-- That stretch writes none of the weight arguments. -/
theorem weights_pass (W : Valuation τ sig (Elt Ideal)) :
    after (hostOps0_3 (F := Ideal)) W (𝓚 main_arg13) = W (𝓚 main_arg13)
    ∧ after (hostOps0_3 (F := Ideal)) W (𝓚 main_arg15) = W (𝓚 main_arg15)
    ∧ after (hostOps0_3 (F := Ideal)) W (𝓚 main_arg17) = W (𝓚 main_arg17)
    ∧ after (hostOps0_3 (F := Ideal)) W (𝓚 main_arg19) = W (𝓚 main_arg19) := by
  simp only [hostOps0_3]
  after_results_simp
  repeat' apply And.intro
  all_goals trivial

/-- A truncated block of 256 rows of a 768-row matrix, starting at row `r₀`, read at row `k`, column `j`: the matrix
    at row `r₀ + k`, column `j` (the truncation is the identity at the extended reals). -/
theorem block0_apply (X : FVec Ideal S768x256 .f32) (k j : Fin 256) :
    (truncf .bf16 (extractStridedSlice S256x256 ![0, 0] X slices_S768x256_S256x256_0_0 : FVec Ideal S256x256 .f32)
        bitsLt_bf16_f32 : FVec Ideal S256x256 .bf16) (ix2 k j) = X (ix2 ⟨k.val, by omega⟩ j) := by
  rw [truncf_apply]
  exact extractStridedSlice_apply _ _ _ _ _ fun a => by
    match a with
    | ⟨0, _⟩ => show k.val = 0 + k.val; omega
    | ⟨1, _⟩ => show j.val = 0 + j.val; omega
theorem block1_apply (X : FVec Ideal S768x256 .f32) (k j : Fin 256) :
    (truncf .bf16 (extractStridedSlice S256x256 ![256, 0] X slices_S768x256_S256x256_256_0 : FVec Ideal S256x256 .f32)
        bitsLt_bf16_f32 : FVec Ideal S256x256 .bf16) (ix2 k j) = X (ix2 ⟨256 + k.val, by omega⟩ j) := by
  rw [truncf_apply]
  exact extractStridedSlice_apply _ _ _ _ _ fun a => by
    match a with
    | ⟨0, _⟩ => show 256 + k.val = 256 + k.val; rfl
    | ⟨1, _⟩ => show j.val = 0 + j.val; omega
theorem block2_apply (X : FVec Ideal S768x256 .f32) (k j : Fin 256) :
    (truncf .bf16 (extractStridedSlice S256x256 ![512, 0] X slices_S768x256_S256x256_512_0 : FVec Ideal S256x256 .f32)
        bitsLt_bf16_f32 : FVec Ideal S256x256 .bf16) (ix2 k j) = X (ix2 ⟨512 + k.val, by omega⟩ j) := by
  rw [truncf_apply]
  exact extractStridedSlice_apply _ _ _ _ _ fun a => by
    match a with
    | ⟨0, _⟩ => show 512 + k.val = 512 + k.val; rfl
    | ⟨1, _⟩ => show j.val = 0 + j.val; omega

variable (m : (ℓ : Loc nD τ sig) → Buf (Elt Ideal) ℓ)

/-- The contents the weight stretch starts from. -/
abbrev beforeWeights (c : Dev nD) : Valuation τ sig (Elt Ideal) :=
  after hostOps0_2 (after hostOps0_1 (after hostOps0 (fun b => m (c, b))))

/-- They hold the weight arguments as launched: nothing before the region writes an argument. -/
theorem beforeWeights_args (c : Dev nD) :
    beforeWeights m c (𝓚 main_arg13) = m ((c : Thread nD τ).loc main_arg13)
    ∧ beforeWeights m c (𝓚 main_arg15) = m ((c : Thread nD τ).loc main_arg15)
    ∧ beforeWeights m c (𝓚 main_arg17) = m ((c : Thread nD τ).loc main_arg17)
    ∧ beforeWeights m c (𝓚 main_arg19) = m ((c : Thread nD τ).loc main_arg19) := by
  obtain ⟨p13, p15, p17, p19⟩ := weights_pass (beforeWeights m c)
  have e : ∀ b : Ref sig .tc, V (F := Ideal) m c b = after hostOps0_3 (beforeWeights m c) (𝓚 b) := fun b => by
    show V0 (F := Ideal) m c (𝓚 b) = _
    rw [V0_eq]
  exact ⟨p13.symm.trans ((e main_arg13).symm.trans (V_main_arg13 m c)),
    p15.symm.trans ((e main_arg15).symm.trans (V_main_arg15 m c)),
    p17.symm.trans ((e main_arg17).symm.trans (V_main_arg17 m c)),
    p19.symm.trans ((e main_arg19).symm.trans (V_main_arg19 m c))⟩

/-- The region's six weight buffers, read at an index, are the weight arguments read at an index. -/
theorem weights_apply (c : Dev nD) (k j : Fin 256) :
    (V (F := Ideal) m c main_v67 : S256x256.Idx → EReal) (ix2 k j)
        = (m ((c : Thread nD τ).loc main_arg13) : S768x256.Idx → EReal) (ix2 ⟨k.val, by omega⟩ j)
    ∧ (V (F := Ideal) m c main_v69 : S256x256.Idx → EReal) (ix2 k j)
        = (m ((c : Thread nD τ).loc main_arg13) : S768x256.Idx → EReal) (ix2 ⟨256 + k.val, by omega⟩ j)
    ∧ (V (F := Ideal) m c main_v71 : S256x256.Idx → EReal) (ix2 k j)
        = (m ((c : Thread nD τ).loc main_arg13) : S768x256.Idx → EReal) (ix2 ⟨512 + k.val, by omega⟩ j)
    ∧ (V (F := Ideal) m c main_v72 : S256x256.Idx → EReal) (ix2 k j)
        = (m ((c : Thread nD τ).loc main_arg15) : S256x256.Idx → EReal) (ix2 k j)
    ∧ (V (F := Ideal) m c main_v73 : S256x256.Idx → EReal) (ix2 k j)
        = (m ((c : Thread nD τ).loc main_arg17) : S256x256.Idx → EReal) (ix2 k j)
    ∧ (V (F := Ideal) m c main_v74 : S256x256.Idx → EReal) (ix2 k j)
        = (m ((c : Thread nD τ).loc main_arg19) : S256x256.Idx → EReal) (ix2 k j) := by
  obtain ⟨r67, r69, r71, r72, r73, r74⟩ := weights_read (beforeWeights m c)
  obtain ⟨a13, a15, a17, a19⟩ := beforeWeights_args m c
  have e : ∀ b : Ref sig .tc, V (F := Ideal) m c b = after hostOps0_3 (beforeWeights m c) (𝓚 b) := fun b => by
    show V0 (F := Ideal) m c (𝓚 b) = _
    rw [V0_eq]
  refine ⟨?_, ?_, ?_, ?_, ?_, ?_⟩
  · rw [e main_v67, r67, block0_apply, a13]
  · rw [e main_v69, r69, block1_apply, a13]
  · rw [e main_v71, r71, block2_apply, a13]
  · rw [e main_v72, r72, truncf_apply, a15]
  · rw [e main_v73, r73, truncf_apply, a17]
  · rw [e main_v74, r74, truncf_apply, a19]

end Cert.KernelIdeal.Weights

end
-- ==== Proof.TakeDecode.lean ====
/-
  The kernel's program gathers rows of the [10000 × 256] table by an index vector of 160000 entries twice, each time as a
  take: negative indices are wrapped (10000 added), the wrapped column is tested for 0 ≤ i ≤ 9999, the test is and-reduced
  over the column's one-element axis and laid along the rows, and the mask selects between the gathered row and a filler
  word. The two index vectors are rows 0 and 1 of the edge index, and the precondition says every entry of the edge index
  lies in [-10000, 10000). So every wrapped index lies in [0, 9999], the mask is all ones, and each take is the bare gather
  at the wrapped index column.
-/
import proofs.«415619_j30408368456386_1_alg».proof.Defs
import proofs.«415619_j30408368456386_1_alg».proof.Proof.Gen.KernelIdeal.Frame
import proofs.«415619_j30408368456386_1_alg».proof.Proof.Gen.Pre_finite_inputs
import Idealize.ShloMosaic.PureOps.Ideal
import Idealize.ShloMosaic.Lib.StableHlo.Run
import Idealize.ShloMosaic.Lib.StableHlo.Predicate
import Idealize.ShloMosaic.Lib.ReduceAll
import Idealize.ShloMosaic.Lib.ValueIdx
import Idealize.ShloMosaic.PureOps.Reduce
import Idealize.ShloMosaic.Lib.Pipeline.Frame
import Mathlib.Data.Finset.Insert

noncomputable section

namespace Cert.KernelIdeal.Take

open Cert.KernelIdeal Cert.KernelIdeal.Gen Idealize.ShloMosaic Idealize.ShloMosaic.TcCoe Idealize.SL.Sem Idealize.ShloMosaic.StableHlo Idealize.ShloMosaic.ValueIdx

/-- the wrapped index column: negatives count from the end -/
def wrapIdx (idx : IVec S160000 32) : IVec S160000x1 32 :=
  broadcastInDim S160000x1 ![0] bcast_S160000_S160000x1_0
    (select (cmpi .slt idx (broadcastInDim S160000 ![] bcast_S_S160000 (constantI S_ 32 0#32)))
      (addi idx (broadcastInDim S160000 ![] bcast_S_S160000 (constantI S_ 32 10000#32))) idx)

/-- The take as the program writes it: the in-bounds mask of the wrapped index column (0 ≤ i and i ≤ 9999, and-reduced over the
    column's one-element axis, laid along the rows) selects between the gathered rows and the filler word. -/
def maskedTake (M : S10000x256.Idx → EReal) (idx : IVec S160000 32) : S160000x256.Idx → EReal :=
  select
    (broadcastInDim S160000x256 ![0] bcast_S160000_S160000x256_0
      (Host.reduce IntOp.andi
        (andi (cmpi .sge (wrapIdx idx) (broadcastInDim S160000x1 ![] bcast_S_S160000x1 (constantI S_ 32 0#32)))
          (cmpi .sle (wrapIdx idx)
            (broadcastInDim S160000x1 ![0, 1] bcast_S1x1_S160000x1_0_1
              (broadcastInDim S1x1 ![1] bcast_S1_S1x1_1 (constantI S1 32 9999#32)))))
        (constantI S_ 1 1#1) reducesTo_S160000x1_S160000_d1 h_S_))
    (Host.gather gather_S10000x256_S160000x1_S160000x256_1_0_n_n_0_1_1256 M (wrapIdx idx))
    (broadcastInDim S160000x256 ![] bcast_S_S160000x256 (constant (F := Ideal) S_ .f32 2143289344#32))

/-! ## One word -/

/-- An index word in [-10000, 10000), wrapped (10000 added when it is negative), lies in [0, 9999]: both of the mask's
    signed comparisons hold of it. -/
theorem wrap_word (x : BitVec 32) (h1 : -10000 ≤ x.toInt) (h2 : x.toInt < 10000) :
    IntOp.cmpi .sge (Scalar.select (IntOp.cmpi .slt x 0#32) (IntOp.addi x 10000#32) x) 0#32 = 1#1
      ∧ IntOp.cmpi .sle (Scalar.select (IntOp.cmpi .slt x 0#32) (IntOp.addi x 10000#32) x) 9999#32 = 1#1 := by
  have h0 : (0#32 : BitVec 32).toInt = 0 := by decide
  have h9 : (9999#32 : BitVec 32).toInt = 9999 := by decide
  have h10 : (10000#32 : BitVec 32).toInt = 10000 := by decide
  by_cases hneg : x.toInt < 0
  · have hc : IntOp.cmpi .slt x 0#32 = 1#1 := by
      simp only [IntOp.cmpi, BitVec.slt, h0, hneg, decide_true, BitVec.ofBool_true]; rfl
    have hw : (IntOp.addi x 10000#32).toInt = x.toInt + 10000 := by
      show (x + 10000#32).toInt = _
      rw [BitVec.toInt_add, h10, Int.bmod_def]
      split <;> omega
    rw [hc, select_one]
    constructor
    · simp only [IntOp.cmpi, BitVec.sle, h0, hw, Predicate.ofBool_eq_one_iff, decide_eq_true_eq]; omega
    · simp only [IntOp.cmpi, BitVec.sle, h9, hw, Predicate.ofBool_eq_one_iff, decide_eq_true_eq]; omega
  · have hc : IntOp.cmpi .slt x 0#32 = 0#1 := by
      simp only [IntOp.cmpi, BitVec.slt, h0, hneg, decide_false, BitVec.ofBool_false]; rfl
    rw [hc, select_zero]
    constructor
    · simp only [IntOp.cmpi, BitVec.sle, h0, Predicate.ofBool_eq_one_iff, decide_eq_true_eq]; omega
    · simp only [IntOp.cmpi, BitVec.sle, h9, Predicate.ofBool_eq_one_iff, decide_eq_true_eq]; omega

/-! ## The layout operations read at an index -/

/-- A vector as a [160000 × 1] column reads, at an index, the vector at the index's row. -/
theorem col_apply {α : Type} (v : S160000.Idx → α) (j : S160000x1.Idx) :
    broadcastInDim S160000x1 ![0] bcast_S160000_S160000x1_0 v j = v (ix1 (j 0)) := by
  simp only [broadcastInDim]
  congr 1
  funext a
  have ha : a = 0 := Subsingleton.elim _ _
  subst ha
  apply Fin.ext
  split
  · next h1 => exact absurd h1 (by decide)
  · rfl

/-- A vector laid along the rows of the [160000 × 256] rectangle reads, at an index, the vector at the index's row. -/
theorem rows_apply {α : Type} (v : S160000.Idx → α) (j : S160000x256.Idx) :
    broadcastInDim S160000x256 ![0] bcast_S160000_S160000x256_0 v j = v (ix1 (j 0)) := by
  simp only [broadcastInDim]
  congr 1
  funext a
  have ha : a = 0 := Subsingleton.elim _ _
  subst ha
  apply Fin.ext
  split
  · next h1 => exact absurd h1 (by decide)
  · rfl

/-- The wrapped column at an index is the wrapped word of the index vector at that row. -/
theorem wrapIdx_apply (idx : IVec S160000 32) (j : S160000x1.Idx) :
    wrapIdx idx j = Scalar.select (IntOp.cmpi .slt (idx (ix1 (j 0))) 0#32) (IntOp.addi (idx (ix1 (j 0))) 10000#32) (idx (ix1 (j 0))) := by
  unfold wrapIdx
  rw [col_apply]
  rfl

/-- A reduction by `and` from 1 over a mask that is 1 everywhere is 1 everywhere. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  generalize (((List.finRange s.numel).map s.rowMajor.symm).filter fun i => h.drop i = j) = l
  induction l with
  | nil => rfl
  | cons a l ih =>
    rw [List.foldl_cons, hx a]
    exact ih

/-! ## The take under the range -/

/-- When every index lies in [-10000, 10000), every wrapped index lies in [0, 9999], the in-bounds mask is all ones and
    the masked take is the bare gather at the wrapped indices. -/
theorem take_eq_gather (M : S10000x256.Idx → EReal) (idx : IVec S160000 32)
    (hidx : ∀ e : Fin 160000, -10000 ≤ (idx (ix1 e)).toInt ∧ (idx (ix1 e)).toInt < 10000) :
    maskedTake M idx = Host.gather gather_S10000x256_S160000x1_S160000x256_1_0_n_n_0_1_1256 M (wrapIdx idx) := by
  unfold maskedTake
  funext j
  rw [select_apply, rows_apply, reduce_andi_ones _ _ _ _ rfl, select_one]
  intro i
  obtain ⟨hge, hle⟩ := wrap_word (idx (ix1 (i 0))) (hidx (i 0)).1 (hidx (i 0)).2
  show IntOp.andi (IntOp.cmpi .sge (wrapIdx idx i) 0#32) (IntOp.cmpi .sle (wrapIdx idx i) 9999#32) = 1#1
  rw [wrapIdx_apply, hge, hle]
  rfl

/-! ## The precondition read back -/

set_option maxHeartbeats 2000000 in
/-- The precondition's last conjunct: every entry of the edge index lies in [-10000, 10000). -/
theorem arg2_range (m : (ℓ : Loc nD τ sig) → Buf (Elt Ideal) ℓ) (hpre : Cert.Pre_KernelIdeal m) (c : Dev nD) (i : S2x160000.Idx) :
    -10000 ≤ ((m ((c.tc : Thread nD τ).loc main_arg2) : S2x160000.Idx → BitVec 32) i).toInt
      ∧ ((m ((c.tc : Thread nD τ).loc main_arg2) : S2x160000.Idx → BitVec 32) i).toInt < 10000 := by
  haveI : Subsingleton Cert.Pre_finite_inputs.S_.Idx := ⟨fun a b => funext fun d => d.elim0⟩
  have h := congrFun (hpre c) ix0
  dsimp only [Cert.Pre_finite_inputs.fn, Cert.Pre_finite_inputs.fn_part1, Cert.Pre_finite_inputs.fn_part2, Cert.Pre_finite_inputs.fn_part3,
    Cert.Pre_finite_inputs.fn_part4, Cert.Pre_finite_inputs.fn_part5, Cert.Pre_finite_inputs.fn_part6, Cert.Pre_finite_inputs.fn_part7] at h
  have h' := (IntOp.andi_eq_one.1 h).2
  have hi := Host.reduce_andi_all _ _ _ _ _ h' i
  obtain ⟨hge, hlt⟩ := IntOp.andi_eq_one.1 hi
  have hm : (4294957296#32 : BitVec 32).toInt = -10000 := by decide
  have h10 : (10000#32 : BitVec 32).toInt = 10000 := by decide
  change IntOp.cmpi .sge _ 4294957296#32 = 1#1 at hge
  change IntOp.cmpi .slt _ 10000#32 = 1#1 at hlt
  simp only [IntOp.cmpi, BitVec.sle, hm, Predicate.ofBool_eq_one_iff, decide_eq_true_eq] at hge
  simp only [IntOp.cmpi, BitVec.slt, h10, Predicate.ofBool_eq_one_iff, decide_eq_true_eq] at hlt
  exact ⟨hge, hlt⟩

/-! ## The host operations before the region -/

local notation "𝓚" b => Proc.devRef (τ := τ) (sig := sig) Proc.tc b

set_option maxRecDepth 8192 in
set_option maxHeartbeats 4000000 in
/-- The first take, from any contents: its result is the masked take of the table and of the first index vector as found. -/
theorem after_take0 (W0 : Valuation τ sig (Elt Ideal)) :
    (after (hostOps0_1 (F := Ideal)) W0 (𝓚 main_v64) : S160000x256.Idx → EReal)
      = maskedTake (W0 (𝓚 main_v59) : S10000x256.Idx → EReal) (W0 (𝓚 main_v61) : S160000.Idx → BitVec 32) := by
  simp only [hostOps0_1]
  after_results
  simp only [TRef.ofBuf, TRef.toBuf, cast_eq]
  rfl

set_option maxRecDepth 8192 in
set_option maxHeartbeats 4000000 in
/-- The second take, from any contents: its result is the masked take of the table and of the second index vector as found. -/
theorem after_take1 (W0 : Valuation τ sig (Elt Ideal)) :
    (after (hostOps0_2 (F := Ideal)) W0 (𝓚 main_v65) : S160000x256.Idx → EReal)
      = maskedTake (W0 (𝓚 main_v59) : S10000x256.Idx → EReal) (W0 (𝓚 main_v63) : S160000.Idx → BitVec 32) := by
  simp only [hostOps0_2]
  after_results
  simp only [TRef.ofBuf, TRef.toBuf, cast_eq]
  rfl

set_option maxRecDepth 16384 in
set_option maxHeartbeats 4000000 in
/-- The last four operations of the shared prefix, from any contents: the two index vectors are rows 0 and 1 of the edge
    index, each sliced out and flattened. -/
theorem rows_read (W : Valuation τ sig (Elt Ideal)) :
    (after (List.drop 71 (hostOps0 (F := Ideal))) W (𝓚 main_v61) : S160000.Idx → BitVec 32)
        = shapeCast S160000 (extractStridedSlice S1x160000 ![0, 0] (W (𝓚 main_arg2)) slices_S2x160000_S1x160000_0_0) shapeCasts_S1x160000_S160000
    ∧ (after (List.drop 71 (hostOps0 (F := Ideal))) W (𝓚 main_v63) : S160000.Idx → BitVec 32)
        = shapeCast S160000 (extractStridedSlice S1x160000 ![1, 0] (W (𝓚 main_arg2)) slices_S2x160000_S1x160000_1_0) shapeCasts_S1x160000_S160000 := by
  simp only [hostOps0, List.drop_succ_cons, List.drop_zero]
  after_results
  exact ⟨rfl, rfl⟩

/-- No operation of the list writes the buffer: each operation writes one buffer, and it is another one. -/
local macro "keeps" : tactic =>
  `(tactic| (refine List.forall_iff_forall_mem.mp ?_
             simp only [hostOps0, hostOps0_1, hostOps0_2, hostOps0_3, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

set_option maxHeartbeats 2000000 in
theorem keep0_arg2 : ∀ op ∈ (hostOps0 (F := Ideal)), (𝓚 main_arg2) ∉ op.writes := by keeps
theorem keep1_v59 : ∀ op ∈ (hostOps0_1 (F := Ideal)), (𝓚 main_v59) ∉ op.writes := by keeps
theorem keep1_v61 : ∀ op ∈ (hostOps0_1 (F := Ideal)), (𝓚 main_v61) ∉ op.writes := by keeps
theorem keep1_v63 : ∀ op ∈ (hostOps0_1 (F := Ideal)), (𝓚 main_v63) ∉ op.writes := by keeps
theorem keep2_v59 : ∀ op ∈ (hostOps0_2 (F := Ideal)), (𝓚 main_v59) ∉ op.writes := by keeps
theorem keep2_v61 : ∀ op ∈ (hostOps0_2 (F := Ideal)), (𝓚 main_v61) ∉ op.writes := by keeps
theorem keep2_v63 : ∀ op ∈ (hostOps0_2 (F := Ideal)), (𝓚 main_v63) ∉ op.writes := by keeps
theorem keep2_v64 : ∀ op ∈ (hostOps0_2 (F := Ideal)), (𝓚 main_v64) ∉ op.writes := by keeps
theorem keep3_v59 : ∀ op ∈ (hostOps0_3 (F := Ideal)), (𝓚 main_v59) ∉ op.writes := by keeps
theorem keep3_v61 : ∀ op ∈ (hostOps0_3 (F := Ideal)), (𝓚 main_v61) ∉ op.writes := by keeps
theorem keep3_v63 : ∀ op ∈ (hostOps0_3 (F := Ideal)), (𝓚 main_v63) ∉ op.writes := by keeps
theorem keep3_v64 : ∀ op ∈ (hostOps0_3 (F := Ideal)), (𝓚 main_v64) ∉ op.writes := by keeps
theorem keep3_v65 : ∀ op ∈ (hostOps0_3 (F := Ideal)), (𝓚 main_v65) ∉ op.writes := by keeps

/-- The contents after the shared prefix, from the launch contents of core `c`. -/
def pre (m : (ℓ : Loc nD τ sig) → Buf (Elt Ideal) ℓ) (c : Dev nD) : Valuation τ sig (Elt Ideal) :=
  after (hostOps0 (F := Ideal)) (fun b => m (c, b))

/-- What the region finds is the prefix, the two takes and the weight slices run one after the other. -/
theorem V_eq (m : (ℓ : Loc nD τ sig) → Buf (Elt Ideal) ℓ) (c : Dev nD) (r : Ref sig .tc) :
    V (F := Ideal) m c r = after hostOps0_3 (after hostOps0_2 (after hostOps0_1 (pre m c))) (𝓚 r) := by
  simp only [V, V0, pre, List.flatten_cons, List.flatten_nil, List.append_nil, StableHlo.after_append]

section Found

variable (m : (ℓ : Loc nD τ sig) → Buf (Elt Ideal) ℓ) (c : Dev nD)

/-- The table, and the two index vectors, are what the prefix left: neither take nor the weight slices write them. -/
theorem V_v59 : (V (F := Ideal) m c main_v59 : S10000x256.Idx → EReal) = pre m c (𝓚 main_v59) := by
  rw [V_eq, after_of_forall_not_mem _ _ keep3_v59, after_of_forall_not_mem _ _ keep2_v59, after_of_forall_not_mem _ _ keep1_v59]
theorem V_v61 : (V (F := Ideal) m c main_v61 : S160000.Idx → BitVec 32) = pre m c (𝓚 main_v61) := by
  rw [V_eq, after_of_forall_not_mem _ _ keep3_v61, after_of_forall_not_mem _ _ keep2_v61, after_of_forall_not_mem _ _ keep1_v61]
theorem V_v63 : (V (F := Ideal) m c main_v63 : S160000.Idx → BitVec 32) = pre m c (𝓚 main_v63) := by
  rw [V_eq, after_of_forall_not_mem _ _ keep3_v63, after_of_forall_not_mem _ _ keep2_v63, after_of_forall_not_mem _ _ keep1_v63]

/-- The first take's result, as the region finds it. -/
theorem V_v64 : (V (F := Ideal) m c main_v64 : S160000x256.Idx → EReal)
    = maskedTake (pre m c (𝓚 main_v59) : S10000x256.Idx → EReal) (pre m c (𝓚 main_v61) : S160000.Idx → BitVec 32) := by
  rw [V_eq, after_of_forall_not_mem _ _ keep3_v64, after_of_forall_not_mem _ _ keep2_v64, after_take0]

/-- The second take's result, as the region finds it. -/
theorem V_v65 : (V (F := Ideal) m c main_v65 : S160000x256.Idx → EReal)
    = maskedTake (pre m c (𝓚 main_v59) : S10000x256.Idx → EReal) (pre m c (𝓚 main_v63) : S160000.Idx → BitVec 32) := by
  rw [V_eq, after_of_forall_not_mem _ _ keep3_v65, after_take1, after_of_forall_not_mem _ _ keep1_v59,
    after_of_forall_not_mem _ _ keep1_v63]

/-- The prefix cut before its last four operations. -/
theorem pre_split : pre m c = after (List.drop 71 (hostOps0 (F := Ideal))) (after (List.take 71 (hostOps0 (F := Ideal))) (fun b => m (c, b))) := by
  unfold pre
  rw [← StableHlo.after_append, List.take_append_drop]

/-- The edge index reaches the last four operations as launched. -/
theorem take71_arg2 : after (List.take 71 (hostOps0 (F := Ideal))) (fun b => m (c, b)) (𝓚 main_arg2)
    = m ((c.tc : Thread nD τ).loc main_arg2) :=
  after_of_forall_not_mem _ _ (fun op hop => keep0_arg2 op (List.mem_of_mem_take hop))

/-- Under the precondition every entry of either index vector lies in [-10000, 10000): each is an entry of the edge index. -/
theorem v61_range (hpre : Cert.Pre_KernelIdeal m) (e : Fin 160000) :
    -10000 ≤ ((pre m c (𝓚 main_v61) : S160000.Idx → BitVec 32) (ix1 e)).toInt
      ∧ ((pre m c (𝓚 main_v61) : S160000.Idx → BitVec 32) (ix1 e)).toInt < 10000 := by
  rw [pre_split, (rows_read _).1, take71_arg2]
  exact arg2_range m hpre c _
theorem v63_range (hpre : Cert.Pre_KernelIdeal m) (e : Fin 160000) :
    -10000 ≤ ((pre m c (𝓚 main_v63) : S160000.Idx → BitVec 32) (ix1 e)).toInt
      ∧ ((pre m c (𝓚 main_v63) : S160000.Idx → BitVec 32) (ix1 e)).toInt < 10000 := by
  rw [pre_split, (rows_read _).2, take71_arg2]
  exact arg2_range m hpre c _

end Found

/-! ## The two takes are bare gathers -/

/-- The first take is the bare gather at the first index vector's wrapped column. -/
theorem take0 (m : (ℓ : Loc nD τ sig) → Buf (Elt Ideal) ℓ) (hpre : Cert.Pre_KernelIdeal m) (c : Dev nD) :
    (V (F := Ideal) m c main_v64 : S160000x256.Idx → EReal)
      = Host.gather gather_S10000x256_S160000x1_S160000x256_1_0_n_n_0_1_1256 (V (F := Ideal) m c main_v59 : S10000x256.Idx → EReal)
          (wrapIdx (V (F := Ideal) m c main_v61 : S160000.Idx → BitVec 32)) := by
  rw [V_v64, V_v59, V_v61]
  exact take_eq_gather _ _ (v61_range m c hpre)

/-- The second take is the bare gather at the second index vector's wrapped column. -/
theorem take1 (m : (ℓ : Loc nD τ sig) → Buf (Elt Ideal) ℓ) (hpre : Cert.Pre_KernelIdeal m) (c : Dev nD) :
    (V (F := Ideal) m c main_v65 : S160000x256.Idx → EReal)
      = Host.gather gather_S10000x256_S160000x1_S160000x256_1_0_n_n_0_1_1256 (V (F := Ideal) m c main_v59 : S10000x256.Idx → EReal)
          (wrapIdx (V (F := Ideal) m c main_v63 : S160000.Idx → BitVec 32)) := by
  rw [V_v65, V_v59, V_v63]
  exact take_eq_gather _ _ (v63_range m c hpre)

end Cert.KernelIdeal.Take
end
-- ==== Proof.RefRow.lean ====
/-
  The reference's edge network — concatenate the gathered source rows, the gathered destination rows and the edge
  attributes, then four dense layers with a leaky rectifier after each of the first three — read at row `e`, column `j`.
-/
import proofs.«415619_j30408368456386_1_alg».proof.Proof.Gen.ReferenceIdeal
import proofs.«415619_j30408368456386_1_alg».proof.Proof.RowSpec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost
import Idealize.ShloMosaic.Lib.StackMember

noncomputable section

namespace Cert.ReferenceIdeal.EdgeRow

open Cert.ReferenceIdeal Cert.ReferenceIdeal.Gen Idealize.ShloMosaic Idealize.ShloMosaic.ValueIdx Cert.EdgeRow

/-- The first dense layer as the reference spells it: the three arrays side by side against the whole first weight
    matrix, plus the bias broadcast along the rows. -/
def dense1V (A B C : FVec Ideal S160000x256 .f32) (W1 : FVec Ideal S768x256 .f32) (b1 : FVec Ideal S256 .f32) :
    FVec Ideal S160000x256 .f32 :=
  addf
    (Host.dotGeneral dot_S160000x768_S768x256_S160000x256_1_0_0_1_n_n none
      (concatenate S160000x768 1 [⟨S160000x256, A⟩, ⟨S160000x256, B⟩, ⟨S160000x256, C⟩]
        concatenates_S160000x256_S160000x256_S160000x256_S160000x768_d1) W1)
    (broadcastInDim S160000x256 ![0, 1] bcast_S1x256_S160000x256_0_1 (broadcastInDim S1x256 ![1] bcast_S256_S1x256_1 b1))

/-- The leaky rectifier on an array: `y` where `y ≥ 0`, the slope word times `y` elsewhere. -/
def lreluV (Y : FVec Ideal S160000x256 .f32) : FVec Ideal S160000x256 .f32 :=
  select (cmpf .oge Y (broadcastInDim S160000x256 ![] bcast_S_S160000x256 (constant S_ .f32 0x00000000#32))) Y
    (mulf (broadcastInDim S160000x256 ![] bcast_S_S160000x256 (id (constant (F := Ideal) S_ .f32 0x3C23D70A#32))) Y)

/-- A later dense layer: the array against a 256 × 256 weight matrix, plus the bias broadcast along the rows. -/
def denseV (Z : FVec Ideal S160000x256 .f32) (W : FVec Ideal S256x256 .f32) (b : FVec Ideal S256 .f32) :
    FVec Ideal S160000x256 .f32 :=
  addf (Host.dotGeneral dot_S160000x256_S256x256_S160000x256_1_0_0_1_n_n none Z W)
    (broadcastInDim S160000x256 ![0, 1] bcast_S1x256_S160000x256_0_1 (broadcastInDim S1x256 ![1] bcast_S256_S1x256_1 b))

/-- The reference's edge network on whole arrays. -/
def refMlp (A B C : FVec Ideal S160000x256 .f32) (W1 : FVec Ideal S768x256 .f32) (b1 : FVec Ideal S256 .f32)
    (W2 : FVec Ideal S256x256 .f32) (b2 : FVec Ideal S256 .f32) (W3 : FVec Ideal S256x256 .f32) (b3 : FVec Ideal S256 .f32)
    (W4 : FVec Ideal S256x256 .f32) (b4 : FVec Ideal S256 .f32) : FVec Ideal S160000x256 .f32 :=
  denseV (lreluV (denseV (lreluV (denseV (lreluV (dense1V A B C W1 b1)) W2 b2)) W3 b3)) W4 b4

/-- The rectifier on an array is the rectifier on each entry. -/
theorem lreluV_apply (Y : FVec Ideal S160000x256 .f32) (i : S160000x256.Idx) : lreluV Y i = lrelu (Y i) := rfl

/-- A bias vector laid along every row, read at row `e`, column `j`, is its entry `j`. -/
theorem bias_apply (b : FVec Ideal S256 .f32) (e : Fin 160000) (j : Fin 256) :
    broadcastInDim S160000x256 ![0, 1] bcast_S1x256_S160000x256_0_1 (broadcastInDim S1x256 ![1] bcast_S256_S1x256_1 b) (ix2 e j)
      = b (ix1 j) := by
  refine (broadcastInDim_oneRow_apply bcast_S1x256_S160000x256_0_1 _ e j).trans ?_
  refine broadcastInDim_apply ![1] bcast_S256_S1x256_1 b (ix2 (0 : Fin 1) j) (ix1 j) ?_
  intro a
  match a with
  | ⟨0, _⟩ =>
    show j.val = if (256 : ℕ) = 1 then 0 else j.val
    rw [if_neg (by decide)]

/-- The product against the first weight matrix at row `e`, column `j`: the sum over the 768 contracted columns. -/
theorem dot768_apply (X : FVec Ideal S160000x768 .f32) (W : FVec Ideal S768x256 .f32) (e : Fin 160000) (j : Fin 256) :
    Host.dotGeneral dot_S160000x768_S768x256_S160000x256_1_0_0_1_n_n none X W (ix2 e j)
      = ∑ k : Fin 768, X (ix2 e k) * W (ix2 k j) :=
  StackMember.dotGeneral_plain_apply (m := 160000) (n := 256) (k := 768) none X W e j

/-- The product against a later weight matrix at row `e`, column `j`: the sum over the 256 contracted columns. -/
theorem dot256_apply (X : FVec Ideal S160000x256 .f32) (W : FVec Ideal S256x256 .f32) (e : Fin 160000) (j : Fin 256) :
    Host.dotGeneral dot_S160000x256_S256x256_S160000x256_1_0_0_1_n_n none X W (ix2 e j)
      = ∑ k : Fin 256, X (ix2 e k) * W (ix2 k j) :=
  StackMember.dotGeneral_plain_apply (m := 160000) (n := 256) (k := 256) none X W e j

/-- The three arrays side by side, read at row `e`, column `k` of the 768: the three rows side by side. -/
theorem concat_apply (A B C : FVec Ideal S160000x256 .f32) (e : Fin 160000) (k : Fin 768) :
    concatenate S160000x768 1 [⟨S160000x256, A⟩, ⟨S160000x256, B⟩, ⟨S160000x256, C⟩]
        concatenates_S160000x256_S160000x256_S160000x256_S160000x768_d1 (ix2 e k)
      = concat3 (fun k => A (ix2 e k)) (fun k => B (ix2 e k)) (fun k => C (ix2 e k)) k := by
  have off : ∀ (c : Fin 256) (b : Fin S160000x256.rank), b.cast rfl ≠ (1 : Fin S160000x768.rank) →
      ((ix2 e c : S160000x256.Idx) b).val = ((ix2 e k : S160000x768.Idx) (b.cast rfl)).val := by
    intro c b hb
    match b with
    | ⟨0, _⟩ => rfl
    | ⟨1, _⟩ => exact absurd rfl hb
  unfold concat3
  by_cases h : k.val < 256
  · rw [dif_pos h]
    exact concatenate_apply_piece 1 _ _ (ix2 e k) 0 (by show 0 < 3; omega) S160000x256 A rfl rfl 0 rfl (ix2 e ⟨k.val, h⟩)
      (off _) (by show 0 + k.val = k.val; omega)
  · rw [dif_neg h]
    by_cases h' : k.val < 512
    · rw [dif_pos h']
      exact concatenate_apply_piece 1 _ _ (ix2 e k) 1 (by show 1 < 3; omega) S160000x256 B rfl rfl 256 rfl
        (ix2 e ⟨k.val - 256, by omega⟩) (off _) (by show 256 + (k.val - 256) = k.val; omega)
    · rw [dif_neg h']
      have hk : k.val < 768 := k.isLt
      exact concatenate_apply_piece 1 _ _ (ix2 e k) 2 (by show 2 < 3; omega) S160000x256 C rfl rfl 512 rfl
        (ix2 e ⟨k.val - 512, by omega⟩) (off _) (by show 512 + (k.val - 512) = k.val; omega)

/-- A later dense layer at row `e`, column `j` is the layer on row `e` of its input. -/
theorem denseV_row (Z : FVec Ideal S160000x256 .f32) (W : FVec Ideal S256x256 .f32) (b : FVec Ideal S256 .f32)
    (e : Fin 160000) (j : Fin 256) :
    denseV Z W b (ix2 e j) = layer (fun k j => W (ix2 k j)) (fun j => b (ix1 j)) (fun k => Z (ix2 e k)) j :=
  congrArg₂ (· + ·) (dot256_apply Z W e j) (bias_apply b e j)

/-- The first dense layer at row `e`, column `j` is the layer on the three rows side by side. -/
theorem dense1V_row (A B C : FVec Ideal S160000x256 .f32) (W1 : FVec Ideal S768x256 .f32) (b1 : FVec Ideal S256 .f32)
    (e : Fin 160000) (j : Fin 256) :
    dense1V A B C W1 b1 (ix2 e j)
      = layer (fun k j => W1 (ix2 k j)) (fun j => b1 (ix1 j))
          (concat3 (fun k => A (ix2 e k)) (fun k => B (ix2 e k)) (fun k => C (ix2 e k))) j := by
  refine congrArg₂ (· + ·) ((dot768_apply _ W1 e j).trans ?_) (bias_apply b1 e j)
  exact Finset.sum_congr rfl fun k _ => congrArg (· * W1 (ix2 k j)) (concat_apply A B C e k)

/-- The rectified array's row `e` is the rectifier along the row. -/
theorem lreluV_row (Y : FVec Ideal S160000x256 .f32) (e : Fin 160000) (y : Fin 256 → EReal)
    (h : ∀ k, Y (ix2 e k) = y k) : (fun k => lreluV Y (ix2 e k)) = act y :=
  funext fun k => (lreluV_apply Y (ix2 e k)).trans (congrArg lrelu (h k))

/-- Row `e`, column `j` of the reference's edge network is the edge network on row `e` of the three arrays, the
    first weight matrix read as its three row blocks. -/
theorem refMlp_apply (A B C : FVec Ideal S160000x256 .f32) (W1 : FVec Ideal S768x256 .f32) (b1 : FVec Ideal S256 .f32)
    (W2 : FVec Ideal S256x256 .f32) (b2 : FVec Ideal S256 .f32) (W3 : FVec Ideal S256x256 .f32) (b3 : FVec Ideal S256 .f32)
    (W4 : FVec Ideal S256x256 .f32) (b4 : FVec Ideal S256 .f32) (e : Fin 160000) (j : Fin 256) :
    refMlp A B C W1 b1 W2 b2 W3 b3 W4 b4 (ix2 e j)
      = rowMlp (rowBlock (fun k j => W1 (ix2 k j)) 0) (rowBlock (fun k j => W1 (ix2 k j)) 1) (rowBlock (fun k j => W1 (ix2 k j)) 2)
          (fun j => b1 (ix1 j)) (fun k j => W2 (ix2 k j)) (fun j => b2 (ix1 j)) (fun k j => W3 (ix2 k j)) (fun j => b3 (ix1 j))
          (fun k j => W4 (ix2 k j)) (fun j => b4 (ix1 j))
          (fun k => A (ix2 e k)) (fun k => B (ix2 e k)) (fun k => C (ix2 e k)) j := by
  have r1 := lreluV_row (dense1V A B C W1 b1) e _ fun k =>
    (dense1V_row A B C W1 b1 e k).trans (congrFun (layer_concat _ _ _ _ _) k)
  have r2 := lreluV_row (denseV (lreluV (dense1V A B C W1 b1)) W2 b2) e _ fun k =>
    (denseV_row _ W2 b2 e k).trans (congrFun (congrArg (layer _ _) r1) k)
  have r3 := lreluV_row (denseV (lreluV (denseV (lreluV (dense1V A B C W1 b1)) W2 b2)) W3 b3) e _ fun k =>
    (denseV_row _ W3 b3 e k).trans (congrFun (congrArg (layer _ _) r2) k)
  exact (denseV_row _ W4 b4 e j).trans (congrFun (congrArg (layer _ _) r3) j)

end Cert.ReferenceIdeal.EdgeRow

end
-- ==== Proof.RefMid.lean ====
/-
  The reference's middle stretch read back: from any contents, its first eighteen operations gather the rows of `m` at the
  wrapped source and destination indices, and the rest is the edge network of those two gathered arrays and the edge
  attributes against the weights it was passed.
-/
import proofs.«415619_j30408368456386_1_alg».proof.Proof.RefRun
import proofs.«415619_j30408368456386_1_alg».proof.Proof.RefRow

noncomputable section

namespace Cert.ReferenceIdeal.Mid

open Cert.ReferenceIdeal Cert.ReferenceIdeal.Gen Cert.ReferenceIdeal.Table Cert.ReferenceIdeal.HandRun Cert.ReferenceIdeal.EdgeRow
open Idealize.ShloMosaic Idealize.ShloMosaic.TcCoe Idealize.SL.Sem Idealize.ShloMosaic.StableHlo

local notation "𝓡" b => Proc.devRef (τ := τ) (sig := sig) Proc.tc b

/-- The index column a gather reads: each index, counted from the end when negative, as a one-column array. -/
def wrapCol (idx : IVec S160000 32) : IVec S160000x1 32 :=
  broadcastInDim S160000x1 ![0] bcast_S160000_S160000x1_0
    (select (cmpi .slt idx (broadcastInDim S160000 ![] bcast_S_S160000 (constantI S_ 32 0#32)))
      (addi idx (broadcastInDim S160000 ![] bcast_S_S160000 (constantI S_ 32 10000#32))) idx)

/-- The rows of `M` at the wrapped indices. -/
def gatherRows (M : FVec Ideal S10000x256 .f32) (idx : IVec S160000 32) : FVec Ideal S160000x256 .f32 :=
  Host.gather gather_S10000x256_S160000x1_S160000x256_1_0_n_n_0_1_1256 M (wrapCol idx)

/-- The middle stretch is its gathers followed by its edge network. -/
theorem seg2_cut (W : Valuation τ sig (Elt Ideal)) :
    after (seg2 (F := Ideal)) W = after ((seg2 (F := Ideal)).drop 18) (after ((seg2 (F := Ideal)).take 18) W) := by
  rw [← StableHlo.after_append, List.take_append_drop]

set_option maxRecDepth 16384 in
set_option maxHeartbeats 8000000 in
/-- The eighteen operations before the concatenation: the two gathers; the edge attributes and the weights untouched. -/
theorem gathers_read (W : Valuation τ sig (Elt Ideal)) :
    (after ((seg2 (F := Ideal)).take 18) W (𝓡 main_v70) : S160000x256.Idx → EReal)
        = gatherRows (W (𝓡 main_v59)) (W (𝓡 main_v61))
    ∧ (after ((seg2 (F := Ideal)).take 18) W (𝓡 main_v77) : S160000x256.Idx → EReal)
        = gatherRows (W (𝓡 main_v59)) (W (𝓡 main_v63))
    ∧ after ((seg2 (F := Ideal)).take 18) W (𝓡 main_v55) = W (𝓡 main_v55)
    ∧ after ((seg2 (F := Ideal)).take 18) W (𝓡 main_arg13) = W (𝓡 main_arg13)
    ∧ after ((seg2 (F := Ideal)).take 18) W (𝓡 main_arg14) = W (𝓡 main_arg14)
    ∧ after ((seg2 (F := Ideal)).take 18) W (𝓡 main_arg15) = W (𝓡 main_arg15)
    ∧ after ((seg2 (F := Ideal)).take 18) W (𝓡 main_arg16) = W (𝓡 main_arg16)
    ∧ after ((seg2 (F := Ideal)).take 18) W (𝓡 main_arg17) = W (𝓡 main_arg17)
    ∧ after ((seg2 (F := Ideal)).take 18) W (𝓡 main_arg18) = W (𝓡 main_arg18)
    ∧ after ((seg2 (F := Ideal)).take 18) W (𝓡 main_arg19) = W (𝓡 main_arg19)
    ∧ after ((seg2 (F := Ideal)).take 18) W (𝓡 main_arg20) = W (𝓡 main_arg20) := by
  simp only [seg2, List.take_succ_cons, List.take_zero]
  after_results_simp
  exact ⟨rfl, rfl, trivial, trivial, trivial, trivial, trivial, trivial, trivial, trivial, trivial⟩

set_option maxRecDepth 16384 in
set_option maxHeartbeats 16000000 in
/-- The operations from the concatenation on: the edge network of the three arrays the contents hold. -/
theorem network_read (W : Valuation τ sig (Elt Ideal)) :
    (after ((seg2 (F := Ideal)).drop 18) W (𝓡 main_v97) : S160000x256.Idx → EReal)
      = refMlp (W (𝓡 main_v70)) (W (𝓡 main_v77)) (W (𝓡 main_v55)) (W (𝓡 main_arg13)) (W (𝓡 main_arg14))
          (W (𝓡 main_arg15)) (W (𝓡 main_arg16)) (W (𝓡 main_arg17)) (W (𝓡 main_arg18)) (W (𝓡 main_arg19)) (W (𝓡 main_arg20)) := by
  simp only [seg2, List.drop_succ_cons, List.drop_zero]
  after_results_simp
  rfl

/-- The middle stretch, from any contents: the edge network of `m`'s rows at the wrapped source indices, its rows at the
    wrapped destination indices, and the edge attributes. -/
theorem mid_read (W : Valuation τ sig (Elt Ideal)) :
    (after (seg2 (F := Ideal)) W (𝓡 main_v97) : S160000x256.Idx → EReal)
      = refMlp (gatherRows (W (𝓡 main_v59)) (W (𝓡 main_v61))) (gatherRows (W (𝓡 main_v59)) (W (𝓡 main_v63))) (W (𝓡 main_v55))
          (W (𝓡 main_arg13)) (W (𝓡 main_arg14)) (W (𝓡 main_arg15)) (W (𝓡 main_arg16)) (W (𝓡 main_arg17)) (W (𝓡 main_arg18))
          (W (𝓡 main_arg19)) (W (𝓡 main_arg20)) := by
  obtain ⟨h70, h77, h55, h13, h14, h15, h16, h17, h18, h19, h20⟩ := gathers_read W
  rw [seg2_cut, network_read, h70, h77, h55, h13, h14, h15, h16, h17, h18, h19, h20]

end Cert.ReferenceIdeal.Mid

end
-- ==== Proof.AgreePrefix.lean ====
/-
  The two programs begin with the same host operations: the atom embedding gathered and concatenated with the extra atom
  features, the embedding block `h`, the Bessel basis and the edge attributes, the node-to-message transform `m`, and the two
  rows of the edge index. Run from contents that hold the same arrays at the arguments they read, both leave the same
  arrays in `h`, the edge attributes, `m` and the two index rows.

  Each list is cut after its first nine operations, where the embedding gather's result feeds a concatenation; each part is
  read back as a term of the contents it starts from, and the two programs' terms are the same operations on the same arrays.
-/
import proofs.«415619_j30408368456386_1_alg».proof.Proof.Gen.KernelIdeal.Frame
import proofs.«415619_j30408368456386_1_alg».proof.Proof.RefRun
import Idealize.ShloMosaic.PureOps.Ideal

noncomputable section

namespace Cert.Agree

open Idealize.ShloMosaic Idealize.ShloMosaic.TcCoe Idealize.SL.Sem Idealize.ShloMosaic.StableHlo

/-- Contents of the kernel program's buffers, and of the reference program's. -/
abbrev KVal := Valuation Cert.KernelIdeal.τ Cert.KernelIdeal.sig (Elt Ideal)
abbrev RVal := Valuation Cert.ReferenceIdeal.τ Cert.ReferenceIdeal.sig (Elt Ideal)

local notation "𝓚" b => Proc.devRef (τ := Cert.KernelIdeal.τ) (sig := Cert.KernelIdeal.sig) Proc.tc b
local notation "𝓡" b => Proc.devRef (τ := Cert.ReferenceIdeal.τ) (sig := Cert.ReferenceIdeal.sig) Proc.tc b

/-- The shared prefix in the kernel's program, and in the reference. -/
abbrev preK : List (HloOp Cert.KernelIdeal.τ Cert.KernelIdeal.sig (Elt Ideal)) := Cert.KernelIdeal.Gen.hostOps0 (F := Ideal)
abbrev preR : List (HloOp Cert.ReferenceIdeal.τ Cert.ReferenceIdeal.sig (Elt Ideal)) := Cert.ReferenceIdeal.Table.seg0 (F := Ideal) ++ Cert.ReferenceIdeal.Table.seg1 (F := Ideal)

set_option maxRecDepth 16384 in
set_option maxHeartbeats 8000000 in
/-- The first nine operations: the atom types wrapped and the embedding rows gathered. -/
theorem emb_agree (WK : KVal) (WR : RVal)
    (a0 : Cert.KernelIdeal.S10000.Idx → BitVec 32) (a5 : Cert.KernelIdeal.S100x32.Idx → EReal)
    (k0 : WK (𝓚 Cert.KernelIdeal.main_arg0) = a0) (r0 : WR (𝓡 Cert.ReferenceIdeal.main_arg0) = a0)
    (k5 : WK (𝓚 Cert.KernelIdeal.main_arg5) = a5) (r5 : WR (𝓡 Cert.ReferenceIdeal.main_arg5) = a5) :
    (after (preK.take 9) WK (𝓚 Cert.KernelIdeal.main_v6) : Cert.KernelIdeal.S10000x32.Idx → EReal) = after (preR.take 9) WR (𝓡 Cert.ReferenceIdeal.main_v6) := by
  simp only [preK, preR, Cert.KernelIdeal.Gen.hostOps0, Cert.ReferenceIdeal.Table.seg0, Cert.ReferenceIdeal.Table.seg1, List.cons_append, List.nil_append,
    List.take_succ_cons, List.take_zero]
  after_results_simp
  simp only [k0, r0, k5, r5]
  rfl

/-! The rest of the prefix, from contents holding the same gathered embedding and the same arguments, buffer by buffer. -/

set_option maxRecDepth 16384 in
set_option maxHeartbeats 16000000 in
/-- The embedding block `h`: a dense layer on the gathered embedding beside the extra atom features, then the tanh form of gelu. -/
theorem h_agree (WK : KVal) (WR : RVal)
    (x6 : Cert.KernelIdeal.S10000x32.Idx → EReal) (kx6 : WK (𝓚 Cert.KernelIdeal.main_v6) = x6) (rx6 : WR (𝓡 Cert.ReferenceIdeal.main_v6) = x6)
    (a1 : Cert.KernelIdeal.S10000x16.Idx → EReal) (ka1 : WK (𝓚 Cert.KernelIdeal.main_arg1) = a1) (ra1 : WR (𝓡 Cert.ReferenceIdeal.main_arg1) = a1)
    (a6 : Cert.KernelIdeal.S48x256.Idx → EReal) (ka6 : WK (𝓚 Cert.KernelIdeal.main_arg6) = a6) (ra6 : WR (𝓡 Cert.ReferenceIdeal.main_arg6) = a6)
    (a7 : Cert.KernelIdeal.S256.Idx → EReal) (ka7 : WK (𝓚 Cert.KernelIdeal.main_arg7) = a7) (ra7 : WR (𝓡 Cert.ReferenceIdeal.main_arg7) = a7) :
    (after (preK.drop 9) WK (𝓚 Cert.KernelIdeal.main_v24) : Cert.KernelIdeal.S10000x256.Idx → EReal) = after (preR.drop 9) WR (𝓡 Cert.ReferenceIdeal.main_v24) := by
  simp only [preK, preR, Cert.KernelIdeal.Gen.hostOps0, Cert.ReferenceIdeal.Table.seg0, Cert.ReferenceIdeal.Table.seg1, List.cons_append, List.nil_append,
    List.drop_succ_cons, List.drop_zero]
  after_results_simp
  rw [kx6, ka1, ka6, ka7, rx6, ra1, ra6, ra7]
  rfl

set_option maxRecDepth 16384 in
set_option maxHeartbeats 16000000 in
/-- The edge attributes: the Bessel basis of the scaled distances under the polynomial envelope, through a dense layer. -/
theorem attr_agree (WK : KVal) (WR : RVal)
    (a3 : Cert.KernelIdeal.S160000.Idx → EReal) (ka3 : WK (𝓚 Cert.KernelIdeal.main_arg3) = a3) (ra3 : WR (𝓡 Cert.ReferenceIdeal.main_arg3) = a3)
    (a4 : Cert.KernelIdeal.S32.Idx → EReal) (ka4 : WK (𝓚 Cert.KernelIdeal.main_arg4) = a4) (ra4 : WR (𝓡 Cert.ReferenceIdeal.main_arg4) = a4)
    (a10 : Cert.KernelIdeal.S32x256.Idx → EReal) (ka10 : WK (𝓚 Cert.KernelIdeal.main_arg10) = a10) (ra10 : WR (𝓡 Cert.ReferenceIdeal.main_arg10) = a10)
    (a11 : Cert.KernelIdeal.S256.Idx → EReal) (ka11 : WK (𝓚 Cert.KernelIdeal.main_arg11) = a11) (ra11 : WR (𝓡 Cert.ReferenceIdeal.main_arg11) = a11) :
    (after (preK.drop 9) WK (𝓚 Cert.KernelIdeal.main_v55) : Cert.KernelIdeal.S160000x256.Idx → EReal) = after (preR.drop 9) WR (𝓡 Cert.ReferenceIdeal.main_v55) := by
  simp only [preK, preR, Cert.KernelIdeal.Gen.hostOps0, Cert.ReferenceIdeal.Table.seg0, Cert.ReferenceIdeal.Table.seg1, List.cons_append, List.nil_append,
    List.drop_succ_cons, List.drop_zero]
  after_results_simp
  simp only [ka3, ra3, ka4, ra4, ka10, ra10, ka11, ra11]
  rfl

set_option maxRecDepth 16384 in
set_option maxHeartbeats 16000000 in
/-- The node-to-message transform `m` of `h`. -/
theorem m_agree (WK : KVal) (WR : RVal)
    (x6 : Cert.KernelIdeal.S10000x32.Idx → EReal) (kx6 : WK (𝓚 Cert.KernelIdeal.main_v6) = x6) (rx6 : WR (𝓡 Cert.ReferenceIdeal.main_v6) = x6)
    (a1 : Cert.KernelIdeal.S10000x16.Idx → EReal) (ka1 : WK (𝓚 Cert.KernelIdeal.main_arg1) = a1) (ra1 : WR (𝓡 Cert.ReferenceIdeal.main_arg1) = a1)
    (a6 : Cert.KernelIdeal.S48x256.Idx → EReal) (ka6 : WK (𝓚 Cert.KernelIdeal.main_arg6) = a6) (ra6 : WR (𝓡 Cert.ReferenceIdeal.main_arg6) = a6)
    (a7 : Cert.KernelIdeal.S256.Idx → EReal) (ka7 : WK (𝓚 Cert.KernelIdeal.main_arg7) = a7) (ra7 : WR (𝓡 Cert.ReferenceIdeal.main_arg7) = a7)
    (a8 : Cert.KernelIdeal.S256x256.Idx → EReal) (ka8 : WK (𝓚 Cert.KernelIdeal.main_arg8) = a8) (ra8 : WR (𝓡 Cert.ReferenceIdeal.main_arg8) = a8)
    (a9 : Cert.KernelIdeal.S256.Idx → EReal) (ka9 : WK (𝓚 Cert.KernelIdeal.main_arg9) = a9) (ra9 : WR (𝓡 Cert.ReferenceIdeal.main_arg9) = a9) :
    (after (preK.drop 9) WK (𝓚 Cert.KernelIdeal.main_v59) : Cert.KernelIdeal.S10000x256.Idx → EReal) = after (preR.drop 9) WR (𝓡 Cert.ReferenceIdeal.main_v59) := by
  simp only [preK, preR, Cert.KernelIdeal.Gen.hostOps0, Cert.ReferenceIdeal.Table.seg0, Cert.ReferenceIdeal.Table.seg1, List.cons_append, List.nil_append,
    List.drop_succ_cons, List.drop_zero]
  after_results_simp
  rw [kx6, ka1, ka6, ka7, ka8, ka9, rx6, ra1, ra6, ra7, ra8, ra9]
  rfl

set_option maxRecDepth 16384 in
set_option maxHeartbeats 16000000 in
/-- The source index row: row 0 of the edge index. -/
theorem src_agree (WK : KVal) (WR : RVal)
    (a2 : Cert.KernelIdeal.S2x160000.Idx → BitVec 32) (ka2 : WK (𝓚 Cert.KernelIdeal.main_arg2) = a2) (ra2 : WR (𝓡 Cert.ReferenceIdeal.main_arg2) = a2) :
    (after (preK.drop 9) WK (𝓚 Cert.KernelIdeal.main_v61) : Cert.KernelIdeal.S160000.Idx → BitVec 32) = after (preR.drop 9) WR (𝓡 Cert.ReferenceIdeal.main_v61) := by
  simp only [preK, preR, Cert.KernelIdeal.Gen.hostOps0, Cert.ReferenceIdeal.Table.seg0, Cert.ReferenceIdeal.Table.seg1, List.cons_append, List.nil_append,
    List.drop_succ_cons, List.drop_zero]
  after_results_simp
  simp only [ka2, ra2]
  rfl

set_option maxRecDepth 16384 in
set_option maxHeartbeats 16000000 in
/-- The destination index row: row 1 of the edge index. -/
theorem dst_agree (WK : KVal) (WR : RVal)
    (a2 : Cert.KernelIdeal.S2x160000.Idx → BitVec 32) (ka2 : WK (𝓚 Cert.KernelIdeal.main_arg2) = a2) (ra2 : WR (𝓡 Cert.ReferenceIdeal.main_arg2) = a2) :
    (after (preK.drop 9) WK (𝓚 Cert.KernelIdeal.main_v63) : Cert.KernelIdeal.S160000.Idx → BitVec 32) = after (preR.drop 9) WR (𝓡 Cert.ReferenceIdeal.main_v63) := by
  simp only [preK, preR, Cert.KernelIdeal.Gen.hostOps0, Cert.ReferenceIdeal.Table.seg0, Cert.ReferenceIdeal.Table.seg1, List.cons_append, List.nil_append,
    List.drop_succ_cons, List.drop_zero]
  after_results_simp
  simp only [ka2, ra2]
  rfl

end Cert.Agree

end
-- ==== Proof.AgreePass.lean ====
/-
  Buffers the stretches do not write: the first nine operations of the shared prefix leave the other arguments alone, the
  kernel program's two gathers and its weight slices leave the prefix's results alone, and the reference's middle stretch
  leaves `h` and the destination index row alone.
-/
import proofs.«415619_j30408368456386_1_alg».proof.Proof.AgreePrefix

noncomputable section

namespace Cert.Agree

open Idealize.ShloMosaic Idealize.ShloMosaic.TcCoe Idealize.SL.Sem Idealize.ShloMosaic.StableHlo

local notation "𝓚" b => Proc.devRef (τ := Cert.KernelIdeal.τ) (sig := Cert.KernelIdeal.sig) Proc.tc b
local notation "𝓡" b => Proc.devRef (τ := Cert.ReferenceIdeal.τ) (sig := Cert.ReferenceIdeal.sig) Proc.tc b

set_option maxRecDepth 16384 in
set_option maxHeartbeats 4000000 in
/-- The kernel program's first nine operations write none of the arguments the rest of the prefix reads. -/
theorem take9_pass_K (W : KVal) :
    after (preK.take 9) W (𝓚 Cert.KernelIdeal.main_arg1) = W (𝓚 Cert.KernelIdeal.main_arg1)
    ∧ after (preK.take 9) W (𝓚 Cert.KernelIdeal.main_arg2) = W (𝓚 Cert.KernelIdeal.main_arg2)
    ∧ after (preK.take 9) W (𝓚 Cert.KernelIdeal.main_arg3) = W (𝓚 Cert.KernelIdeal.main_arg3)
    ∧ after (preK.take 9) W (𝓚 Cert.KernelIdeal.main_arg4) = W (𝓚 Cert.KernelIdeal.main_arg4)
    ∧ after (preK.take 9) W (𝓚 Cert.KernelIdeal.main_arg6) = W (𝓚 Cert.KernelIdeal.main_arg6)
    ∧ after (preK.take 9) W (𝓚 Cert.KernelIdeal.main_arg7) = W (𝓚 Cert.KernelIdeal.main_arg7)
    ∧ after (preK.take 9) W (𝓚 Cert.KernelIdeal.main_arg8) = W (𝓚 Cert.KernelIdeal.main_arg8)
    ∧ after (preK.take 9) W (𝓚 Cert.KernelIdeal.main_arg9) = W (𝓚 Cert.KernelIdeal.main_arg9)
    ∧ after (preK.take 9) W (𝓚 Cert.KernelIdeal.main_arg10) = W (𝓚 Cert.KernelIdeal.main_arg10)
    ∧ after (preK.take 9) W (𝓚 Cert.KernelIdeal.main_arg11) = W (𝓚 Cert.KernelIdeal.main_arg11) := by
  simp only [preK, Cert.KernelIdeal.Gen.hostOps0, List.take_succ_cons, List.take_zero]
  after_results_simp
  repeat' apply And.intro
  all_goals trivial

set_option maxRecDepth 16384 in
set_option maxHeartbeats 4000000 in
/-- The same of the reference's first nine operations. -/
theorem take9_pass_R (W : RVal) :
    after (preR.take 9) W (𝓡 Cert.ReferenceIdeal.main_arg1) = W (𝓡 Cert.ReferenceIdeal.main_arg1)
    ∧ after (preR.take 9) W (𝓡 Cert.ReferenceIdeal.main_arg2) = W (𝓡 Cert.ReferenceIdeal.main_arg2)
    ∧ after (preR.take 9) W (𝓡 Cert.ReferenceIdeal.main_arg3) = W (𝓡 Cert.ReferenceIdeal.main_arg3)
    ∧ after (preR.take 9) W (𝓡 Cert.ReferenceIdeal.main_arg4) = W (𝓡 Cert.ReferenceIdeal.main_arg4)
    ∧ after (preR.take 9) W (𝓡 Cert.ReferenceIdeal.main_arg6) = W (𝓡 Cert.ReferenceIdeal.main_arg6)
    ∧ after (preR.take 9) W (𝓡 Cert.ReferenceIdeal.main_arg7) = W (𝓡 Cert.ReferenceIdeal.main_arg7)
    ∧ after (preR.take 9) W (𝓡 Cert.ReferenceIdeal.main_arg8) = W (𝓡 Cert.ReferenceIdeal.main_arg8)
    ∧ after (preR.take 9) W (𝓡 Cert.ReferenceIdeal.main_arg9) = W (𝓡 Cert.ReferenceIdeal.main_arg9)
    ∧ after (preR.take 9) W (𝓡 Cert.ReferenceIdeal.main_arg10) = W (𝓡 Cert.ReferenceIdeal.main_arg10)
    ∧ after (preR.take 9) W (𝓡 Cert.ReferenceIdeal.main_arg11) = W (𝓡 Cert.ReferenceIdeal.main_arg11) := by
  simp only [preR, Cert.ReferenceIdeal.Table.seg0, Cert.ReferenceIdeal.Table.seg1, List.cons_append, List.nil_append, List.take_succ_cons, List.take_zero]
  after_results_simp
  repeat' apply And.intro
  all_goals trivial

set_option maxRecDepth 16384 in
set_option maxHeartbeats 8000000 in
/-- The kernel program's two gathers and its weight slices write none of the prefix's results. -/
theorem stretches_pass_K (W : KVal) :
    after (Cert.KernelIdeal.Gen.hostOps0_3 (F := Ideal)) (after (Cert.KernelIdeal.Gen.hostOps0_2 (F := Ideal)) (after (Cert.KernelIdeal.Gen.hostOps0_1 (F := Ideal)) W)) (𝓚 Cert.KernelIdeal.main_v24) = W (𝓚 Cert.KernelIdeal.main_v24)
    ∧ after (Cert.KernelIdeal.Gen.hostOps0_3 (F := Ideal)) (after (Cert.KernelIdeal.Gen.hostOps0_2 (F := Ideal)) (after (Cert.KernelIdeal.Gen.hostOps0_1 (F := Ideal)) W)) (𝓚 Cert.KernelIdeal.main_v55) = W (𝓚 Cert.KernelIdeal.main_v55)
    ∧ after (Cert.KernelIdeal.Gen.hostOps0_3 (F := Ideal)) (after (Cert.KernelIdeal.Gen.hostOps0_2 (F := Ideal)) (after (Cert.KernelIdeal.Gen.hostOps0_1 (F := Ideal)) W)) (𝓚 Cert.KernelIdeal.main_v59) = W (𝓚 Cert.KernelIdeal.main_v59)
    ∧ after (Cert.KernelIdeal.Gen.hostOps0_3 (F := Ideal)) (after (Cert.KernelIdeal.Gen.hostOps0_2 (F := Ideal)) (after (Cert.KernelIdeal.Gen.hostOps0_1 (F := Ideal)) W)) (𝓚 Cert.KernelIdeal.main_v61) = W (𝓚 Cert.KernelIdeal.main_v61)
    ∧ after (Cert.KernelIdeal.Gen.hostOps0_3 (F := Ideal)) (after (Cert.KernelIdeal.Gen.hostOps0_2 (F := Ideal)) (after (Cert.KernelIdeal.Gen.hostOps0_1 (F := Ideal)) W)) (𝓚 Cert.KernelIdeal.main_v63) = W (𝓚 Cert.KernelIdeal.main_v63) := by
  simp only [Cert.KernelIdeal.Gen.hostOps0_1, Cert.KernelIdeal.Gen.hostOps0_2, Cert.KernelIdeal.Gen.hostOps0_3]
  after_results_simp
  repeat' apply And.intro
  all_goals trivial

set_option maxRecDepth 16384 in
set_option maxHeartbeats 8000000 in
/-- The reference's middle stretch writes neither `h` nor the destination index row. -/
theorem seg2_pass_R (W : RVal) :
    after (Cert.ReferenceIdeal.Table.seg2 (F := Ideal)) W (𝓡 Cert.ReferenceIdeal.main_v24) = W (𝓡 Cert.ReferenceIdeal.main_v24)
    ∧ after (Cert.ReferenceIdeal.Table.seg2 (F := Ideal)) W (𝓡 Cert.ReferenceIdeal.main_v63) = W (𝓡 Cert.ReferenceIdeal.main_v63) := by
  simp only [Cert.ReferenceIdeal.Table.seg2]
  after_results_simp
  repeat' apply And.intro
  all_goals trivial

end Cert.Agree

end
-- ==== Proof.BridgePrefix.lean ====
/-
  The shared prefix on the two programs' own launch contents: when the two memories agree on the arguments, the kernel
  program's region finds in `h`, the edge attributes, `m` and the two index rows exactly what the reference's prefix leaves
  there.
-/
import proofs.«415619_j30408368456386_1_alg».proof.Defs
import proofs.«415619_j30408368456386_1_alg».proof.Proof.AgreePrefix
import proofs.«415619_j30408368456386_1_alg».proof.Proof.AgreePass
import proofs.«415619_j30408368456386_1_alg».proof.Proof.KernelWeights

noncomputable section

namespace Cert.Agree

open Idealize.ShloMosaic Idealize.ShloMosaic.TcCoe Idealize.SL.Sem Idealize.ShloMosaic.StableHlo

local notation "𝓚" b => Proc.devRef (τ := Cert.KernelIdeal.τ) (sig := Cert.KernelIdeal.sig) Proc.tc b
local notation "𝓡" b => Proc.devRef (τ := Cert.ReferenceIdeal.τ) (sig := Cert.ReferenceIdeal.sig) Proc.tc b

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same arrays at the arguments, device by device and argument by argument. -/
def ArgsAgree : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)

/-- A device's launch contents in the kernel's program, and in the reference. -/
abbrev WK0 (c : Dev Cert.KernelIdeal.nD) : KVal := fun b => m (c, b)
abbrev WR0 (c : Dev Cert.KernelIdeal.nD) : RVal := launchContents m' c

/-- The prefix is its first nine operations and the rest. -/
theorem preK_cut (W : KVal) : after preK W = after (preK.drop 9) (after (preK.take 9) W) := by
  rw [← StableHlo.after_append, List.take_append_drop]
theorem preR_cut (W : RVal) : after preR W = after (preR.drop 9) (after (preR.take 9) W) := by
  rw [← StableHlo.after_append, List.take_append_drop]

/-- From launch contents that agree on the arguments the two prefixes leave the same `h`, edge attributes, `m` and
    index rows. -/
theorem prefix_vals (hag : ArgsAgree m m') (c : Dev Cert.KernelIdeal.nD) :
    (after preK (WK0 m c) (𝓚 Cert.KernelIdeal.main_v24) : Cert.KernelIdeal.S10000x256.Idx → EReal) = after preR (WR0 m' c) (𝓡 Cert.ReferenceIdeal.main_v24)
    ∧ (after preK (WK0 m c) (𝓚 Cert.KernelIdeal.main_v55) : Cert.KernelIdeal.S160000x256.Idx → EReal) = after preR (WR0 m' c) (𝓡 Cert.ReferenceIdeal.main_v55)
    ∧ (after preK (WK0 m c) (𝓚 Cert.KernelIdeal.main_v59) : Cert.KernelIdeal.S10000x256.Idx → EReal) = after preR (WR0 m' c) (𝓡 Cert.ReferenceIdeal.main_v59)
    ∧ (after preK (WK0 m c) (𝓚 Cert.KernelIdeal.main_v61) : Cert.KernelIdeal.S160000.Idx → BitVec 32) = after preR (WR0 m' c) (𝓡 Cert.ReferenceIdeal.main_v61)
    ∧ (after preK (WK0 m c) (𝓚 Cert.KernelIdeal.main_v63) : Cert.KernelIdeal.S160000.Idx → BitVec 32) = after preR (WR0 m' c) (𝓡 Cert.ReferenceIdeal.main_v63) := by
  obtain ⟨g0, g1, g2, g3, g4, g5, g6, g7, g8, g9, g10, g11, g12, g13, g14, g15, g16, g17, g18, g19, g20, g21, g22, g23, g24⟩ := hag c
  obtain ⟨k1, k2, k3, k4, k6, k7, k8, k9, k10, k11⟩ := take9_pass_K (WK0 m c)
  obtain ⟨r1, r2, r3, r4, r6, r7, r8, r9, r10, r11⟩ := take9_pass_R (WR0 m' c)
  have e6 := (emb_agree (WK0 m c) (WR0 m' c) (m ((c.tc : Thread Cert.KernelIdeal.nD Cert.KernelIdeal.τ).loc Cert.KernelIdeal.main_arg0)) (m ((c.tc : Thread Cert.KernelIdeal.nD Cert.KernelIdeal.τ).loc Cert.KernelIdeal.main_arg5)) rfl g0 rfl g5).symm
  rw [preK_cut, preR_cut]
  exact ⟨h_agree _ _ (x6 := after (preK.take 9) (WK0 m c) (𝓚 Cert.KernelIdeal.main_v6)) (kx6 := rfl) (rx6 := e6)
      (a1 := (m ((c.tc : Thread Cert.KernelIdeal.nD Cert.KernelIdeal.τ).loc Cert.KernelIdeal.main_arg1))) (ka1 := k1) (ra1 := r1.trans g1) (a6 := (m ((c.tc : Thread Cert.KernelIdeal.nD Cert.KernelIdeal.τ).loc Cert.KernelIdeal.main_arg6))) (ka6 := k6) (ra6 := r6.trans g6)
      (a7 := (m ((c.tc : Thread Cert.KernelIdeal.nD Cert.KernelIdeal.τ).loc Cert.KernelIdeal.main_arg7))) (ka7 := k7) (ra7 := r7.trans g7),
    attr_agree _ _ (a3 := (m ((c.tc : Thread Cert.KernelIdeal.nD Cert.KernelIdeal.τ).loc Cert.KernelIdeal.main_arg3))) (ka3 := k3) (ra3 := r3.trans g3) (a4 := (m ((c.tc : Thread Cert.KernelIdeal.nD Cert.KernelIdeal.τ).loc Cert.KernelIdeal.main_arg4))) (ka4 := k4) (ra4 := r4.trans g4)
      (a10 := (m ((c.tc : Thread Cert.KernelIdeal.nD Cert.KernelIdeal.τ).loc Cert.KernelIdeal.main_arg10))) (ka10 := k10) (ra10 := r10.trans g10) (a11 := (m ((c.tc : Thread Cert.KernelIdeal.nD Cert.KernelIdeal.τ).loc Cert.KernelIdeal.main_arg11))) (ka11 := k11) (ra11 := r11.trans g11),
    m_agree _ _ (x6 := after (preK.take 9) (WK0 m c) (𝓚 Cert.KernelIdeal.main_v6)) (kx6 := rfl) (rx6 := e6)
      (a1 := (m ((c.tc : Thread Cert.KernelIdeal.nD Cert.KernelIdeal.τ).loc Cert.KernelIdeal.main_arg1))) (ka1 := k1) (ra1 := r1.trans g1) (a6 := (m ((c.tc : Thread Cert.KernelIdeal.nD Cert.KernelIdeal.τ).loc Cert.KernelIdeal.main_arg6))) (ka6 := k6) (ra6 := r6.trans g6)
      (a7 := (m ((c.tc : Thread Cert.KernelIdeal.nD Cert.KernelIdeal.τ).loc Cert.KernelIdeal.main_arg7))) (ka7 := k7) (ra7 := r7.trans g7) (a8 := (m ((c.tc : Thread Cert.KernelIdeal.nD Cert.KernelIdeal.τ).loc Cert.KernelIdeal.main_arg8))) (ka8 := k8) (ra8 := r8.trans g8)
      (a9 := (m ((c.tc : Thread Cert.KernelIdeal.nD Cert.KernelIdeal.τ).loc Cert.KernelIdeal.main_arg9))) (ka9 := k9) (ra9 := r9.trans g9),
    src_agree _ _ (a2 := (m ((c.tc : Thread Cert.KernelIdeal.nD Cert.KernelIdeal.τ).loc Cert.KernelIdeal.main_arg2))) (ka2 := k2) (ra2 := r2.trans g2),
    dst_agree _ _ (a2 := (m ((c.tc : Thread Cert.KernelIdeal.nD Cert.KernelIdeal.τ).loc Cert.KernelIdeal.main_arg2))) (ka2 := k2) (ra2 := r2.trans g2)⟩

/-- What the kernel region finds in those five buffers is what the prefix left: the gathers and the weight slices that
    run between the prefix and the region write none of them. -/
theorem V_pre (c : Dev Cert.KernelIdeal.nD) :
    Cert.KernelIdeal.Gen.V (F := Ideal) m c Cert.KernelIdeal.main_v24 = after preK (WK0 m c) (𝓚 Cert.KernelIdeal.main_v24)
    ∧ Cert.KernelIdeal.Gen.V (F := Ideal) m c Cert.KernelIdeal.main_v55 = after preK (WK0 m c) (𝓚 Cert.KernelIdeal.main_v55)
    ∧ Cert.KernelIdeal.Gen.V (F := Ideal) m c Cert.KernelIdeal.main_v59 = after preK (WK0 m c) (𝓚 Cert.KernelIdeal.main_v59)
    ∧ Cert.KernelIdeal.Gen.V (F := Ideal) m c Cert.KernelIdeal.main_v61 = after preK (WK0 m c) (𝓚 Cert.KernelIdeal.main_v61)
    ∧ Cert.KernelIdeal.Gen.V (F := Ideal) m c Cert.KernelIdeal.main_v63 = after preK (WK0 m c) (𝓚 Cert.KernelIdeal.main_v63) := by
  obtain ⟨p24, p55, p59, p61, p63⟩ := stretches_pass_K (after preK (WK0 m c))
  refine ⟨?_, ?_, ?_, ?_, ?_⟩
  · show Cert.KernelIdeal.Gen.V0 (F := Ideal) m c (𝓚 Cert.KernelIdeal.main_v24) = _
    rw [Cert.KernelIdeal.Weights.V0_eq]; exact p24
  · show Cert.KernelIdeal.Gen.V0 (F := Ideal) m c (𝓚 Cert.KernelIdeal.main_v55) = _
    rw [Cert.KernelIdeal.Weights.V0_eq]; exact p55
  · show Cert.KernelIdeal.Gen.V0 (F := Ideal) m c (𝓚 Cert.KernelIdeal.main_v59) = _
    rw [Cert.KernelIdeal.Weights.V0_eq]; exact p59
  · show Cert.KernelIdeal.Gen.V0 (F := Ideal) m c (𝓚 Cert.KernelIdeal.main_v61) = _
    rw [Cert.KernelIdeal.Weights.V0_eq]; exact p61
  · show Cert.KernelIdeal.Gen.V0 (F := Ideal) m c (𝓚 Cert.KernelIdeal.main_v63) = _
    rw [Cert.KernelIdeal.Weights.V0_eq]; exact p63

end Cert.Agree

end
-- ==== Proof.BridgeMid.lean ====
/-
  The kernel region's output array is the reference's edge-network result. Row by row both are the edge network of that
  row of the gathered source messages, of the gathered destination messages and of the edge attributes: the kernel's
  gathers are plain gathers under the precondition on the edge index, the two programs gather from the same `m` at the
  same index rows, and the kernel's weight buffers are the weight arguments, the first matrix in its three row blocks.
-/
import proofs.«415619_j30408368456386_1_alg».proof.Defs
import proofs.«415619_j30408368456386_1_alg».proof.Proof.KernelArray
import proofs.«415619_j30408368456386_1_alg».proof.Proof.KernelWeights
import proofs.«415619_j30408368456386_1_alg».proof.Proof.TakeDecode
import proofs.«415619_j30408368456386_1_alg».proof.Proof.RefMid
import proofs.«415619_j30408368456386_1_alg».proof.Proof.RefFrame
import proofs.«415619_j30408368456386_1_alg».proof.Proof.BridgePrefix

noncomputable section

namespace Cert.Agree

open Idealize.ShloMosaic Idealize.ShloMosaic.TcCoe Idealize.SL.Sem Idealize.ShloMosaic.StableHlo
open Idealize.ShloMosaic.ValueIdx Cert.EdgeRow

local notation "𝓚" b => Proc.devRef (τ := Cert.KernelIdeal.τ) (sig := Cert.KernelIdeal.sig) Proc.tc b
local notation "𝓡" b => Proc.devRef (τ := Cert.ReferenceIdeal.τ) (sig := Cert.ReferenceIdeal.sig) Proc.tc b

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's contents after its prefix. -/
abbrev WP (c : Dev Cert.KernelIdeal.nD) : RVal := after preR (WR0 m' c)

/-- The reference's prefix leaves an argument as launched, and the launch contents agree with the kernel program's. -/
theorem WP_arg (c : Dev Cert.KernelIdeal.nD) (b : Ref Cert.ReferenceIdeal.sig .tc) (hb : b ∈ Cert.ReferenceIdeal.HandFrame.args) :
    WP m' c (𝓡 b) = m' ((c.tc : Thread Cert.ReferenceIdeal.nD Cert.ReferenceIdeal.τ).loc b) := by
  show after (Cert.ReferenceIdeal.Table.seg0 (F := Ideal) ++ Cert.ReferenceIdeal.Table.seg1 (F := Ideal)) (WR0 m' c) (𝓡 b) = _
  rw [StableHlo.after_append, Cert.ReferenceIdeal.HandFrame.after_of_keeps _ Cert.ReferenceIdeal.HandFrame.seg1_keeps _ b hb,
    Cert.ReferenceIdeal.HandFrame.after_of_keeps _ Cert.ReferenceIdeal.HandFrame.seg0_keeps _ b hb]

/-- The gathered source messages are the same array in the two programs; likewise the destination messages and the
    edge attributes. -/
theorem src_eq (hpre : Cert.Pre_KernelIdeal m) (hag : ArgsAgree m m') (c : Dev Cert.KernelIdeal.nD) :
    Cert.KernelIdeal.EdgeArr.srcArr m c = Cert.ReferenceIdeal.Mid.gatherRows (WP m' c (𝓡 Cert.ReferenceIdeal.main_v59)) (WP m' c (𝓡 Cert.ReferenceIdeal.main_v61)) := by
  obtain ⟨_, _, p59, p61, _⟩ := prefix_vals m m' hag c
  obtain ⟨_, _, v59, v61, _⟩ := V_pre m c
  show (Cert.KernelIdeal.Gen.V (F := Ideal) m c Cert.KernelIdeal.main_v64 : Cert.KernelIdeal.S160000x256.Idx → EReal) = _
  rw [Cert.KernelIdeal.Take.take0 m hpre c, v59, v61, p59, p61]
  rfl

theorem dst_eq (hpre : Cert.Pre_KernelIdeal m) (hag : ArgsAgree m m') (c : Dev Cert.KernelIdeal.nD) :
    Cert.KernelIdeal.EdgeArr.dstArr m c = Cert.ReferenceIdeal.Mid.gatherRows (WP m' c (𝓡 Cert.ReferenceIdeal.main_v59)) (WP m' c (𝓡 Cert.ReferenceIdeal.main_v63)) := by
  obtain ⟨_, _, p59, _, p63⟩ := prefix_vals m m' hag c
  obtain ⟨_, _, v59, _, v63⟩ := V_pre m c
  show (Cert.KernelIdeal.Gen.V (F := Ideal) m c Cert.KernelIdeal.main_v65 : Cert.KernelIdeal.S160000x256.Idx → EReal) = _
  rw [Cert.KernelIdeal.Take.take1 m hpre c, v59, v63, p59, p63]
  rfl

theorem attr_eq (hag : ArgsAgree m m') (c : Dev Cert.KernelIdeal.nD) :
    Cert.KernelIdeal.EdgeArr.attrArr m c = WP m' c (𝓡 Cert.ReferenceIdeal.main_v55) := by
  obtain ⟨_, p55, _, _, _⟩ := prefix_vals m m' hag c
  obtain ⟨_, v55, _, _, _⟩ := V_pre m c
  show (Cert.KernelIdeal.Gen.V (F := Ideal) m c Cert.KernelIdeal.main_v55 : Cert.KernelIdeal.S160000x256.Idx → EReal) = _
  rw [v55, p55]

/-- The region's output array after the run is what the reference's middle stretch leaves in its last buffer. -/
theorem mid_agree (hpre : Cert.Pre_KernelIdeal m) (hag : ArgsAgree m m') (c : Dev Cert.KernelIdeal.nD) :
    (Cert.KernelIdeal.EdgeArr.outArr m c : Cert.KernelIdeal.S160000x256.Idx → EReal)
      = after (Cert.ReferenceIdeal.Table.seg2 (F := Ideal)) (WP m' c) (𝓡 Cert.ReferenceIdeal.main_v97) := by
  obtain ⟨g0, g1, g2, g3, g4, g5, g6, g7, g8, g9, g10, g11, g12, g13, g14, g15, g16, g17, g18, g19, g20, g21, g22, g23, g24⟩ := hag c
  have h13 : (WP m' c (𝓡 Cert.ReferenceIdeal.main_arg13) : Cert.KernelIdeal.S768x256.Idx → EReal) = m ((c.tc : Thread Cert.KernelIdeal.nD Cert.KernelIdeal.τ).loc Cert.KernelIdeal.main_arg13) := (WP_arg m' c _ (by decide)).trans g13
  have h14 : (WP m' c (𝓡 Cert.ReferenceIdeal.main_arg14) : Cert.KernelIdeal.S256.Idx → EReal) = m ((c.tc : Thread Cert.KernelIdeal.nD Cert.KernelIdeal.τ).loc Cert.KernelIdeal.main_arg14) := (WP_arg m' c _ (by decide)).trans g14
  have h15 : (WP m' c (𝓡 Cert.ReferenceIdeal.main_arg15) : Cert.KernelIdeal.S256x256.Idx → EReal) = m ((c.tc : Thread Cert.KernelIdeal.nD Cert.KernelIdeal.τ).loc Cert.KernelIdeal.main_arg15) := (WP_arg m' c _ (by decide)).trans g15
  have h16 : (WP m' c (𝓡 Cert.ReferenceIdeal.main_arg16) : Cert.KernelIdeal.S256.Idx → EReal) = m ((c.tc : Thread Cert.KernelIdeal.nD Cert.KernelIdeal.τ).loc Cert.KernelIdeal.main_arg16) := (WP_arg m' c _ (by decide)).trans g16
  have h17 : (WP m' c (𝓡 Cert.ReferenceIdeal.main_arg17) : Cert.KernelIdeal.S256x256.Idx → EReal) = m ((c.tc : Thread Cert.KernelIdeal.nD Cert.KernelIdeal.τ).loc Cert.KernelIdeal.main_arg17) := (WP_arg m' c _ (by decide)).trans g17
  have h18 : (WP m' c (𝓡 Cert.ReferenceIdeal.main_arg18) : Cert.KernelIdeal.S256.Idx → EReal) = m ((c.tc : Thread Cert.KernelIdeal.nD Cert.KernelIdeal.τ).loc Cert.KernelIdeal.main_arg18) := (WP_arg m' c _ (by decide)).trans g18
  have h19 : (WP m' c (𝓡 Cert.ReferenceIdeal.main_arg19) : Cert.KernelIdeal.S256x256.Idx → EReal) = m ((c.tc : Thread Cert.KernelIdeal.nD Cert.KernelIdeal.τ).loc Cert.KernelIdeal.main_arg19) := (WP_arg m' c _ (by decide)).trans g19
  have h20 : (WP m' c (𝓡 Cert.ReferenceIdeal.main_arg20) : Cert.KernelIdeal.S256.Idx → EReal) = m ((c.tc : Thread Cert.KernelIdeal.nD Cert.KernelIdeal.τ).loc Cert.KernelIdeal.main_arg20) := (WP_arg m' c _ (by decide)).trans g20
  have w := Cert.KernelIdeal.Weights.weights_apply m c
  have e1 : (fun k j => Cert.KernelIdeal.EdgeArr.w1aArr m c (ix2 k j))
      = rowBlock (fun k j => (m ((c.tc : Thread Cert.KernelIdeal.nD Cert.KernelIdeal.τ).loc Cert.KernelIdeal.main_arg13) : Cert.KernelIdeal.S768x256.Idx → EReal) (ix2 k j)) 0 :=
    funext fun k => funext fun j => (w k j).1.trans
      (congrArg (fun a : Fin 768 => (m ((c.tc : Thread Cert.KernelIdeal.nD Cert.KernelIdeal.τ).loc Cert.KernelIdeal.main_arg13) : Cert.KernelIdeal.S768x256.Idx → EReal) (ix2 a j)) (Fin.ext (by show k.val = 256 * 0 + k.val; omega)))
  have e2 : (fun k j => Cert.KernelIdeal.EdgeArr.w1bArr m c (ix2 k j))
      = rowBlock (fun k j => (m ((c.tc : Thread Cert.KernelIdeal.nD Cert.KernelIdeal.τ).loc Cert.KernelIdeal.main_arg13) : Cert.KernelIdeal.S768x256.Idx → EReal) (ix2 k j)) 1 :=
    funext fun k => funext fun j => (w k j).2.1.trans
      (congrArg (fun a : Fin 768 => (m ((c.tc : Thread Cert.KernelIdeal.nD Cert.KernelIdeal.τ).loc Cert.KernelIdeal.main_arg13) : Cert.KernelIdeal.S768x256.Idx → EReal) (ix2 a j)) (Fin.ext (by show 256 + k.val = 256 * 1 + k.val; omega)))
  have e3 : (fun k j => Cert.KernelIdeal.EdgeArr.w1cArr m c (ix2 k j))
      = rowBlock (fun k j => (m ((c.tc : Thread Cert.KernelIdeal.nD Cert.KernelIdeal.τ).loc Cert.KernelIdeal.main_arg13) : Cert.KernelIdeal.S768x256.Idx → EReal) (ix2 k j)) 2 :=
    funext fun k => funext fun j => (w k j).2.2.1.trans
      (congrArg (fun a : Fin 768 => (m ((c.tc : Thread Cert.KernelIdeal.nD Cert.KernelIdeal.τ).loc Cert.KernelIdeal.main_arg13) : Cert.KernelIdeal.S768x256.Idx → EReal) (ix2 a j)) (Fin.ext (by show 512 + k.val = 256 * 2 + k.val; omega)))
  have e5 : (fun k j => Cert.KernelIdeal.EdgeArr.w2Arr m c (ix2 k j)) = fun k j => (m ((c.tc : Thread Cert.KernelIdeal.nD Cert.KernelIdeal.τ).loc Cert.KernelIdeal.main_arg15) : Cert.KernelIdeal.S256x256.Idx → EReal) (ix2 k j) :=
    funext fun k => funext fun j => (w k j).2.2.2.1
  have e7 : (fun k j => Cert.KernelIdeal.EdgeArr.w3Arr m c (ix2 k j)) = fun k j => (m ((c.tc : Thread Cert.KernelIdeal.nD Cert.KernelIdeal.τ).loc Cert.KernelIdeal.main_arg17) : Cert.KernelIdeal.S256x256.Idx → EReal) (ix2 k j) :=
    funext fun k => funext fun j => (w k j).2.2.2.2.1
  have e9 : (fun k j => Cert.KernelIdeal.EdgeArr.w4Arr m c (ix2 k j)) = fun k j => (m ((c.tc : Thread Cert.KernelIdeal.nD Cert.KernelIdeal.τ).loc Cert.KernelIdeal.main_arg19) : Cert.KernelIdeal.S256x256.Idx → EReal) (ix2 k j) :=
    funext fun k => funext fun j => (w k j).2.2.2.2.2
  have e4 : Cert.KernelIdeal.EdgeArr.b1Arr m c = m ((c.tc : Thread Cert.KernelIdeal.nD Cert.KernelIdeal.τ).loc Cert.KernelIdeal.main_arg14) := Cert.KernelIdeal.Gen.V_main_arg14 m c
  have e6 : Cert.KernelIdeal.EdgeArr.b2Arr m c = m ((c.tc : Thread Cert.KernelIdeal.nD Cert.KernelIdeal.τ).loc Cert.KernelIdeal.main_arg16) := Cert.KernelIdeal.Gen.V_main_arg16 m c
  have e8 : Cert.KernelIdeal.EdgeArr.b3Arr m c = m ((c.tc : Thread Cert.KernelIdeal.nD Cert.KernelIdeal.τ).loc Cert.KernelIdeal.main_arg18) := Cert.KernelIdeal.Gen.V_main_arg18 m c
  have e10 : Cert.KernelIdeal.EdgeArr.b4Arr m c = m ((c.tc : Thread Cert.KernelIdeal.nD Cert.KernelIdeal.τ).loc Cert.KernelIdeal.main_arg20) := Cert.KernelIdeal.Gen.V_main_arg20 m c
  funext i
  obtain ⟨e, j, rfl⟩ : ∃ (e : Fin 160000) (j : Fin 256), i = ix2 e j := ⟨i 0, i 1, eq_ix2 i⟩
  rw [Cert.KernelIdeal.EdgeArr.outArr_apply, e1, e2, e3, e4, e5, e6, e7, e8, e9, e10, src_eq m m' hpre hag c, dst_eq m m' hpre hag c,
    attr_eq m m' hag c]
  refine Eq.trans ?_ (congrFun (Cert.ReferenceIdeal.Mid.mid_read (WP m' c)).symm (ix2 e j))
  rw [Cert.ReferenceIdeal.EdgeRow.refMlp_apply, h13, h14, h15, h16, h17, h18, h19, h20]

end Cert.Agree

end
-- ==== Proof.AgreeTail.lean ====
/-
  The two programs end with the same host operations: the per-edge messages scatter-added into their destination nodes,
  the message-to-node product added to `h`, and the residual fully connected block. Run from contents that hold the same
  per-edge messages, the same `h`, the same destination index row and the same weights, both leave the same result.
-/
import proofs.«415619_j30408368456386_1_alg».proof.Proof.Gen.KernelIdeal.Frame
import proofs.«415619_j30408368456386_1_alg».proof.Proof.RefRun
import Idealize.ShloMosaic.PureOps.Ideal

noncomputable section

namespace Cert.Agree

open Idealize.ShloMosaic Idealize.ShloMosaic.TcCoe Idealize.SL.Sem Idealize.ShloMosaic.StableHlo

local notation "𝓚" b => Proc.devRef (τ := Cert.KernelIdeal.τ) (sig := Cert.KernelIdeal.sig) Proc.tc b
local notation "𝓡" b => Proc.devRef (τ := Cert.ReferenceIdeal.τ) (sig := Cert.ReferenceIdeal.sig) Proc.tc b

set_option maxRecDepth 16384 in
set_option maxHeartbeats 16000000 in
/-- The operations after the edge network, from contents holding the same arrays at what they read: the same result. -/
theorem tail_agree (WK : Valuation Cert.KernelIdeal.τ Cert.KernelIdeal.sig (Elt Ideal)) (WR : Valuation Cert.ReferenceIdeal.τ Cert.ReferenceIdeal.sig (Elt Ideal))
    (mij : Cert.KernelIdeal.S160000x256.Idx → EReal) (h : Cert.KernelIdeal.S10000x256.Idx → EReal) (dst : Cert.KernelIdeal.S160000.Idx → BitVec 32)
    (a12 : Cert.KernelIdeal.S256x256.Idx → EReal) (a21 : Cert.KernelIdeal.S256x256.Idx → EReal) (a22 : Cert.KernelIdeal.S256.Idx → EReal)
    (a23 : Cert.KernelIdeal.S256x256.Idx → EReal) (a24 : Cert.KernelIdeal.S256.Idx → EReal)
    (kmij : WK (𝓚 Cert.KernelIdeal.main_v75) = mij) (rmij : WR (𝓡 Cert.ReferenceIdeal.main_v97) = mij)
    (kh : WK (𝓚 Cert.KernelIdeal.main_v24) = h) (rh : WR (𝓡 Cert.ReferenceIdeal.main_v24) = h)
    (kdst : WK (𝓚 Cert.KernelIdeal.main_v63) = dst) (rdst : WR (𝓡 Cert.ReferenceIdeal.main_v63) = dst)
    (k12 : WK (𝓚 Cert.KernelIdeal.main_arg12) = a12) (r12 : WR (𝓡 Cert.ReferenceIdeal.main_arg12) = a12)
    (k21 : WK (𝓚 Cert.KernelIdeal.main_arg21) = a21) (r21 : WR (𝓡 Cert.ReferenceIdeal.main_arg21) = a21)
    (k22 : WK (𝓚 Cert.KernelIdeal.main_arg22) = a22) (r22 : WR (𝓡 Cert.ReferenceIdeal.main_arg22) = a22)
    (k23 : WK (𝓚 Cert.KernelIdeal.main_arg23) = a23) (r23 : WR (𝓡 Cert.ReferenceIdeal.main_arg23) = a23)
    (k24 : WK (𝓚 Cert.KernelIdeal.main_arg24) = a24) (r24 : WR (𝓡 Cert.ReferenceIdeal.main_arg24) = a24) :
    (after (Cert.KernelIdeal.Gen.hostOps1 (F := Ideal)) WK (𝓚 Cert.KernelIdeal.main_v102) : Cert.KernelIdeal.S10000x256.Idx → EReal)
      = after (Cert.ReferenceIdeal.Table.seg3 (F := Ideal) ++ Cert.ReferenceIdeal.Table.seg4 (F := Ideal)) WR (𝓡 Cert.ReferenceIdeal.main_v124) := by
  simp only [Cert.KernelIdeal.Gen.hostOps1, Cert.ReferenceIdeal.Table.seg3, Cert.ReferenceIdeal.Table.seg4, List.cons_append, List.nil_append]
  after_results_simp
  simp only [kmij, rmij, kh, rh, kdst, rdst, k12, r12, k21, r21, k22, r22, k23, r23, k24, r24]
  rfl

end Cert.Agree

end
-- ==== Proof.BridgeFinal.lean ====
/-
  The two programs end with the same result. After the kernel region the kernel's program holds the edge network's
  output in the region's output array and everything else as the region found it; the reference holds the same array
  after its middle stretch (the row-by-row argument), the same `h` and destination index row after its prefix, and the
  same weights. The operations that follow are the same in the two programs, so the results are equal; with the two
  programs' runs this is the equivalence claim.
-/
import proofs.«415619_j30408368456386_1_alg».proof.Defs
import proofs.«415619_j30408368456386_1_alg».proof.Proof.BridgeMid
import proofs.«415619_j30408368456386_1_alg».proof.Proof.AgreeTail
import proofs.«415619_j30408368456386_1_alg».proof.Proof.AgreePass

noncomputable section

namespace Cert.Agree

open Idealize.ShloMosaic Idealize.ShloMosaic.TcCoe Idealize.SL.Sem Idealize.ShloMosaic.StableHlo
open Cert.KernelIdeal Cert.KernelIdeal.Gen

local notation "𝓚" b => Proc.devRef (τ := Cert.KernelIdeal.τ) (sig := Cert.KernelIdeal.sig) Proc.tc b
local notation "𝓡" b => Proc.devRef (τ := Cert.ReferenceIdeal.τ) (sig := Cert.ReferenceIdeal.sig) Proc.tc b

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- What the kernel's program holds when the region has run: the pipeline's arrays as the run left them, every other
    buffer as the region found it. -/
abbrev afterRegion (c : Dev nD) : KVal :=
  Pipeline.withArrays spec0 c (V0 (F := Ideal) m c) fun w => (dats (F := Ideal) m 0 c).arrAt w cfg0.N

/-- The reference's operations are its prefix, its middle stretch and the shared tail. -/
theorem ref_cut (c : Dev nD) :
    after (Cert.ReferenceIdeal.HandRun.ops (F := Ideal)) (WR0 m' c)
      = after (Cert.ReferenceIdeal.Table.seg3 (F := Ideal) ++ Cert.ReferenceIdeal.Table.seg4 (F := Ideal)) (after (Cert.ReferenceIdeal.Table.seg2 (F := Ideal)) (WP m' c)) := by
  rw [Cert.ReferenceIdeal.HandRun.after_ops, StableHlo.after_append]
  show _ = after Cert.ReferenceIdeal.Table.seg4 (after Cert.ReferenceIdeal.Table.seg3 (after Cert.ReferenceIdeal.Table.seg2
    (after (Cert.ReferenceIdeal.Table.seg0 (F := Ideal) ++ Cert.ReferenceIdeal.Table.seg1 (F := Ideal)) (WR0 m' c))))
  rw [StableHlo.after_append]

/-- The result buffers hold the same array. -/
theorem result_agree (hpre : Cert.Pre_KernelIdeal m) (hag : ArgsAgree m m') (c : Dev nD) :
    (after (Cert.ReferenceIdeal.HandRun.ops (F := Ideal)) (WR0 m' c) (𝓡 Cert.ReferenceIdeal.main_v124) : S10000x256.Idx → EReal)
      = Pipeline.afterTail₀ cfgs (dats (F := Ideal) m) 0 (V0 (F := Ideal) m) [hostOps1] c main_v102 := by
  obtain ⟨g0, g1, g2, g3, g4, g5, g6, g7, g8, g9, g10, g11, g12, g13, g14, g15, g16, g17, g18, g19, g20, g21, g22, g23, g24⟩ := hag c
  obtain ⟨p24, _, _, _, p63⟩ := prefix_vals m m' hag c
  obtain ⟨v24, _, _, _, v63⟩ := V_pre m c
  obtain ⟨s24, s63⟩ := seg2_pass_R (WP m' c)
  have key := tail_agree (afterRegion m c) (after (Cert.ReferenceIdeal.Table.seg2 (F := Ideal)) (WP m' c))
    (Cert.KernelIdeal.EdgeArr.outArr m c) (V (F := Ideal) m c main_v24) (V (F := Ideal) m c main_v63)
    (m ((c.tc : Thread nD τ).loc main_arg12)) (m ((c.tc : Thread nD τ).loc main_arg21)) (m ((c.tc : Thread nD τ).loc main_arg22))
    (m ((c.tc : Thread nD τ).loc main_arg23)) (m ((c.tc : Thread nD τ).loc main_arg24))
    (Pipeline.withArrays_arr spec0 winFacts0.arr_inj c _ _ 13)
    (mid_agree m m' hpre hag c).symm
    (Pipeline.withArrays_of_ne spec0 c _ _ main_v24 (by decide))
    (s24.trans (p24.symm.trans v24.symm))
    (Pipeline.withArrays_of_ne spec0 c _ _ main_v63 (by decide))
    (s63.trans (p63.symm.trans v63.symm))
    ((Pipeline.withArrays_of_ne spec0 c _ _ main_arg12 (by decide)).trans (V_main_arg12 m c))
    ((Cert.ReferenceIdeal.HandFrame.after_of_keeps _ Cert.ReferenceIdeal.HandFrame.seg2_keeps _ _ (by decide)).trans ((WP_arg m' c _ (by decide)).trans g12))
    ((Pipeline.withArrays_of_ne spec0 c _ _ main_arg21 (by decide)).trans (V_main_arg21 m c))
    ((Cert.ReferenceIdeal.HandFrame.after_of_keeps _ Cert.ReferenceIdeal.HandFrame.seg2_keeps _ _ (by decide)).trans ((WP_arg m' c _ (by decide)).trans g21))
    ((Pipeline.withArrays_of_ne spec0 c _ _ main_arg22 (by decide)).trans (V_main_arg22 m c))
    ((Cert.ReferenceIdeal.HandFrame.after_of_keeps _ Cert.ReferenceIdeal.HandFrame.seg2_keeps _ _ (by decide)).trans ((WP_arg m' c _ (by decide)).trans g22))
    ((Pipeline.withArrays_of_ne spec0 c _ _ main_arg23 (by decide)).trans (V_main_arg23 m c))
    ((Cert.ReferenceIdeal.HandFrame.after_of_keeps _ Cert.ReferenceIdeal.HandFrame.seg2_keeps _ _ (by decide)).trans ((WP_arg m' c _ (by decide)).trans g23))
    ((Pipeline.withArrays_of_ne spec0 c _ _ main_arg24 (by decide)).trans (V_main_arg24 m c))
    ((Cert.ReferenceIdeal.HandFrame.after_of_keeps _ Cert.ReferenceIdeal.HandFrame.seg2_keeps _ _ (by decide)).trans ((WP_arg m' c _ (by decide)).trans g24))
  rw [ref_cut]
  unfold Pipeline.afterTail₀
  simp only [List.flatten_cons, List.flatten_nil, List.append_nil]
  exact key.symm

/-- The kernel's program runs, and ends with its result buffer at the tail's fold over what the region left and with its
    arguments as launched. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v102)
          = Pipeline.afterTail₀ cfgs (dats (F := Ideal) m) 0 (V0 (F := Ideal) m) [hostOps1] c main_v102
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c =>
    ⟨(h c).2 main_v102 (Pipeline.mem_restRefs_of main_v102 (by decide) (by decide)),
      ((h c).2 main_arg0 (Pipeline.mem_restRefs_of main_arg0 (by decide) (by decide))).trans (W_main_arg0 m (dats (F := Ideal) m) c),
      ((h c).2 main_arg1 (Pipeline.mem_restRefs_of main_arg1 (by decide) (by decide))).trans (W_main_arg1 m (dats (F := Ideal) m) c),
      ((h c).2 main_arg2 (Pipeline.mem_restRefs_of main_arg2 (by decide) (by decide))).trans (W_main_arg2 m (dats (F := Ideal) m) c),
      ((h c).2 main_arg3 (Pipeline.mem_restRefs_of main_arg3 (by decide) (by decide))).trans (W_main_arg3 m (dats (F := Ideal) m) c),
      ((h c).2 main_arg4 (Pipeline.mem_restRefs_of main_arg4 (by decide) (by decide))).trans (W_main_arg4 m (dats (F := Ideal) m) c),
      ((h c).2 main_arg5 (Pipeline.mem_restRefs_of main_arg5 (by decide) (by decide))).trans (W_main_arg5 m (dats (F := Ideal) m) c),
      ((h c).2 main_arg6 (Pipeline.mem_restRefs_of main_arg6 (by decide) (by decide))).trans (W_main_arg6 m (dats (F := Ideal) m) c),
      ((h c).2 main_arg7 (Pipeline.mem_restRefs_of main_arg7 (by decide) (by decide))).trans (W_main_arg7 m (dats (F := Ideal) m) c),
      ((h c).2 main_arg8 (Pipeline.mem_restRefs_of main_arg8 (by decide) (by decide))).trans (W_main_arg8 m (dats (F := Ideal) m) c),
      ((h c).2 main_arg9 (Pipeline.mem_restRefs_of main_arg9 (by decide) (by decide))).trans (W_main_arg9 m (dats (F := Ideal) m) c),
      ((h c).2 main_arg10 (Pipeline.mem_restRefs_of main_arg10 (by decide) (by decide))).trans (W_main_arg10 m (dats (F := Ideal) m) c),
      ((h c).2 main_arg11 (Pipeline.mem_restRefs_of main_arg11 (by decide) (by decide))).trans (W_main_arg11 m (dats (F := Ideal) m) c),
      ((h c).2 main_arg12 (Pipeline.mem_restRefs_of main_arg12 (by decide) (by decide))).trans (W_main_arg12 m (dats (F := Ideal) m) c),
      ((h c).2 main_arg13 (Pipeline.mem_restRefs_of main_arg13 (by decide) (by decide))).trans (W_main_arg13 m (dats (F := Ideal) m) c),
      ((h c).1 6).trans (((dats (F := Ideal) m 0 c).arrAt_in 6 rfl _).trans ((A_eq m c 6).trans (V_main_arg14 m c))),
      ((h c).2 main_arg15 (Pipeline.mem_restRefs_of main_arg15 (by decide) (by decide))).trans (W_main_arg15 m (dats (F := Ideal) m) c),
      ((h c).1 8).trans (((dats (F := Ideal) m 0 c).arrAt_in 8 rfl _).trans ((A_eq m c 8).trans (V_main_arg16 m c))),
      ((h c).2 main_arg17 (Pipeline.mem_restRefs_of main_arg17 (by decide) (by decide))).trans (W_main_arg17 m (dats (F := Ideal) m) c),
      ((h c).1 10).trans (((dats (F := Ideal) m 0 c).arrAt_in 10 rfl _).trans ((A_eq m c 10).trans (V_main_arg18 m c))),
      ((h c).2 main_arg19 (Pipeline.mem_restRefs_of main_arg19 (by decide) (by decide))).trans (W_main_arg19 m (dats (F := Ideal) m) c),
      ((h c).1 12).trans (((dats (F := Ideal) m 0 c).arrAt_in 12 rfl _).trans ((A_eq m c 12).trans (V_main_arg20 m c))),
      ((h c).2 main_arg21 (Pipeline.mem_restRefs_of main_arg21 (by decide) (by decide))).trans (W_main_arg21 m (dats (F := Ideal) m) c),
      ((h c).2 main_arg22 (Pipeline.mem_restRefs_of main_arg22 (by decide) (by decide))).trans (W_main_arg22 m (dats (F := Ideal) m) c),
      ((h c).2 main_arg23 (Pipeline.mem_restRefs_of main_arg23 (by decide) (by decide))).trans (W_main_arg23 m (dats (F := Ideal) m) c),
      ((h c).2 main_arg24 (Pipeline.mem_restRefs_of main_arg24 (by decide) (by decide))).trans (W_main_arg24 m (dats (F := Ideal) m) c)⟩) (run_main (F := Ideal) m ρ)

/-- The idealized kernel program and the idealized reference, run from memories that agree on the arguments, end with
    equal results and unchanged arguments. -/
theorem algebraic : Cert.algebraic_KernelIdeal_ReferenceIdeal := by
  intro m ρ m' ρ' hpre hag
  refine ⟨fun c => Pipeline.afterTail₀ cfgs (dats (F := Ideal) m) 0 (V0 (F := Ideal) m) [hostOps1] c main_v102,
    kernel_run m ρ, ?_⟩
  exact (θ_run Cert.ReferenceIdeal.defs _ _).mono (fun _ h c =>
    ⟨(h c Cert.ReferenceIdeal.main_v124).trans (result_agree m m' hpre hag c),
      (h c Cert.ReferenceIdeal.main_arg0).trans (Cert.ReferenceIdeal.HandFrame.arg_kept Ideal _ Cert.ReferenceIdeal.main_arg0 (by decide)),
      (h c Cert.ReferenceIdeal.main_arg1).trans (Cert.ReferenceIdeal.HandFrame.arg_kept Ideal _ Cert.ReferenceIdeal.main_arg1 (by decide)),
      (h c Cert.ReferenceIdeal.main_arg2).trans (Cert.ReferenceIdeal.HandFrame.arg_kept Ideal _ Cert.ReferenceIdeal.main_arg2 (by decide)),
      (h c Cert.ReferenceIdeal.main_arg3).trans (Cert.ReferenceIdeal.HandFrame.arg_kept Ideal _ Cert.ReferenceIdeal.main_arg3 (by decide)),
      (h c Cert.ReferenceIdeal.main_arg4).trans (Cert.ReferenceIdeal.HandFrame.arg_kept Ideal _ Cert.ReferenceIdeal.main_arg4 (by decide)),
      (h c Cert.ReferenceIdeal.main_arg5).trans (Cert.ReferenceIdeal.HandFrame.arg_kept Ideal _ Cert.ReferenceIdeal.main_arg5 (by decide)),
      (h c Cert.ReferenceIdeal.main_arg6).trans (Cert.ReferenceIdeal.HandFrame.arg_kept Ideal _ Cert.ReferenceIdeal.main_arg6 (by decide)),
      (h c Cert.ReferenceIdeal.main_arg7).trans (Cert.ReferenceIdeal.HandFrame.arg_kept Ideal _ Cert.ReferenceIdeal.main_arg7 (by decide)),
      (h c Cert.ReferenceIdeal.main_arg8).trans (Cert.ReferenceIdeal.HandFrame.arg_kept Ideal _ Cert.ReferenceIdeal.main_arg8 (by decide)),
      (h c Cert.ReferenceIdeal.main_arg9).trans (Cert.ReferenceIdeal.HandFrame.arg_kept Ideal _ Cert.ReferenceIdeal.main_arg9 (by decide)),
      (h c Cert.ReferenceIdeal.main_arg10).trans (Cert.ReferenceIdeal.HandFrame.arg_kept Ideal _ Cert.ReferenceIdeal.main_arg10 (by decide)),
      (h c Cert.ReferenceIdeal.main_arg11).trans (Cert.ReferenceIdeal.HandFrame.arg_kept Ideal _ Cert.ReferenceIdeal.main_arg11 (by decide)),
      (h c Cert.ReferenceIdeal.main_arg12).trans (Cert.ReferenceIdeal.HandFrame.arg_kept Ideal _ Cert.ReferenceIdeal.main_arg12 (by decide)),
      (h c Cert.ReferenceIdeal.main_arg13).trans (Cert.ReferenceIdeal.HandFrame.arg_kept Ideal _ Cert.ReferenceIdeal.main_arg13 (by decide)),
      (h c Cert.ReferenceIdeal.main_arg14).trans (Cert.ReferenceIdeal.HandFrame.arg_kept Ideal _ Cert.ReferenceIdeal.main_arg14 (by decide)),
      (h c Cert.ReferenceIdeal.main_arg15).trans (Cert.ReferenceIdeal.HandFrame.arg_kept Ideal _ Cert.ReferenceIdeal.main_arg15 (by decide)),
      (h c Cert.ReferenceIdeal.main_arg16).trans (Cert.ReferenceIdeal.HandFrame.arg_kept Ideal _ Cert.ReferenceIdeal.main_arg16 (by decide)),
      (h c Cert.ReferenceIdeal.main_arg17).trans (Cert.ReferenceIdeal.HandFrame.arg_kept Ideal _ Cert.ReferenceIdeal.main_arg17 (by decide)),
      (h c Cert.ReferenceIdeal.main_arg18).trans (Cert.ReferenceIdeal.HandFrame.arg_kept Ideal _ Cert.ReferenceIdeal.main_arg18 (by decide)),
      (h c Cert.ReferenceIdeal.main_arg19).trans (Cert.ReferenceIdeal.HandFrame.arg_kept Ideal _ Cert.ReferenceIdeal.main_arg19 (by decide)),
      (h c Cert.ReferenceIdeal.main_arg20).trans (Cert.ReferenceIdeal.HandFrame.arg_kept Ideal _ Cert.ReferenceIdeal.main_arg20 (by decide)),
      (h c Cert.ReferenceIdeal.main_arg21).trans (Cert.ReferenceIdeal.HandFrame.arg_kept Ideal _ Cert.ReferenceIdeal.main_arg21 (by decide)),
      (h c Cert.ReferenceIdeal.main_arg22).trans (Cert.ReferenceIdeal.HandFrame.arg_kept Ideal _ Cert.ReferenceIdeal.main_arg22 (by decide)),
      (h c Cert.ReferenceIdeal.main_arg23).trans (Cert.ReferenceIdeal.HandFrame.arg_kept Ideal _ Cert.ReferenceIdeal.main_arg23 (by decide)),
      (h c Cert.ReferenceIdeal.main_arg24).trans (Cert.ReferenceIdeal.HandFrame.arg_kept Ideal _ Cert.ReferenceIdeal.main_arg24 (by decide))⟩) (Cert.ReferenceIdeal.HandRun.run (F := Ideal) m' ρ')

end Cert.Agree

end
-- ==== Proof.lean ====
/-
  The certificate of the edge-network kernel against its jnp reference.

  Both programs compute one message-passing step of a graph network over 10000 nodes and 160000 edges. They share every
  operation before and after the edge network: the atom embedding and the embedding block `h`, the Bessel radial basis and
  the edge attributes, the node-to-message transform `m`, and afterwards the scatter-add of the per-edge messages into
  their destination nodes, the message-to-node product and the residual fully connected block. They differ in the edge
  network itself. The reference gathers `m` at the source and at the destination indices, concatenates the two with the
  edge attributes into 768 columns and applies four dense layers with a leaky rectifier after each of the first three.
  The kernel's program gathers with a fill value for out-of-range indices, splits the first weight matrix into its three
  blocks of 256 rows, and runs the four layers in one kernel region over blocks of 4000 edges, its matrix products taken
  in bf16.

  At the extended reals the bf16 truncations are the identity, and the first layer's sum over 768 columns is the sum of the
  three sums over 256 columns (associativity and commutativity of addition only: no finiteness is used). Every operation of the
  edge network acts row by row, so the kernel's block value and the reference's array are, at row `e`, one function of row
  `e` of the gathered messages and of the edge attributes (`Cert.EdgeRow.rowMlp`). The two gathers agree because the
  precondition puts every entry of the edge index in [-10000, 10000): there the kernel's in-range mask is all ones and its
  gather is the reference's. The shared operations are compared as operations: read back from contents that hold the same
  arrays, the two programs' terms are the same.

  The frames of the two kernel programs are the generated ones; the reference is a host program, whose run is its 166
  operations in sequence, and none of them writes an argument. The idealization rewrote no operation, so `preserves` is `True`.
-/
import proofs.«415619_j30408368456386_1_alg».proof.Defs
import proofs.«415619_j30408368456386_1_alg».proof.Proof.Gen.Kernel
import proofs.«415619_j30408368456386_1_alg».proof.Proof.Gen.Kernel.Frame
import proofs.«415619_j30408368456386_1_alg».proof.Proof.Gen.KernelIdeal
import proofs.«415619_j30408368456386_1_alg».proof.Proof.Gen.KernelIdeal.Frame
import proofs.«415619_j30408368456386_1_alg».proof.Proof.Gen.ReferenceIdeal
import proofs.«415619_j30408368456386_1_alg».proof.Proof.Gen.Pre_finite_inputs
import proofs.«415619_j30408368456386_1_alg».proof.Proof.RefFrame
import proofs.«415619_j30408368456386_1_alg».proof.Proof.BridgeFinal

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.HandFrame.frame_ri, trivial, Cert.Agree.algebraic⟩

end Cert.Proof

end
